-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg1 : IVec S2x600000 32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_c_20 : IVec S_ 32 := constantI S_ 32 0#32
  let main_v54 : IVec S2x600000 32 := broadcastInDim S2x600000 ![] bcast_S_S2x600000 main_c_20
  let main_v55 : IVec S2x600000 1 := cmpi .sge main_arg1 main_v54
  let main_c_21 : IVec S_ 1 := constantI S_ 1 1#1
  let main_v56 : IVec S_ 1 := (fun x v => Host.reduce IntOp.andi x v reducesTo_S2x600000_S_d0_1 h_S_) main_v55 main_c_21
  let main_v57 : IVec S_ 1 := andi main_v53 main_v56
  let main_c_22 : IVec S_ 32 := constantI S_ 32 50000#32
  let main_v58 : IVec S2x600000 32 := broadcastInDim S2x600000 ![] bcast_S_S2x600000 main_c_22
  let main_v59 : IVec S2x600000 1 := cmpi .slt main_arg1 main_v58
  let main_c_23 : IVec S_ 1 := constantI S_ 1 1#1
  let main_v60 : IVec S_ 1 := (fun x v => Host.reduce IntOp.andi x v reducesTo_S2x600000_S_d0_1 h_S_) main_v59 main_c_23
  let main_v61 : IVec S_ 1 := andi main_v57 main_v60
  main_v61

def fn_part2 {F : FTy → Type} [FloatOps F] (main_arg1 : IVec S2x600000 32) (main_arg8 : FVec F S128x128 .f32) (main_arg9 : FVec F S128 .f32) (main_arg10 : FVec F S2x128 .f32) (main_arg11 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg1 main_v48 main_v49 main_v50

def fn_part1 {F : FTy → Type} [FloatOps F] (main_arg1 : IVec S2x600000 32) (main_arg5 : FVec F S1 .f32) (main_arg6 : FVec F S128x128 .f32) (main_arg7 : FVec F S128 .f32) (main_arg8 : FVec F S128x128 .f32) (main_arg9 : FVec F S128 .f32) (main_arg10 : FVec F S2x128 .f32) (main_arg11 : FVec F S2 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x600000 32) (main_arg2 : FVec F S64x256 .f32) (main_arg3 : FVec F S64 .f32) (main_arg4 : FVec F S1x64 .f32) (main_arg5 : FVec F S1 .f32) (main_arg6 : FVec F S128x128 .f32) (main_arg7 : FVec F S128 .f32) (main_arg8 : FVec F S128x128 .f32) (main_arg9 : FVec F S128 .f32) (main_arg10 : FVec F S2x128 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x600000 : Shape := ⟨2, ![1, 600000]⟩
abbrev S600000 : Shape := ⟨1, ![600000]⟩
abbrev S_ : Shape := ⟨0, ![]⟩
abbrev S6208 : Shape := ⟨1, ![6208]⟩
abbrev S606208 : Shape := ⟨1, ![606208]⟩
abbrev S606208x1 : Shape := ⟨2, ![606208, 1]⟩
abbrev S1x1 : Shape := ⟨2, ![1, 1]⟩
abbrev S606208x128 : Shape := ⟨2, ![606208, 128]⟩
abbrev S64x128 : Shape := ⟨2, ![64, 128]⟩
abbrev S8192x128 : Shape := ⟨2, ![8192, 128]⟩
abbrev S8192x1 : Shape := ⟨2, ![8192, 1]⟩
abbrev S128x64 : Shape := ⟨2, ![128, 64]⟩
abbrev S8192x64 : Shape := ⟨2, ![8192, 64]⟩
abbrev S64x1 : Shape := ⟨2, ![64, 1]⟩
abbrev S600000x1 : Shape := ⟨2, ![600000, 1]⟩
abbrev S50000 : Shape := ⟨1, ![50000]⟩
abbrev S650000 : Shape := ⟨1, ![650000]⟩
abbrev S650000x1 : Shape := ⟨2, ![650000, 1]⟩
abbrev S50000x1 : Shape := ⟨2, ![50000, 1]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S1x2 : Shape := ⟨2, ![1, 2]⟩
abbrev S50000x2 : Shape := ⟨2, ![50000, 2]⟩
abbrev S5000x2 : Shape := ⟨2, ![5000, 2]⟩
abbrev S128x2 : Shape := ⟨2, ![128, 2]⟩

abbrev nBuf : Space → Nat
  | .hbm => 212
  | .vmem => 45
  | .smem => 0
  | _ => 0

abbrev hbmTy0_0 (i : Nat) : BufTy := match i % 128 with
  | 0 => ⟨S50000x128, .f32⟩
  | 1 => ⟨S2x600000, .i32⟩
  | 2 => ⟨S64x256, .f32⟩
  | 3 => ⟨S64, .f32⟩
  | 4 => ⟨S1x64, .f32⟩
  | 5 => ⟨S1, .f32⟩
  | 6 => ⟨S128x128, .f32⟩
  | 7 => ⟨S128, .f32⟩
  | 8 => ⟨S128x128, .f32⟩
  | 9 => ⟨S128, .f32⟩
  | 10 => ⟨S2x128, .f32⟩
  | 11 => ⟨S2, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S6208, .i32⟩
  | 18 => ⟨S606208, .i32⟩
  | 19 => ⟨S606208, .i32⟩
  | 20 => ⟨S_, .i32⟩
  | 21 => ⟨S606208, .i32⟩
  | 22 => ⟨S606208, .i1⟩
  | 23 => ⟨S_, .i32⟩
  | 24 => ⟨S606208, .i32⟩
  | 25 => ⟨S606208, .i32⟩
  | 26 => ⟨S606208, .i32⟩
  | 27 => ⟨S606208x1, .i32⟩
  | 28 => ⟨S1, .i32⟩
  | 29 => ⟨S_, .i32⟩
  | 30 => ⟨S606208x1, .i32⟩
  | 31 => ⟨S606208x1, .i1⟩
  | 32 => ⟨S1x1, .i32⟩
  | 33 => ⟨S606208x1, .i32⟩
  | 34 => ⟨S606208x1, .i1⟩
  | 35 => ⟨S606208x1, .i1⟩
  | 36 => ⟨S_, .i1⟩
  | 37 => ⟨S606208, .i1⟩
  | 38 => ⟨S606208x128, .f32⟩
  | 39 => ⟨S606208x128, .i1⟩
  | 40 => ⟨S_, .f32⟩
  | 41 => ⟨S606208x128, .f32⟩
  | 42 => ⟨S606208x128, .f32⟩
  | 43 => ⟨S_, .i32⟩
  | 44 => ⟨S606208, .i32⟩
  | 45 => ⟨S606208, .i1⟩
  | 46 => ⟨S_, .i32⟩
  | 47 => ⟨S606208, .i32⟩
  | 48 => ⟨S606208, .i32⟩
  | 49 => ⟨S606208, .i32⟩
  | 50 => ⟨S606208x1, .i32⟩
  | 51 => ⟨S1, .i32⟩
  | 52 => ⟨S_, .i32⟩
  | 53 => ⟨S606208x1, .i32⟩
  | 54 => ⟨S606208x1, .i1⟩
  | 55 => ⟨S1x1, .i32⟩
  | 56 => ⟨S606208x1, .i32⟩
  | 57 => ⟨S606208x1, .i1⟩
  | 58 => ⟨S606208x1, .i1⟩
  | 59 => ⟨S_, .i1⟩
  | 60 => ⟨S606208, .i1⟩
  | 61 => ⟨S606208x128, .f32⟩
  | 62 => ⟨S606208x128, .i1⟩
  | 63 => ⟨S_, .f32⟩
  | 64 => ⟨S606208x128, .f32⟩
  | 65 => ⟨S606208x128, .f32⟩
  | 66 => ⟨S64x128, .f32⟩
  | 67 => ⟨S64x128, .f32⟩
  | 68 => ⟨S1x64, .f32⟩
  | 69 => ⟨S1x1, .f32⟩
  | 70 => ⟨S606208x1, .f32⟩
  | 71 => ⟨S600000x1, .f32⟩
  | 72 => ⟨S600000, .f32⟩
  | 73 => ⟨S50000, .i32⟩
  | 74 => ⟨S_, .f32⟩
  | 75 => ⟨S50000, .f32⟩
  | 76 => ⟨S650000, .f32⟩
  | 77 => ⟨S650000, .i32⟩
  | 78 => ⟨S_, .f32⟩
  | 79 => ⟨S50000, .f32⟩
  | 80 => ⟨S650000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S50000, .f32⟩
  | 87 => ⟨S50000, .i1⟩
  | 88 => ⟨S_, .f32⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S50000x1, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S1, .i32⟩
  | 107 => ⟨S_, .i32⟩
  | 108 => ⟨S600000x1, .i32⟩
  | 109 => ⟨S600000x1, .i1⟩
  | 110 => ⟨S1x1, .i32⟩
  | 111 => ⟨S600000x1, .i32⟩
  | 112 => ⟨S600000x1, .i1⟩
  | 113 => ⟨S600000x1, .i1⟩
  | 114 => ⟨S_, .i1⟩
  | 115 => ⟨S600000, .i1⟩
  | 116 => ⟨S600000, .f32⟩
  | 117 => ⟨S_, .f32⟩
  | 118 => ⟨S600000, .f32⟩
  | 119 => ⟨S600000, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x128, .f32⟩

abbrev hbmTy0_1 (i : Nat) : BufTy := match i % 128 with
  | 0 => ⟨S1, .i32⟩
  | 1 => ⟨S_, .i32⟩
  | 2 => ⟨S600000x1, .i32⟩
  | 3 => ⟨S600000x1, .i1⟩
  | 4 => ⟨S1x1, .i32⟩
  | 5 => ⟨S600000x1, .i32⟩
  | 6 => ⟨S600000x1, .i1⟩
  | 7 => ⟨S600000x1, .i1⟩
  | 8 => ⟨S_, .i1⟩
  | 9 => ⟨S600000, .i1⟩
  | 10 => ⟨S600000, .f32⟩
  | 11 => ⟨S_, .f32⟩
  | 12 => ⟨S600000, .f32⟩
  | 13 => ⟨S600000, .f32⟩
  | 14 => ⟨S600000, .f32⟩
  | 15 => ⟨S600000, .f32⟩
  | 16 => ⟨S50000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S1, .i32⟩
  | 26 => ⟨S_, .i32⟩
  | 27 => ⟨S600000x1, .i32⟩
  | 28 => ⟨S600000x1, .i1⟩
  | 29 => ⟨S1x1, .i32⟩
  | 30 => ⟨S600000x1, .i32⟩
  | 31 => ⟨S600000x1, .i1⟩
  | 32 => ⟨S600000x1, .i1⟩
  | 33 => ⟨S_, .i1⟩
  | 34 => ⟨S600000, .i1⟩
  | 35 => ⟨S600000x128, .f32⟩
  | 36 => ⟨S600000x128, .i1⟩
  | 37 => ⟨S_, .f32⟩
  | 38 => ⟨S600000x128, .f32⟩
  | 39 => ⟨S600000x128, .f32⟩
  | 40 => ⟨S600000x1, .f32⟩
  | 41 => ⟨S600000x128, .f32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S1x128, .f32⟩
  | 48 => ⟨S50000x128, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S1, .i32⟩
  | 59 => ⟨S_, .i32⟩
  | 60 => ⟨S600000x1, .i32⟩
  | 61 => ⟨S600000x1, .i1⟩
  | 62 => ⟨S1x1, .i32⟩
  | 63 => ⟨S600000x1, .i32⟩
  | 64 => ⟨S600000x1, .i1⟩
  | 65 => ⟨S600000x1, .i1⟩
  | 66 => ⟨S_, .i1⟩
  | 67 => ⟨S600000, .i1⟩
  | 68 => ⟨S600000x128, .f32⟩
  | 69 => ⟨S600000x128, .i1⟩
  | 70 => ⟨S_, .f32⟩
  | 71 => ⟨S600000x128, .f32⟩
  | 72 => ⟨S600000x128, .f32⟩
  | 73 => ⟨S600000x1, .f32⟩
  | 74 => ⟨S600000x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S1x128, .f32⟩
  | 81 => ⟨S50000x128, .f32⟩
  | 82 => ⟨S1x2, .f32⟩
  | 83 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S64x128, .f32⟩
  | .local _ .vmem, ⟨5, _⟩ => ⟨S64x128, .f32⟩
  | .local _ .vmem, ⟨6, _⟩ => ⟨S1x64, .f32⟩
  | .local _ .vmem, ⟨7, _⟩ => ⟨S1x64, .f32⟩
  | .local _ .vmem, ⟨8, _⟩ => ⟨S1x1, .f32⟩
  | .local _ .vmem, ⟨9, _⟩ => ⟨S8192x1, .f32⟩
  | .local _ .vmem, ⟨10, _⟩ => ⟨S8192x1, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S2x128, .f32⟩
  | .local _ .vmem, ⟨42, _⟩ => ⟨S1x2, .f32⟩
  | .local _ .vmem, ⟨43, _⟩ => ⟨S5000x2, .f32⟩
  | .local _ .vmem, ⟨44, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v7 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_cst : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_cst_0 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_cst_1 : Ref sig .tc := ⟨.hbm, 82, rfl⟩
abbrev main_v23 : Ref sig .tc := ⟨.hbm, 83, rfl⟩
abbrev main_v24 : Ref sig .tc := ⟨.hbm, 84, rfl⟩
abbrev main_cst_2 : Ref sig .tc := ⟨.hbm, 85, rfl⟩
abbrev main_v25 : Ref sig .tc := ⟨.hbm, 86, rfl⟩
abbrev main_v26 : Ref sig .tc := ⟨.hbm, 87, rfl⟩
abbrev main_cst_3 : Ref sig .tc := ⟨.hbm, 88, rfl⟩
abbrev main_call2_v0 : Ref sig .tc := ⟨.hbm, 89, rfl⟩
abbrev main_call2_v1 : Ref sig .tc := ⟨.hbm, 90, rfl⟩
abbrev main_v27 : Ref sig .tc := ⟨.hbm, 91, rfl⟩
abbrev main_v28 : Ref sig .tc := ⟨.hbm, 92, rfl⟩
abbrev main_cst_4 : Ref sig .tc := ⟨.hbm, 93, rfl⟩
abbrev main_call3_v0 : Ref sig .tc := ⟨.hbm, 94, rfl⟩
abbrev main_call3_v1 : Ref sig .tc := ⟨.hbm, 95, rfl⟩
abbrev main_v29 : Ref sig .tc := ⟨.hbm, 96, rfl⟩
abbrev main_v30 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_cst : Ref sig .tc := ⟨.hbm, 117, rfl⟩
abbrev main_call4_v14 : Ref sig .tc := ⟨.hbm, 118, rfl⟩
abbrev main_v31 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_c_1 : Ref sig .tc := ⟨.hbm, 128, rfl⟩
abbrev main_call5_c_2 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_3 : Ref sig .tc := ⟨.hbm, 136, rfl⟩
abbrev main_call5_v12 : Ref sig .tc := ⟨.hbm, 137, rfl⟩
abbrev main_call5_v13 : Ref sig .tc := ⟨.hbm, 138, rfl⟩
abbrev main_call5_cst : Ref sig .tc := ⟨.hbm, 139, rfl⟩
abbrev main_call5_v14 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_call6_c : Ref sig .tc := ⟨.hbm, 145, rfl⟩
abbrev main_call6_v0 : Ref sig .tc := ⟨.hbm, 146, rfl⟩
abbrev main_call6_v1 : Ref sig .tc := ⟨.hbm, 147, rfl⟩
abbrev main_call6_c_0 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_c_1 : Ref sig .tc := ⟨.hbm, 153, rfl⟩
abbrev main_call6_c_2 : Ref sig .tc := ⟨.hbm, 154, rfl⟩
abbrev main_call6_v6 : Ref sig .tc := ⟨.hbm, 155, rfl⟩
abbrev main_call6_v7 : Ref sig .tc := ⟨.hbm, 156, rfl⟩
abbrev main_call6_v8 : Ref sig .tc := ⟨.hbm, 157, rfl⟩
abbrev main_call6_v9 : Ref sig .tc := ⟨.hbm, 158, rfl⟩
abbrev main_call6_v10 : Ref sig .tc := ⟨.hbm, 159, rfl⟩
abbrev main_call6_v11 : Ref sig .tc := ⟨.hbm, 160, rfl⟩
abbrev main_call6_c_3 : Ref sig .tc := ⟨.hbm, 161, rfl⟩
abbrev main_call6_v12 : Ref sig .tc := ⟨.hbm, 162, rfl⟩
abbrev main_call6_v13 : Ref sig .tc := ⟨.hbm, 163, rfl⟩
abbrev main_call6_v14 : Ref sig .tc := ⟨.hbm, 164, rfl⟩
abbrev main_call6_cst : Ref sig .tc := ⟨.hbm, 165, rfl⟩
abbrev main_call6_v15 : Ref sig .tc := ⟨.hbm, 166, rfl⟩
abbrev main_v36 : Ref sig .tc := ⟨.hbm, 167, rfl⟩
abbrev main_v37 : Ref sig .tc := ⟨.hbm, 168, rfl⟩
abbrev main_v38 : Ref sig .tc := ⟨.hbm, 169, rfl⟩
abbrev main_v39 : Ref sig .tc := ⟨.hbm, 170, rfl⟩
abbrev main_cst_5 : Ref sig .tc := ⟨.hbm, 171, rfl⟩
abbrev main_v40 : Ref sig .tc := ⟨.hbm, 172, rfl⟩
abbrev main_v41 : Ref sig .tc := ⟨.hbm, 173, rfl⟩
abbrev main_v42 : Ref sig .tc := ⟨.hbm, 174, rfl⟩
abbrev main_v43 : Ref sig .tc := ⟨.hbm, 175, rfl⟩
abbrev main_v44 : Ref sig .tc := ⟨.hbm, 176, rfl⟩
abbrev main_v45 : Ref sig .tc := ⟨.hbm, 177, rfl⟩
abbrev main_call7_c : Ref sig .tc := ⟨.hbm, 178, rfl⟩
abbrev main_call7_v0 : Ref sig .tc := ⟨.hbm, 179, rfl⟩
abbrev main_call7_v1 : Ref sig .tc := ⟨.hbm, 180, rfl⟩
abbrev main_call7_c_0 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_c_1 : Ref sig .tc := ⟨.hbm, 186, rfl⟩
abbrev main_call7_c_2 : Ref sig .tc := ⟨.hbm, 187, rfl⟩
abbrev main_call7_v6 : Ref sig .tc := ⟨.hbm, 188, rfl⟩
abbrev main_call7_v7 : Ref sig .tc := ⟨.hbm, 189, rfl⟩
abbrev main_call7_v8 : Ref sig .tc := ⟨.hbm, 190, rfl⟩
abbrev main_call7_v9 : Ref sig .tc := ⟨.hbm, 191, rfl⟩
abbrev main_call7_v10 : Ref sig .tc := ⟨.hbm, 192, rfl⟩
abbrev main_call7_v11 : Ref sig .tc := ⟨.hbm, 193, rfl⟩
abbrev main_call7_c_3 : Ref sig .tc := ⟨.hbm, 194, rfl⟩
abbrev main_call7_v12 : Ref sig .tc := ⟨.hbm, 195, rfl⟩
abbrev main_call7_v13 : Ref sig .tc := ⟨.hbm, 196, rfl⟩
abbrev main_call7_v14 : Ref sig .tc := ⟨.hbm, 197, rfl⟩
abbrev main_call7_cst : Ref sig .tc := ⟨.hbm, 198, rfl⟩
abbrev main_call7_v15 : Ref sig .tc := ⟨.hbm, 199, rfl⟩
abbrev main_v46 : Ref sig .tc := ⟨.hbm, 200, rfl⟩
abbrev main_v47 : Ref sig .tc := ⟨.hbm, 201, rfl⟩
abbrev main_v48 : Ref sig .tc := ⟨.hbm, 202, rfl⟩
abbrev main_v49 : Ref sig .tc := ⟨.hbm, 203, rfl⟩
abbrev main_cst_6 : Ref sig .tc := ⟨.hbm, 204, rfl⟩
abbrev main_v50 : Ref sig .tc := ⟨.hbm, 205, rfl⟩
abbrev main_v51 : Ref sig .tc := ⟨.hbm, 206, rfl⟩
abbrev main_v52 : Ref sig .tc := ⟨.hbm, 207, rfl⟩
abbrev main_v53 : Ref sig .tc := ⟨.hbm, 208, rfl⟩
abbrev main_v54 : Ref sig .tc := ⟨.hbm, 209, rfl⟩
abbrev main_v55 : Ref sig .tc := ⟨.hbm, 210, rfl⟩
abbrev main_v56 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem3_1 : DmaSem sig := 44

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S6208 : S_.BroadcastsInDim S6208 (![] : Fin 0 → Fin S6208.rank)
  concatenates_S600000_S6208_S606208_d0 : Shape.Concatenates [S600000, S6208] S606208 0
  bcast_S_S606208 : S_.BroadcastsInDim S606208 (![] : Fin 0 → Fin S606208.rank)
  bcast_S606208_S606208x1_0 : S606208.BroadcastsInDim S606208x1 (![0] : Fin 1 → Fin S606208x1.rank)
  bcast_S_S606208x1 : S_.BroadcastsInDim S606208x1 (![] : Fin 0 → Fin S606208x1.rank)
  bcast_S1_S1x1_1 : S1.BroadcastsInDim S1x1 (![1] : Fin 1 → Fin S1x1.rank)
  bcast_S1x1_S606208x1_0_1 : S1x1.BroadcastsInDim S606208x1 (![0, 1] : Fin 2 → Fin S606208x1.rank)
  reducesTo_S606208x1_S606208_d1 : S606208x1.ReducesTo [1] S606208
  h_S_ : 0 < S_.numel
  bcast_S606208_S606208x128_0 : S606208.BroadcastsInDim S606208x128 (![0] : Fin 1 → Fin S606208x128.rank)
  bcast_S_S606208x128 : S_.BroadcastsInDim S606208x128 (![] : Fin 0 → Fin S606208x128.rank)
  slices_S64x256_S64x128_0_0 : S64x256.Slices ![0, 0] S64x128
  slices_S64x256_S64x128_0_128 : S64x256.Slices ![0, 128] S64x128
  shapeCasts_S64_S1x64 : S64.ShapeCasts S1x64
  shapeCasts_S1_S1x1 : S1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  slices_S606208x1_S600000x1_0_0 : S606208x1.Slices ![0, 0] S600000x1
  shapeCasts_S600000x1_S600000 : S600000x1.ShapeCasts S600000
  bcast_S_S50000 : S_.BroadcastsInDim S50000 (![] : Fin 0 → Fin S50000.rank)
  concatenates_S600000_S50000_S650000_d0 : Shape.Concatenates [S600000, S50000] S650000 0
  bcast_S650000_S650000x1_0 : S650000.BroadcastsInDim S650000x1 (![0] : Fin 1 → Fin S650000x1.rank)
  shapeCasts_S50000_S50000x1 : S50000.ShapeCasts S50000x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1x1_S600000x1_0_1 : S1x1.BroadcastsInDim S600000x1 (![0, 1] : Fin 2 → Fin S600000x1.rank)
  reducesTo_S600000x1_S600000_d1 : S600000x1.ReducesTo [1] S600000
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x128_S606208x1_S606208x128_1_0_n_n_0_1_1128_wf : GatherDims.WF S50000x128 S606208x1 S606208x128 [1] [0] [] [0] [] 1 ![1, 128]
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  scatter_S50000_S650000x1_S650000_n_0_0_1_wf : ScatterDims.WF S50000 S650000x1 S650000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S606208x128.size a
  hwx0_0 : ∀ i : grid0.Coords, EltTy.bits .f32 = 32 ∨ (Rect.block (s := S606208x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S606208x128.size a
  hwx0_1 : ∀ i : grid0.Coords, EltTy.bits .f32 = 32 ∨ (Rect.block (s := S606208x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S606208x1.size a
  hwx0_7 : ∀ i : grid0.Coords, EltTy.bits .f32 = 32 ∨ (Rect.block (s := S606208x1) S8192x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2x128.size a ≤ S2x128.size a
  hwx5_1 : ∀ i : grid5.Coords, EltTy.bits .f32 = 32 ∨ (Rect.block (s := S2x128) S2x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x2.size a ≤ S50000x2.size a
  hwx5_3 : ∀ i : grid5.Coords, EltTy.bits .f32 = 32 ∨ (Rect.block (s := S50000x2) S5000x2.size (cc5_transform_3 i) (hinb5_3 i)).WholeWords (EltTy.packing .f32)

variable [Facts₀]

def gather_S50000x128_S606208x1_S606208x128_1_0_n_n_0_1_1128 : GatherDims S50000x128 S606208x1 S606208x128 where
  offsetDims := [1]
  collapsedSliceDims := [0]
  operandBatchingDims := []
  startIndicesBatchingDims := []
  startIndexMap := [0]
  indexVectorDim := 1
  sliceSizes := ![1, 128]
  wf := gather_S50000x128_S606208x1_S606208x128_1_0_n_n_0_1_1128_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v7) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v54) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S2x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S5000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S256x64 : Shape := ⟨2, ![256, 64]⟩
abbrev S600000x64 : Shape := ⟨2, ![600000, 64]⟩
abbrev S64x1 : Shape := ⟨2, ![64, 1]⟩
abbrev S1x1 : Shape := ⟨2, ![1, 1]⟩
abbrev S50000 : Shape := ⟨1, ![50000]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 208
  | .vmem => 0
  | .smem => 0
  | _ => 0

abbrev hbmTy0_0 (i : Nat) : BufTy := match i % 128 with
  | 0 => ⟨S50000x128, .f32⟩
  | 1 => ⟨S2x600000, .i32⟩
  | 2 => ⟨S64x256, .f32⟩
  | 3 => ⟨S64, .f32⟩
  | 4 => ⟨S1x64, .f32⟩
  | 5 => ⟨S1, .f32⟩
  | 6 => ⟨S128x128, .f32⟩
  | 7 => ⟨S128, .f32⟩
  | 8 => ⟨S128x128, .f32⟩
  | 9 => ⟨S128, .f32⟩
  | 10 => ⟨S2x128, .f32⟩
  | 11 => ⟨S2, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S600000x256, .f32⟩
  | 35 => ⟨S256x64, .f32⟩
  | 36 => ⟨S600000x64, .f32⟩
  | 37 => ⟨S1x64, .f32⟩
  | 38 => ⟨S600000x64, .f32⟩
  | 39 => ⟨S600000x64, .f32⟩
  | 40 => ⟨S_, .f32⟩
  | 41 => ⟨S600000x64, .f32⟩
  | 42 => ⟨S600000x64, .f32⟩
  | 43 => ⟨S64x1, .f32⟩
  | 44 => ⟨S600000x1, .f32⟩
  | 45 => ⟨S1x1, .f32⟩
  | 46 => ⟨S600000x1, .f32⟩
  | 47 => ⟨S600000x1, .f32⟩
  | 48 => ⟨S600000x1, .f32⟩
  | 49 => ⟨S600000x1, .f32⟩
  | 50 => ⟨S_, .f32⟩
  | 51 => ⟨S600000x1, .f32⟩
  | 52 => ⟨S600000x1, .f32⟩
  | 53 => ⟨S_, .f32⟩
  | 54 => ⟨S600000x1, .f32⟩
  | 55 => ⟨S600000x1, .f32⟩
  | 56 => ⟨S600000, .f32⟩
  | 57 => ⟨S50000, .i32⟩
  | 58 => ⟨S650000, .i32⟩
  | 59 => ⟨S650000, .i32⟩
  | 60 => ⟨S_, .f32⟩
  | 61 => ⟨S50000, .f32⟩
  | 62 => ⟨S650000, .f32⟩
  | 63 => ⟨S_, .f32⟩
  | 64 => ⟨S50000, .f32⟩
  | 65 => ⟨S650000x1, .i32⟩
  | 66 => ⟨S50000, .f32⟩
  | 67 => ⟨S_, .f32⟩
  | 68 => ⟨S50000, .f32⟩
  | 69 => ⟨S50000, .i1⟩
  | 70 => ⟨S_, .f32⟩
  | 71 => ⟨S50000, .f32⟩
  | 72 => ⟨S50000, .i1⟩
  | 73 => ⟨S_, .f32⟩
  | 74 => ⟨S_, .f32⟩
  | 75 => ⟨S50000, .f32⟩
  | 76 => ⟨S50000, .f32⟩
  | 77 => ⟨S50000, .f32⟩
  | 78 => ⟨S_, .f32⟩
  | 79 => ⟨S_, .f32⟩
  | 80 => ⟨S50000, .f32⟩
  | 81 => ⟨S50000, .f32⟩
  | 82 => ⟨S_, .i32⟩
  | 83 => ⟨S650000, .i32⟩
  | 84 => ⟨S650000, .i1⟩
  | 85 => ⟨S_, .i32⟩
  | 86 => ⟨S650000, .i32⟩
  | 87 => ⟨S650000, .i32⟩
  | 88 => ⟨S650000, .i32⟩
  | 89 => ⟨S650000x1, .i32⟩
  | 90 => ⟨S650000, .f32⟩
  | 91 => ⟨S650000, .f32⟩
  | 92 => ⟨S_, .i32⟩
  | 93 => ⟨S650000, .i32⟩
  | 94 => ⟨S650000, .i1⟩
  | 95 => ⟨S_, .i32⟩
  | 96 => ⟨S650000, .i32⟩
  | 97 => ⟨S650000, .i32⟩
  | 98 => ⟨S650000, .i32⟩
  | 99 => ⟨S650000x1, .i32⟩
  | 100 => ⟨S650000, .f32⟩
  | 101 => ⟨S650000, .f32⟩
  | 102 => ⟨S128x128, .f32⟩
  | 103 => ⟨S50000x128, .f32⟩
  | 104 => ⟨S650000x1, .f32⟩
  | 105 => ⟨S_, .i32⟩
  | 106 => ⟨S650000, .i32⟩
  | 107 => ⟨S650000, .i1⟩
  | 108 => ⟨S_, .i32⟩
  | 109 => ⟨S650000, .i32⟩
  | 110 => ⟨S650000, .i32⟩
  | 111 => ⟨S650000, .i32⟩
  | 112 => ⟨S650000x1, .i32⟩
  | 113 => ⟨S650000x128, .f32⟩
  | 114 => ⟨S650000x128, .f32⟩
  | 115 => ⟨S650000x128, .f32⟩
  | 116 => ⟨S_, .f32⟩
  | 117 => ⟨S50000x128, .f32⟩
  | 118 => ⟨S650000x1, .i32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000, .i32⟩
  | 127 => ⟨S650000, .i32⟩
  | _ => ⟨S50000x128, .f32⟩

abbrev hbmTy0_1 (i : Nat) : BufTy := match i % 128 with
  | 0 => ⟨S650000, .i32⟩
  | 1 => ⟨S_, .f32⟩
  | 2 => ⟨S50000, .f32⟩
  | 3 => ⟨S650000, .f32⟩
  | 4 => ⟨S_, .f32⟩
  | 5 => ⟨S50000, .f32⟩
  | 6 => ⟨S650000x1, .i32⟩
  | 7 => ⟨S50000, .f32⟩
  | 8 => ⟨S_, .f32⟩
  | 9 => ⟨S50000, .f32⟩
  | 10 => ⟨S50000, .i1⟩
  | 11 => ⟨S_, .f32⟩
  | 12 => ⟨S50000, .f32⟩
  | 13 => ⟨S50000, .i1⟩
  | 14 => ⟨S_, .f32⟩
  | 15 => ⟨S_, .f32⟩
  | 16 => ⟨S50000, .f32⟩
  | 17 => ⟨S50000, .f32⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S650000, .i32⟩
  | 25 => ⟨S650000, .i1⟩
  | 26 => ⟨S_, .i32⟩
  | 27 => ⟨S650000, .i32⟩
  | 28 => ⟨S650000, .i32⟩
  | 29 => ⟨S650000, .i32⟩
  | 30 => ⟨S650000x1, .i32⟩
  | 31 => ⟨S650000, .f32⟩
  | 32 => ⟨S650000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S650000, .f32⟩
  | 43 => ⟨S128x128, .f32⟩
  | 44 => ⟨S50000x128, .f32⟩
  | 45 => ⟨S650000x1, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000x128, .f32⟩
  | 55 => ⟨S650000x128, .f32⟩
  | 56 => ⟨S650000x128, .f32⟩
  | 57 => ⟨S_, .f32⟩
  | 58 => ⟨S50000x128, .f32⟩
  | 59 => ⟨S650000x1, .i32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S128x2, .f32⟩
  | 68 => ⟨S50000x2, .f32⟩
  | 69 => ⟨S1x2, .f32⟩
  | 70 => ⟨S50000x2, .f32⟩
  | 71 => ⟨S50000x2, .f32⟩
  | 72 => ⟨S50000x2, .f32⟩
  | 73 => ⟨S50000x2, .f32⟩
  | 74 => ⟨S_, .f32⟩
  | 75 => ⟨S50000x2, .f32⟩
  | 76 => ⟨S50000x2, .f32⟩
  | 77 => ⟨S_, .f32⟩
  | 78 => ⟨S50000x2, .f32⟩
  | 79 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_call1_v0 : Ref sig .tc := ⟨.hbm, 74, rfl⟩
abbrev main_call1_v1 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_call3_cst : Ref sig .tc := ⟨.hbm, 123, rfl⟩
abbrev main_call3_v0 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_cst_20 : Ref sig .tc := ⟨.hbm, 139, rfl⟩
abbrev main_v97 : Ref sig .tc := ⟨.hbm, 140, rfl⟩
abbrev main_v98 : Ref sig .tc := ⟨.hbm, 141, rfl⟩
abbrev main_cst_21 : Ref sig .tc := ⟨.hbm, 142, rfl⟩
abbrev main_call4_v0 : Ref sig .tc := ⟨.hbm, 143, rfl⟩
abbrev main_call4_v1 : Ref sig .tc := ⟨.hbm, 144, rfl⟩
abbrev main_v99 : Ref sig .tc := ⟨.hbm, 145, rfl⟩
abbrev main_v100 : Ref sig .tc := ⟨.hbm, 146, rfl⟩
abbrev main_cst_22 : Ref sig .tc := ⟨.hbm, 147, rfl⟩
abbrev main_call5_v0 : Ref sig .tc := ⟨.hbm, 148, rfl⟩
abbrev main_call5_v1 : Ref sig .tc := ⟨.hbm, 149, rfl⟩
abbrev main_v101 : Ref sig .tc := ⟨.hbm, 150, rfl⟩
abbrev main_c_23 : Ref sig .tc := ⟨.hbm, 151, rfl⟩
abbrev main_v102 : Ref sig .tc := ⟨.hbm, 152, rfl⟩
abbrev main_v103 : Ref sig .tc := ⟨.hbm, 153, rfl⟩
abbrev main_c_24 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_c_25 : Ref sig .tc := ⟨.hbm, 161, rfl⟩
abbrev main_v110 : Ref sig .tc := ⟨.hbm, 162, rfl⟩
abbrev main_v111 : Ref sig .tc := ⟨.hbm, 163, rfl⟩
abbrev main_c_26 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_c_27 : Ref sig .tc := ⟨.hbm, 174, rfl⟩
abbrev main_v121 : Ref sig .tc := ⟨.hbm, 175, rfl⟩
abbrev main_v122 : Ref sig .tc := ⟨.hbm, 176, rfl⟩
abbrev main_c_28 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_29 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_call6_cst : Ref sig .tc := ⟨.hbm, 192, rfl⟩
abbrev main_call6_v0 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_30 : Ref sig .tc := ⟨.hbm, 202, rfl⟩
abbrev main_v144 : Ref sig .tc := ⟨.hbm, 203, rfl⟩
abbrev main_v145 : Ref sig .tc := ⟨.hbm, 204, rfl⟩
abbrev main_cst_31 : Ref sig .tc := ⟨.hbm, 205, rfl⟩
abbrev main_v146 : Ref sig .tc := ⟨.hbm, 206, rfl⟩
abbrev main_v147 : Ref sig .tc := ⟨.hbm, 207, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  transposes_S64x256_S256x64_1_0 : S64x256.Transposes [1, 0] S256x64
  bcast_S64_S1x64_1 : S64.BroadcastsInDim S1x64 (![1] : Fin 1 → Fin S1x64.rank)
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  transposes_S1x64_S64x1_1_0 : S1x64.Transposes [1, 0] S64x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  shapeCasts_S600000x1_S600000 : S600000x1.ShapeCasts S600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  transposes_S128x128_S128x128_1_0 : S128x128.Transposes [1, 0] S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  gather_S50000x128_S600000x1_S600000x128_1_0_n_n_0_1_1128_wf : GatherDims.WF S50000x128 S600000x1 S600000x128 [1] [0] [] [0] [] 1 ![1, 128]
  dot_S600000x256_S256x64_S600000x64_1_0_0_1_n_n_wf : DotDims.WF S600000x256 S256x64 S600000x64 [1] [0] [0] [1] [] []
  dot_S600000x64_S64x1_S600000x1_1_0_0_1_n_n_wf : DotDims.WF S600000x64 S64x1 S600000x1 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x2_S50000x2_1_0_0_1_n_n_wf : DotDims.WF S50000x128 S128x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x64_S600000x64_1_0_0_1_n_n : DotDims S600000x256 S256x64 S600000x64 where
  lhsContracting := [1]
  rhsContracting := [0]
  lhsNonContracting := [0]
  rhsNonContracting := [1]
  lhsBatch := []
  rhsBatch := []
  wf := dot_S600000x256_S256x64_S600000x64_1_0_0_1_n_n_wf
def dot_S600000x64_S64x1_S600000x1_1_0_0_1_n_n : DotDims S600000x64 S64x1 S600000x1 where
  lhsContracting := [1]
  rhsContracting := [0]
  lhsNonContracting := [0]
  rhsNonContracting := [1]
  lhsBatch := []
  rhsBatch := []
  wf := dot_S600000x64_S64x1_S600000x1_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.RefRun.lean ====
/-
  The reference's @main is 196 array operations in order. Its run is read in twelve stretches: after each stretch the
  buffers still to be read hold the stage functions of the twelve arguments (one function per operation: the value the
  operation writes), so after the last stretch the result buffer holds the last stage; no operation writes an argument,
  so the arguments end as they began. Every weakly fair execution of @main terminates in that state, for any float values.
-/
import proofs.«404812_j66486093742317_1_alg».proof.Proof.RefStages
import Idealize.ShloMosaic.Lib.StableHlo.Run
import Idealize.ShloMosaic.Lib.Pipeline.Frame

set_option Elab.async false

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The operations, in twelve lists -/

/-- @main's operations 1 … 22 of 196. -/
abbrev ops1 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v3 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v13 (broadcastInDim S600000 ![] bcast_S_S600000 : (⟨S_, .i32⟩ : BufTy).Contents (Elt F) → (⟨S600000, .i32⟩ : BufTy).Contents (Elt F)),
    binary main_v3 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- @main's operations 23 … 46 of 196. -/
abbrev ops2 : List (HloOp τ sig (Elt F)) :=
  [ binary main_v10 main_v17 main_v18 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    unary main_arg2 main_v19 ((transpose S256x64 [1, 0] · transposes_S64x256_S256x64_1_0) : (⟨S64x256, .f32⟩ : BufTy).Contents (Elt F) → (⟨S256x64, .f32⟩ : BufTy).Contents (Elt F)),
    binary main_v18 main_v19 main_v20 ((fun l r => Host.dotGeneral dot_S600000x256_S256x64_S600000x64_1_0_0_1_n_n none l r) : (⟨S600000x256, .f32⟩ : BufTy).Contents (Elt F) → (⟨S256x64, .f32⟩ : BufTy).Contents (Elt F) → (⟨S600000x64, .f32⟩ : BufTy).Contents (Elt F)),
    unary main_arg3 main_v21 (broadcastInDim S1x64 ![1] bcast_S64_S1x64_1 : (⟨S64, .f32⟩ : BufTy).Contents (Elt F) → (⟨S1x64, .f32⟩ : BufTy).Contents (Elt F)),
    unary main_v21 main_v22 (broadcastInDim S600000x64 ![0, 1] bcast_S1x64_S600000x64_0_1 : (⟨S1x64, .f32⟩ : BufTy).Contents (Elt F) → (⟨S600000x64, .f32⟩ : BufTy).Contents (Elt F)),
    binary main_v20 main_v22 main_v23 (addf : (⟨S600000x64, .f32⟩ : BufTy).Contents (Elt F) → (⟨S600000x64, .f32⟩ : BufTy).Contents (Elt F) → (⟨S600000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S600000x64, .f32⟩) main_call0_v0) (broadcastInDim S600000x64 ![] bcast_S_S600000x64),
    TRef.binary (TRef.of (T := ⟨S600000x64, .f32⟩) main_v23) (TRef.of (T := ⟨S600000x64, .f32⟩) main_call0_v0) (TRef.of (T := ⟨S600000x64, .f32⟩) main_v24) maximumf,
    unary main_arg4 main_v25 ((transpose S64x1 [1, 0] · transposes_S1x64_S64x1_1_0) : (⟨S1x64, .f32⟩ : BufTy).Contents (Elt F) → (⟨S64x1, .f32⟩ : BufTy).Contents (Elt F)),
    binary main_v24 main_v25 main_v26 ((fun l r => Host.dotGeneral dot_S600000x64_S64x1_S600000x1_1_0_0_1_n_n none l r) : (⟨S600000x64, .f32⟩ : BufTy).Contents (Elt F) → (⟨S64x1, .f32⟩ : BufTy).Contents (Elt F) → (⟨S600000x1, .f32⟩ : BufTy).Contents (Elt F)),
    unary main_arg5 main_v27 (broadcastInDim S1x1 ![1] bcast_S1_S1x1_1 : (⟨S1, .f32⟩ : BufTy).Contents (Elt F) → (⟨S1x1, .f32⟩ : BufTy).Contents (Elt F)),
    unary main_v27 main_v28 (broadcastInDim S600000x1 ![0, 1] bcast_S1x1_S600000x1_0_1 : (⟨S1x1, .f32⟩ : BufTy).Contents (Elt F) → (⟨S600000x1, .f32⟩ : BufTy).Contents (Elt F)),
    binary main_v26 main_v28 main_v29 (addf : (⟨S600000x1, .f32⟩ : BufTy).Contents (Elt F) → (⟨S600000x1, .f32⟩ : BufTy).Contents (Elt F) → (⟨S600000x1, .f32⟩ : BufTy).Contents (Elt F)),
    unary main_v29 main_v30 (Host.negf : (⟨S600000x1, .f32⟩ : BufTy).Contents (Elt F) → (⟨S600000x1, .f32⟩ : BufTy).Contents (Elt F)),
    unary main_v30 main_v31 (Host.exp : (⟨S600000x1, .f32⟩ : BufTy).Contents (Elt F) → (⟨S600000x1, .f32⟩ : BufTy).Contents (Elt F)),
    nullary main_cst (constant S_ .f32 0x3F800000#32),
    unary main_cst main_v32 (broadcastInDim S600000x1 ![] bcast_S_S600000x1 : (⟨S_, .f32⟩ : BufTy).Contents (Elt F) → (⟨S600000x1, .f32⟩ : BufTy).Contents (Elt F)),
    binary main_v32 main_v31 main_v33 (addf : (⟨S600000x1, .f32⟩ : BufTy).Contents (Elt F) → (⟨S600000x1, .f32⟩ : BufTy).Contents (Elt F) → (⟨S600000x1, .f32⟩ : BufTy).Contents (Elt F)),
    nullary main_cst_3 (constant S_ .f32 0x3F800000#32),
    unary main_cst_3 main_v34 (broadcastInDim S600000x1 ![] bcast_S_S600000x1 : (⟨S_, .f32⟩ : BufTy).Contents (Elt F) → (⟨S600000x1, .f32⟩ : BufTy).Contents (Elt F)),
    binary main_v34 main_v33 main_v35 (Host.divf : (⟨S600000x1, .f32⟩ : BufTy).Contents (Elt F) → (⟨S600000x1, .f32⟩ : BufTy).Contents (Elt F) → (⟨S600000x1, .f32⟩ : BufTy).Contents (Elt F)),
    reshape main_v35 main_v36 rfl shapeCasts_S600000x1_S600000,
    nullary main_v37 (iotaInDim S50000 32 0) ]

/-- @main's operations 47 … 47 of 196. -/
abbrev ops3 : List (HloOp τ sig (Elt F)) :=
  [ binary main_v1 main_v37 main_v38 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]

/-- @main's operations 48 … 50 of 196. -/
abbrev ops4 : List (HloOp τ sig (Elt F)) :=
  [ binary main_v3 main_v37 main_v39 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst_4 (constant S_ .f32 0x3F800000#32),
    unary main_cst_4 main_v40 (broadcastInDim S50000 ![] bcast_S_S50000 : (⟨S_, .f32⟩ : BufTy).Contents (Elt F) → (⟨S50000, .f32⟩ : BufTy).Contents (Elt F)) ]

/-- @main's operations 51 … 62 of 196. -/
abbrev ops5 : List (HloOp τ sig (Elt F)) :=
  [ binary main_v36 main_v40 main_v41 ((fun a b => concatenate S650000 0 [⟨S600000, a⟩, ⟨S50000, b⟩] concatenates_S600000_S50000_S650000_d0) : (⟨S600000, .f32⟩ : BufTy).Contents (Elt F) → (⟨S50000, .f32⟩ : BufTy).Contents (Elt F) → (⟨S650000, .f32⟩ : BufTy).Contents (Elt F)),
    nullary main_cst_5 (constant S_ .f32 0x00000000#32),
    unary main_cst_5 main_v42 (broadcastInDim S50000 ![] bcast_S_S50000 : (⟨S_, .f32⟩ : BufTy).Contents (Elt F) → (⟨S50000, .f32⟩ : BufTy).Contents (Elt F)),
    unary main_v39 main_v43 (broadcastInDim S650000x1 ![0] bcast_S650000_S650000x1_0 : (⟨S650000, .i32⟩ : BufTy).Contents (Elt F) → (⟨S650000x1, .i32⟩ : BufTy).Contents (Elt F)),
    ternary main_v42 main_v43 main_v41 main_v44 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_6 (constant S_ .f32 0x00000000#32),
    unary main_cst_6 main_v45 (broadcastInDim S50000 ![] bcast_S_S50000 : (⟨S_, .f32⟩ : BufTy).Contents (Elt F) → (⟨S50000, .f32⟩ : BufTy).Contents (Elt F)),
    binary main_v44 main_v45 main_v46 (cmpf .ogt : (⟨S50000, .f32⟩ : BufTy).Contents (Elt F) → (⟨S50000, .f32⟩ : BufTy).Contents (Elt F) → (⟨S50000, .i1⟩ : BufTy).Contents (Elt F)),
    nullary main_cst_7 (constant S_ .f32 0x00000000#32),
    unary main_cst_7 main_v47 (broadcastInDim S50000 ![] bcast_S_S50000 : (⟨S_, .f32⟩ : BufTy).Contents (Elt F) → (⟨S50000, .f32⟩ : BufTy).Contents (Elt F)),
    binary main_v44 main_v47 main_v48 (cmpf .ogt : (⟨S50000, .f32⟩ : BufTy).Contents (Elt F) → (⟨S50000, .f32⟩ : BufTy).Contents (Elt F) → (⟨S50000, .i1⟩ : BufTy).Contents (Elt F)),
    nullary main_cst_8 (constant S_ .f32 0x3F800000#32) ]

/-- @main's operations 63 … 115 of 196. -/
abbrev ops6 : List (HloOp τ sig (Elt F)) :=
  [ TRef.unary (TRef.of (T := ⟨S_, .f32⟩) main_cst_8) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v48) (TRef.of (T := ⟨S50000, .f32⟩) main_v44) (TRef.of (T := ⟨S50000, .f32⟩) main_call1_v1) (TRef.of (T := ⟨S50000, .f32⟩) main_v49) select,
    unary main_v49 main_v50 (Host.rsqrt : (⟨S50000, .f32⟩ : BufTy).Contents (Elt F) → (⟨S50000, .f32⟩ : BufTy).Contents (Elt F)),
    nullary main_cst_9 (constant S_ .f32 0x00000000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v46) (TRef.of (T := ⟨S50000, .f32⟩) main_v50) (TRef.of (T := ⟨S50000, .f32⟩) main_call2_v1) (TRef.of (T := ⟨S50000, .f32⟩) main_v51) select,
    nullary main_c_10 (constantI S_ 32 0#32),
    unary main_c_10 main_v52 (broadcastInDim S650000 ![] bcast_S_S650000 : (⟨S_, .i32⟩ : BufTy).Contents (Elt F) → (⟨S650000, .i32⟩ : BufTy).Contents (Elt F)),
    binary main_v38 main_v52 main_v53 (cmpi .slt : (⟨S650000, .i32⟩ : BufTy).Contents (Elt F) → (⟨S650000, .i32⟩ : BufTy).Contents (Elt F) → (⟨S650000, .i1⟩ : BufTy).Contents (Elt F)),
    nullary main_c_11 (constantI S_ 32 50000#32),
    unary main_c_11 main_v54 (broadcastInDim S650000 ![] bcast_S_S650000 : (⟨S_, .i32⟩ : BufTy).Contents (Elt F) → (⟨S650000, .i32⟩ : BufTy).Contents (Elt F)),
    binary main_v38 main_v54 main_v55 (addi : (⟨S650000, .i32⟩ : BufTy).Contents (Elt F) → (⟨S650000, .i32⟩ : BufTy).Contents (Elt F) → (⟨S650000, .i32⟩ : BufTy).Contents (Elt F)),
    ternary main_v53 main_v55 main_v38 main_v56 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v56 main_v57 (broadcastInDim S650000x1 ![0] bcast_S650000_S650000x1_0 : (⟨S650000, .i32⟩ : BufTy).Contents (Elt F) → (⟨S650000x1, .i32⟩ : BufTy).Contents (Elt F)),
    binary main_v51 main_v57 main_v58 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v58 main_v41 main_v59 (mulf : (⟨S650000, .f32⟩ : BufTy).Contents (Elt F) → (⟨S650000, .f32⟩ : BufTy).Contents (Elt F) → (⟨S650000, .f32⟩ : BufTy).Contents (Elt F)),
    nullary main_c_12 (constantI S_ 32 0#32),
    unary main_c_12 main_v60 (broadcastInDim S650000 ![] bcast_S_S650000 : (⟨S_, .i32⟩ : BufTy).Contents (Elt F) → (⟨S650000, .i32⟩ : BufTy).Contents (Elt F)),
    binary main_v39 main_v60 main_v61 (cmpi .slt : (⟨S650000, .i32⟩ : BufTy).Contents (Elt F) → (⟨S650000, .i32⟩ : BufTy).Contents (Elt F) → (⟨S650000, .i1⟩ : BufTy).Contents (Elt F)),
    nullary main_c_13 (constantI S_ 32 50000#32),
    unary main_c_13 main_v62 (broadcastInDim S650000 ![] bcast_S_S650000 : (⟨S_, .i32⟩ : BufTy).Contents (Elt F) → (⟨S650000, .i32⟩ : BufTy).Contents (Elt F)),
    binary main_v39 main_v62 main_v63 (addi : (⟨S650000, .i32⟩ : BufTy).Contents (Elt F) → (⟨S650000, .i32⟩ : BufTy).Contents (Elt F) → (⟨S650000, .i32⟩ : BufTy).Contents (Elt F)),
    ternary main_v61 main_v63 main_v39 main_v64 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v64 main_v65 (broadcastInDim S650000x1 ![0] bcast_S650000_S650000x1_0 : (⟨S650000, .i32⟩ : BufTy).Contents (Elt F) → (⟨S650000x1, .i32⟩ : BufTy).Contents (Elt F)),
    binary main_v51 main_v65 main_v66 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v59 main_v66 main_v67 (mulf : (⟨S650000, .f32⟩ : BufTy).Contents (Elt F) → (⟨S650000, .f32⟩ : BufTy).Contents (Elt F) → (⟨S650000, .f32⟩ : BufTy).Contents (Elt F)),
    unary main_arg6 main_v68 ((transpose S128x128 [1, 0] · transposes_S128x128_S128x128_1_0) : (⟨S128x128, .f32⟩ : BufTy).Contents (Elt F) → (⟨S128x128, .f32⟩ : BufTy).Contents (Elt F)),
    binary main_arg0 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v67 main_v70 (broadcastInDim S650000x1 ![0] bcast_S650000_S650000x1_0 : (⟨S650000, .f32⟩ : BufTy).Contents (Elt F) → (⟨S650000x1, .f32⟩ : BufTy).Contents (Elt F)),
    nullary main_c_14 (constantI S_ 32 0#32),
    unary main_c_14 main_v71 (broadcastInDim S650000 ![] bcast_S_S650000 : (⟨S_, .i32⟩ : BufTy).Contents (Elt F) → (⟨S650000, .i32⟩ : BufTy).Contents (Elt F)),
    binary main_v38 main_v71 main_v72 (cmpi .slt : (⟨S650000, .i32⟩ : BufTy).Contents (Elt F) → (⟨S650000, .i32⟩ : BufTy).Contents (Elt F) → (⟨S650000, .i1⟩ : BufTy).Contents (Elt F)),
    nullary main_c_15 (constantI S_ 32 50000#32),
    unary main_c_15 main_v73 (broadcastInDim S650000 ![] bcast_S_S650000 : (⟨S_, .i32⟩ : BufTy).Contents (Elt F) → (⟨S650000, .i32⟩ : BufTy).Contents (Elt F)),
    binary main_v38 main_v73 main_v74 (addi : (⟨S650000, .i32⟩ : BufTy).Contents (Elt F) → (⟨S650000, .i32⟩ : BufTy).Contents (Elt F) → (⟨S650000, .i32⟩ : BufTy).Contents (Elt F)),
    ternary main_v72 main_v74 main_v38 main_v75 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v75 main_v76 (broadcastInDim S650000x1 ![0] bcast_S650000_S650000x1_0 : (⟨S650000, .i32⟩ : BufTy).Contents (Elt F) → (⟨S650000x1, .i32⟩ : BufTy).Contents (Elt F)),
    binary main_v69 main_v76 main_v77 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v70 main_v78 (broadcastInDim S650000x128 ![0, 1] bcast_S650000x1_S650000x128_0_1 : (⟨S650000x1, .f32⟩ : BufTy).Contents (Elt F) → (⟨S650000x128, .f32⟩ : BufTy).Contents (Elt F)),
    binary main_v78 main_v77 main_v79 (mulf : (⟨S650000x128, .f32⟩ : BufTy).Contents (Elt F) → (⟨S650000x128, .f32⟩ : BufTy).Contents (Elt F) → (⟨S650000x128, .f32⟩ : BufTy).Contents (Elt F)),
    nullary main_cst_16 (constant S_ .f32 0x00000000#32),
    unary main_cst_16 main_v80 (broadcastInDim S50000x128 ![] bcast_S_S50000x128 : (⟨S_, .f32⟩ : BufTy).Contents (Elt F) → (⟨S50000x128, .f32⟩ : BufTy).Contents (Elt F)),
    unary main_v39 main_v81 (broadcastInDim S650000x1 ![0] bcast_S650000_S650000x1_0 : (⟨S650000, .i32⟩ : BufTy).Contents (Elt F) → (⟨S650000x1, .i32⟩ : BufTy).Contents (Elt F)),
    ternary main_v80 main_v81 main_v79 main_v82 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg7 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v82 main_v84 main_v85 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v85) (TRef.of (T := ⟨S50000x128, .f32⟩) main_call3_v0) (TRef.of (T := ⟨S50000x128, .f32⟩) main_v86) maximumf,
    nullary main_v87 (iotaInDim S50000 32 0) ]

/-- @main's operations 116 … 116 of 196. -/
abbrev ops7 : List (HloOp τ sig (Elt F)) :=
  [ binary main_v1 main_v87 main_v88 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]

/-- @main's operations 117 … 119 of 196. -/
abbrev ops8 : List (HloOp τ sig (Elt F)) :=
  [ binary main_v3 main_v87 main_v89 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst_17 (constant S_ .f32 0x3F800000#32),
    unary main_cst_17 main_v90 (broadcastInDim S50000 ![] bcast_S_S50000 : (⟨S_, .f32⟩ : BufTy).Contents (Elt F) → (⟨S50000, .f32⟩ : BufTy).Contents (Elt F)) ]

/-- @main's operations 120 … 128 of 196. -/
abbrev ops9 : List (HloOp τ sig (Elt F)) :=
  [ binary main_v36 main_v90 main_v91 ((fun a b => concatenate S650000 0 [⟨S600000, a⟩, ⟨S50000, b⟩] concatenates_S600000_S50000_S650000_d0) : (⟨S600000, .f32⟩ : BufTy).Contents (Elt F) → (⟨S50000, .f32⟩ : BufTy).Contents (Elt F) → (⟨S650000, .f32⟩ : BufTy).Contents (Elt F)),
    nullary main_cst_18 (constant S_ .f32 0x00000000#32),
    unary main_cst_18 main_v92 (broadcastInDim S50000 ![] bcast_S_S50000 : (⟨S_, .f32⟩ : BufTy).Contents (Elt F) → (⟨S50000, .f32⟩ : BufTy).Contents (Elt F)),
    unary main_v89 main_v93 (broadcastInDim S650000x1 ![0] bcast_S650000_S650000x1_0 : (⟨S650000, .i32⟩ : BufTy).Contents (Elt F) → (⟨S650000x1, .i32⟩ : BufTy).Contents (Elt F)),
    ternary main_v92 main_v93 main_v91 main_v94 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_19 (constant S_ .f32 0x00000000#32),
    unary main_cst_19 main_v95 (broadcastInDim S50000 ![] bcast_S_S50000 : (⟨S_, .f32⟩ : BufTy).Contents (Elt F) → (⟨S50000, .f32⟩ : BufTy).Contents (Elt F)),
    binary main_v94 main_v95 main_v96 (cmpf .ogt : (⟨S50000, .f32⟩ : BufTy).Contents (Elt F) → (⟨S50000, .f32⟩ : BufTy).Contents (Elt F) → (⟨S50000, .i1⟩ : BufTy).Contents (Elt F)),
    nullary main_cst_20 (constant S_ .f32 0x00000000#32) ]

/-- @main's operations 129 … 161 of 196. -/
abbrev ops10 : List (HloOp τ sig (Elt F)) :=
  [ unary main_cst_20 main_v97 (broadcastInDim S50000 ![] bcast_S_S50000 : (⟨S_, .f32⟩ : BufTy).Contents (Elt F) → (⟨S50000, .f32⟩ : BufTy).Contents (Elt F)),
    binary main_v94 main_v97 main_v98 (cmpf .ogt : (⟨S50000, .f32⟩ : BufTy).Contents (Elt F) → (⟨S50000, .f32⟩ : BufTy).Contents (Elt F) → (⟨S50000, .i1⟩ : BufTy).Contents (Elt F)),
    nullary main_cst_21 (constant S_ .f32 0x3F800000#32),
    TRef.unary (TRef.of (T := ⟨S_, .f32⟩) main_cst_21) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v98) (TRef.of (T := ⟨S50000, .f32⟩) main_v94) (TRef.of (T := ⟨S50000, .f32⟩) main_call4_v1) (TRef.of (T := ⟨S50000, .f32⟩) main_v99) select,
    unary main_v99 main_v100 (Host.rsqrt : (⟨S50000, .f32⟩ : BufTy).Contents (Elt F) → (⟨S50000, .f32⟩ : BufTy).Contents (Elt F)),
    nullary main_cst_22 (constant S_ .f32 0x00000000#32),
    TRef.unary (TRef.of (T := ⟨S_, .f32⟩) main_cst_22) (TRef.of (T := ⟨S_, .f32⟩) main_call5_v0) id,
    TRef.unary (TRef.of (T := ⟨S_, .f32⟩) main_call5_v0) (TRef.of (T := ⟨S50000, .f32⟩) main_call5_v1) (broadcastInDim S50000 ![] bcast_S_S50000),
    TRef.ternary (TRef.of (T := ⟨S50000, .i1⟩) main_v96) (TRef.of (T := ⟨S50000, .f32⟩) main_v100) (TRef.of (T := ⟨S50000, .f32⟩) main_call5_v1) (TRef.of (T := ⟨S50000, .f32⟩) main_v101) select,
    nullary main_c_23 (constantI S_ 32 0#32),
    unary main_c_23 main_v102 (broadcastInDim S650000 ![] bcast_S_S650000 : (⟨S_, .i32⟩ : BufTy).Contents (Elt F) → (⟨S650000, .i32⟩ : BufTy).Contents (Elt F)),
    binary main_v88 main_v102 main_v103 (cmpi .slt : (⟨S650000, .i32⟩ : BufTy).Contents (Elt F) → (⟨S650000, .i32⟩ : BufTy).Contents (Elt F) → (⟨S650000, .i1⟩ : BufTy).Contents (Elt F)),
    nullary main_c_24 (constantI S_ 32 50000#32),
    unary main_c_24 main_v104 (broadcastInDim S650000 ![] bcast_S_S650000 : (⟨S_, .i32⟩ : BufTy).Contents (Elt F) → (⟨S650000, .i32⟩ : BufTy).Contents (Elt F)),
    binary main_v88 main_v104 main_v105 (addi : (⟨S650000, .i32⟩ : BufTy).Contents (Elt F) → (⟨S650000, .i32⟩ : BufTy).Contents (Elt F) → (⟨S650000, .i32⟩ : BufTy).Contents (Elt F)),
    ternary main_v103 main_v105 main_v88 main_v106 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v106 main_v107 (broadcastInDim S650000x1 ![0] bcast_S650000_S650000x1_0 : (⟨S650000, .i32⟩ : BufTy).Contents (Elt F) → (⟨S650000x1, .i32⟩ : BufTy).Contents (Elt F)),
    binary main_v101 main_v107 main_v108 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v108 main_v91 main_v109 (mulf : (⟨S650000, .f32⟩ : BufTy).Contents (Elt F) → (⟨S650000, .f32⟩ : BufTy).Contents (Elt F) → (⟨S650000, .f32⟩ : BufTy).Contents (Elt F)),
    nullary main_c_25 (constantI S_ 32 0#32),
    unary main_c_25 main_v110 (broadcastInDim S650000 ![] bcast_S_S650000 : (⟨S_, .i32⟩ : BufTy).Contents (Elt F) → (⟨S650000, .i32⟩ : BufTy).Contents (Elt F)),
    binary main_v89 main_v110 main_v111 (cmpi .slt : (⟨S650000, .i32⟩ : BufTy).Contents (Elt F) → (⟨S650000, .i32⟩ : BufTy).Contents (Elt F) → (⟨S650000, .i1⟩ : BufTy).Contents (Elt F)),
    nullary main_c_26 (constantI S_ 32 50000#32),
    unary main_c_26 main_v112 (broadcastInDim S650000 ![] bcast_S_S650000 : (⟨S_, .i32⟩ : BufTy).Contents (Elt F) → (⟨S650000, .i32⟩ : BufTy).Contents (Elt F)),
    binary main_v89 main_v112 main_v113 (addi : (⟨S650000, .i32⟩ : BufTy).Contents (Elt F) → (⟨S650000, .i32⟩ : BufTy).Contents (Elt F) → (⟨S650000, .i32⟩ : BufTy).Contents (Elt F)),
    ternary main_v111 main_v113 main_v89 main_v114 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v114 main_v115 (broadcastInDim S650000x1 ![0] bcast_S650000_S650000x1_0 : (⟨S650000, .i32⟩ : BufTy).Contents (Elt F) → (⟨S650000x1, .i32⟩ : BufTy).Contents (Elt F)),
    binary main_v101 main_v115 main_v116 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v109 main_v116 main_v117 (mulf : (⟨S650000, .f32⟩ : BufTy).Contents (Elt F) → (⟨S650000, .f32⟩ : BufTy).Contents (Elt F) → (⟨S650000, .f32⟩ : BufTy).Contents (Elt F)),
    unary main_arg8 main_v118 ((transpose S128x128 [1, 0] · transposes_S128x128_S128x128_1_0) : (⟨S128x128, .f32⟩ : BufTy).Contents (Elt F) → (⟨S128x128, .f32⟩ : BufTy).Contents (Elt F)),
    binary main_v86 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- @main's operations 162 … 194 of 196. -/
abbrev ops11 : List (HloOp τ sig (Elt F)) :=
  [ unary main_v117 main_v120 (broadcastInDim S650000x1 ![0] bcast_S650000_S650000x1_0 : (⟨S650000, .f32⟩ : BufTy).Contents (Elt F) → (⟨S650000x1, .f32⟩ : BufTy).Contents (Elt F)),
    nullary main_c_27 (constantI S_ 32 0#32),
    unary main_c_27 main_v121 (broadcastInDim S650000 ![] bcast_S_S650000 : (⟨S_, .i32⟩ : BufTy).Contents (Elt F) → (⟨S650000, .i32⟩ : BufTy).Contents (Elt F)),
    binary main_v88 main_v121 main_v122 (cmpi .slt : (⟨S650000, .i32⟩ : BufTy).Contents (Elt F) → (⟨S650000, .i32⟩ : BufTy).Contents (Elt F) → (⟨S650000, .i1⟩ : BufTy).Contents (Elt F)),
    nullary main_c_28 (constantI S_ 32 50000#32),
    unary main_c_28 main_v123 (broadcastInDim S650000 ![] bcast_S_S650000 : (⟨S_, .i32⟩ : BufTy).Contents (Elt F) → (⟨S650000, .i32⟩ : BufTy).Contents (Elt F)),
    binary main_v88 main_v123 main_v124 (addi : (⟨S650000, .i32⟩ : BufTy).Contents (Elt F) → (⟨S650000, .i32⟩ : BufTy).Contents (Elt F) → (⟨S650000, .i32⟩ : BufTy).Contents (Elt F)),
    ternary main_v122 main_v124 main_v88 main_v125 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v125 main_v126 (broadcastInDim S650000x1 ![0] bcast_S650000_S650000x1_0 : (⟨S650000, .i32⟩ : BufTy).Contents (Elt F) → (⟨S650000x1, .i32⟩ : BufTy).Contents (Elt F)),
    binary main_v119 main_v126 main_v127 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v120 main_v128 (broadcastInDim S650000x128 ![0, 1] bcast_S650000x1_S650000x128_0_1 : (⟨S650000x1, .f32⟩ : BufTy).Contents (Elt F) → (⟨S650000x128, .f32⟩ : BufTy).Contents (Elt F)),
    binary main_v128 main_v127 main_v129 (mulf : (⟨S650000x128, .f32⟩ : BufTy).Contents (Elt F) → (⟨S650000x128, .f32⟩ : BufTy).Contents (Elt F) → (⟨S650000x128, .f32⟩ : BufTy).Contents (Elt F)),
    nullary main_cst_29 (constant S_ .f32 0x00000000#32),
    unary main_cst_29 main_v130 (broadcastInDim S50000x128 ![] bcast_S_S50000x128 : (⟨S_, .f32⟩ : BufTy).Contents (Elt F) → (⟨S50000x128, .f32⟩ : BufTy).Contents (Elt F)),
    unary main_v89 main_v131 (broadcastInDim S650000x1 ![0] bcast_S650000_S650000x1_0 : (⟨S650000, .i32⟩ : BufTy).Contents (Elt F) → (⟨S650000x1, .i32⟩ : BufTy).Contents (Elt F)),
    ternary main_v130 main_v131 main_v129 main_v132 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg9 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v132 main_v134 main_v135 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v135) (TRef.of (T := ⟨S50000x128, .f32⟩) main_call6_v0) (TRef.of (T := ⟨S50000x128, .f32⟩) main_v136) maximumf,
    unary main_arg10 main_v137 ((transpose S128x2 [1, 0] · transposes_S2x128_S128x2_1_0) : (⟨S2x128, .f32⟩ : BufTy).Contents (Elt F) → (⟨S128x2, .f32⟩ : BufTy).Contents (Elt F)),
    binary main_v136 main_v137 main_v138 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    unary main_arg11 main_v139 (broadcastInDim S1x2 ![1] bcast_S2_S1x2_1 : (⟨S2, .f32⟩ : BufTy).Contents (Elt F) → (⟨S1x2, .f32⟩ : BufTy).Contents (Elt F)),
    unary main_v139 main_v140 (broadcastInDim S50000x2 ![0, 1] bcast_S1x2_S50000x2_0_1 : (⟨S1x2, .f32⟩ : BufTy).Contents (Elt F) → (⟨S50000x2, .f32⟩ : BufTy).Contents (Elt F)),
    binary main_v138 main_v140 main_v141 (addf : (⟨S50000x2, .f32⟩ : BufTy).Contents (Elt F) → (⟨S50000x2, .f32⟩ : BufTy).Contents (Elt F) → (⟨S50000x2, .f32⟩ : BufTy).Contents (Elt F)),
    unary main_v141 main_v142 (Host.negf : (⟨S50000x2, .f32⟩ : BufTy).Contents (Elt F) → (⟨S50000x2, .f32⟩ : BufTy).Contents (Elt F)),
    unary main_v142 main_v143 (Host.exp : (⟨S50000x2, .f32⟩ : BufTy).Contents (Elt F) → (⟨S50000x2, .f32⟩ : BufTy).Contents (Elt F)),
    nullary main_cst_30 (constant S_ .f32 0x3F800000#32),
    unary main_cst_30 main_v144 (broadcastInDim S50000x2 ![] bcast_S_S50000x2 : (⟨S_, .f32⟩ : BufTy).Contents (Elt F) → (⟨S50000x2, .f32⟩ : BufTy).Contents (Elt F)),
    binary main_v144 main_v143 main_v145 (addf : (⟨S50000x2, .f32⟩ : BufTy).Contents (Elt F) → (⟨S50000x2, .f32⟩ : BufTy).Contents (Elt F) → (⟨S50000x2, .f32⟩ : BufTy).Contents (Elt F)),
    nullary main_cst_31 (constant S_ .f32 0x3F800000#32) ]

/-- @main's operations 195 … 196 of 196. -/
abbrev ops12 : List (HloOp τ sig (Elt F)) :=
  [ unary main_cst_31 main_v146 (broadcastInDim S50000x2 ![] bcast_S_S50000x2 : (⟨S_, .f32⟩ : BufTy).Contents (Elt F) → (⟨S50000x2, .f32⟩ : BufTy).Contents (Elt F)),
    binary main_v146 main_v145 main_v147 (Host.divf : (⟨S50000x2, .f32⟩ : BufTy).Contents (Elt F) → (⟨S50000x2, .f32⟩ : BufTy).Contents (Elt F) → (⟨S50000x2, .f32⟩ : BufTy).Contents (Elt F)) ]

/-! ## Each list touches TensorCore buffers only and allocates nothing -/

set_option maxRecDepth 8192 in
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops1_fresh : ∀ op ∈ (ops1 : List (HloOp τ sig (Elt F))), op.fresh = ∅ := by
  intro _ h; (repeat (cases h with | head => rfl | tail _ h => ?_)); exact nomatch h

set_option maxRecDepth 8192 in
theorem ops2_sub : (ops2 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub ..⟩
theorem ops2_fresh : ∀ op ∈ (ops2 : List (HloOp τ sig (Elt F))), op.fresh = ∅ := by
  intro _ h; (repeat (cases h with | head => rfl | tail _ h => ?_)); exact nomatch h

set_option maxRecDepth 8192 in
theorem ops3_sub : (ops3 : List (HloOp τ sig (Elt F))).Forall fun op => op.bufs ⊆ tcRefs τ sig :=
  binary_bufs_sub ..
theorem ops3_fresh : ∀ op ∈ (ops3 : List (HloOp τ sig (Elt F))), op.fresh = ∅ := by
  intro _ h; (repeat (cases h with | head => rfl | tail _ h => ?_)); exact nomatch h

set_option maxRecDepth 8192 in
theorem ops4_sub : (ops4 : List (HloOp τ sig (Elt F))).Forall fun op => op.bufs ⊆ tcRefs τ sig :=
  ⟨binary_bufs_sub .., nullary_bufs_sub .., unary_bufs_sub ..⟩
theorem ops4_fresh : ∀ op ∈ (ops4 : List (HloOp τ sig (Elt F))), op.fresh = ∅ := by
  intro _ h; (repeat (cases h with | head => rfl | tail _ h => ?_)); exact nomatch h

set_option maxRecDepth 8192 in
theorem ops5_sub : (ops5 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub ..⟩
theorem ops5_fresh : ∀ op ∈ (ops5 : List (HloOp τ sig (Elt F))), op.fresh = ∅ := by
  intro _ h; (repeat (cases h with | head => rfl | tail _ h => ?_)); exact nomatch h

set_option maxRecDepth 8192 in
theorem ops6_sub : (ops6 : List (HloOp τ sig (Elt F))).Forall fun op => op.bufs ⊆ tcRefs τ sig :=
  ⟨unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub ..⟩
theorem ops6_fresh : ∀ op ∈ (ops6 : List (HloOp τ sig (Elt F))), op.fresh = ∅ := by
  intro _ h; (repeat (cases h with | head => rfl | tail _ h => ?_)); exact nomatch h

set_option maxRecDepth 8192 in
theorem ops7_sub : (ops7 : List (HloOp τ sig (Elt F))).Forall fun op => op.bufs ⊆ tcRefs τ sig :=
  binary_bufs_sub ..
theorem ops7_fresh : ∀ op ∈ (ops7 : List (HloOp τ sig (Elt F))), op.fresh = ∅ := by
  intro _ h; (repeat (cases h with | head => rfl | tail _ h => ?_)); exact nomatch h

set_option maxRecDepth 8192 in
theorem ops8_sub : (ops8 : List (HloOp τ sig (Elt F))).Forall fun op => op.bufs ⊆ tcRefs τ sig :=
  ⟨binary_bufs_sub .., nullary_bufs_sub .., unary_bufs_sub ..⟩
theorem ops8_fresh : ∀ op ∈ (ops8 : List (HloOp τ sig (Elt F))), op.fresh = ∅ := by
  intro _ h; (repeat (cases h with | head => rfl | tail _ h => ?_)); exact nomatch h

set_option maxRecDepth 8192 in
theorem ops9_sub : (ops9 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub ..⟩
theorem ops9_fresh : ∀ op ∈ (ops9 : List (HloOp τ sig (Elt F))), op.fresh = ∅ := by
  intro _ h; (repeat (cases h with | head => rfl | tail _ h => ?_)); exact nomatch h

set_option maxRecDepth 8192 in
theorem ops10_sub : (ops10 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub ..⟩
theorem ops10_fresh : ∀ op ∈ (ops10 : List (HloOp τ sig (Elt F))), op.fresh = ∅ := by
  intro _ h; (repeat (cases h with | head => rfl | tail _ h => ?_)); exact nomatch h

set_option maxRecDepth 8192 in
theorem ops11_sub : (ops11 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub ..⟩
theorem ops11_fresh : ∀ op ∈ (ops11 : List (HloOp τ sig (Elt F))), op.fresh = ∅ := by
  intro _ h; (repeat (cases h with | head => rfl | tail _ h => ?_)); exact nomatch h

set_option maxRecDepth 8192 in
theorem ops12_sub : (ops12 : List (HloOp τ sig (Elt F))).Forall fun op => op.bufs ⊆ tcRefs τ sig :=
  ⟨unary_bufs_sub .., binary_bufs_sub ..⟩
theorem ops12_fresh : ∀ op ∈ (ops12 : List (HloOp τ sig (Elt F))), op.fresh = ∅ := by
  intro _ h; (repeat (cases h with | head => rfl | tail _ h => ?_)); exact nomatch h

/-! ## @main is the lists run one after the other -/

/-- The operations of @main's window 0. -/
abbrev opsW0 : List (HloOp τ sig (Elt F)) := ops1 ++ (ops2 ++ (ops3 ++ (ops4 ++ (ops5))))
set_option maxRecDepth 8192 in
set_option maxHeartbeats 4000000 in
theorem main_part0_eq (c : Dev nD) : main_part0 (F := F) c = seq opsW0 := rfl

/-- The operations of @main's window 1. -/
abbrev opsW1 : List (HloOp τ sig (Elt F)) := ops6 ++ (ops7 ++ (ops8 ++ (ops9)))
set_option maxRecDepth 8192 in
set_option maxHeartbeats 4000000 in
theorem main_part1_eq (c : Dev nD) : main_part1 (F := F) c = seq opsW1 := rfl

/-- The operations of @main's window 2. -/
abbrev opsW2 : List (HloOp τ sig (Elt F)) := ops10 ++ (ops11)
set_option maxRecDepth 8192 in
set_option maxHeartbeats 4000000 in
theorem main_part2_eq (c : Dev nD) : main_part2 (F := F) c = seq opsW2 := rfl

/-- The operations of @main's window 3. -/
abbrev opsW3 : List (HloOp τ sig (Elt F)) := ops12
set_option maxRecDepth 8192 in
set_option maxHeartbeats 4000000 in
theorem main_part3_eq (c : Dev nD) : main_part3 (F := F) c = seq opsW3 := rfl

/-- @main's 196 operations, in order. -/
abbrev ops : List (HloOp τ sig (Elt F)) := opsW0 ++ (opsW1 ++ (opsW2 ++ (opsW3)))

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- An operation of @main is in one of the twelve lists. -/
theorem mem_ops {op : HloOp τ sig (Elt F)} (h : op ∈ (ops : List (HloOp τ sig (Elt F)))) :
    op ∈ (ops1 : List (HloOp τ sig (Elt F))) ∨ op ∈ (ops2 : List (HloOp τ sig (Elt F))) ∨ op ∈ (ops3 : List (HloOp τ sig (Elt F))) ∨ op ∈ (ops4 : List (HloOp τ sig (Elt F))) ∨ op ∈ (ops5 : List (HloOp τ sig (Elt F))) ∨ op ∈ (ops6 : List (HloOp τ sig (Elt F))) ∨ op ∈ (ops7 : List (HloOp τ sig (Elt F))) ∨ op ∈ (ops8 : List (HloOp τ sig (Elt F))) ∨ op ∈ (ops9 : List (HloOp τ sig (Elt F))) ∨ op ∈ (ops10 : List (HloOp τ sig (Elt F))) ∨ op ∈ (ops11 : List (HloOp τ sig (Elt F))) ∨ op ∈ (ops12 : List (HloOp τ sig (Elt F))) := by
  simp only [ops, opsW0, opsW1, opsW2, opsW3, List.mem_append] at h
  rcases h with (h | h | h | h | h) | (h | h | h | h) | (h | h) | h
  · exact Or.inl h
  · exact Or.inr (Or.inl h)
  · exact Or.inr (Or.inr (Or.inl h))
  · exact Or.inr (Or.inr (Or.inr (Or.inl h)))
  · exact Or.inr (Or.inr (Or.inr (Or.inr (Or.inl h))))
  · exact Or.inr (Or.inr (Or.inr (Or.inr (Or.inr (Or.inl h)))))
  · exact Or.inr (Or.inr (Or.inr (Or.inr (Or.inr (Or.inr (Or.inl h))))))
  · exact Or.inr (Or.inr (Or.inr (Or.inr (Or.inr (Or.inr (Or.inr (Or.inl h)))))))
  · exact Or.inr (Or.inr (Or.inr (Or.inr (Or.inr (Or.inr (Or.inr (Or.inr (Or.inl h))))))))
  · exact Or.inr (Or.inr (Or.inr (Or.inr (Or.inr (Or.inr (Or.inr (Or.inr (Or.inr (Or.inl h)))))))))
  · exact Or.inr (Or.inr (Or.inr (Or.inr (Or.inr (Or.inr (Or.inr (Or.inr (Or.inr (Or.inr (Or.inl h))))))))))
  · exact Or.inr (Or.inr (Or.inr (Or.inr (Or.inr (Or.inr (Or.inr (Or.inr (Or.inr (Or.inr (Or.inr (h)))))))))))

theorem ops_sub : (ops : List (HloOp τ sig (Elt F))).Forall fun op => op.bufs ⊆ tcRefs τ sig :=
  List.forall_iff_forall_mem.mpr fun op h => by
    rcases mem_ops h with h | h | h | h | h | h | h | h | h | h | h | h
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h]

theorem ops_fresh : ∀ op ∈ (ops : List (HloOp τ sig (Elt F))), op.fresh = ∅ := fun op h => by
  rcases mem_ops h with h | h | h | h | h | h | h | h | h | h | h | h
  exacts [ops1_fresh op h, ops2_fresh op h, ops3_fresh op h, ops4_fresh op h, ops5_fresh op h, ops6_fresh op h, ops7_fresh op h, ops8_fresh op h, ops9_fresh op h, ops10_fresh op h, ops11_fresh op h, ops12_fresh op h]

/-- The contents after all of @main's operations are the lists' contents, one list after the other. -/
theorem after_ops (V0 : Valuation τ sig (Elt F)) :
    after ops V0 = after ops12 (after ops11 (after ops10 (after ops9 (after ops8 (after ops7 (after ops6 (after ops5 (after ops4 (after ops3 (after ops2 (after ops1 (V0)))))))))))) := by
  simp only [ops, opsW0, opsW1, opsW2, opsW3, after_append]

/-- On every device, from any memory with zero counters: every weakly fair execution of @main terminates with each
    TensorCore buffer at its contents after the operations, in order, from the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-! # The values: what each stretch leaves, as stage functions of the arguments -/

section Values

variable (m : (ℓ : Loc nD τ sig) → Buf (Elt F) ℓ) (c : Dev nD)

/-! ## The arguments as launched -/

/-- Argument 0 as the launch finds it. -/
abbrev a0 : (⟨S50000x128, .f32⟩ : BufTy).Contents (Elt F) := m ((c.tc : Thread nD τ).loc main_arg0)
/-- Argument 1 as the launch finds it. -/
abbrev a1 : (⟨S2x600000, .i32⟩ : BufTy).Contents (Elt F) := m ((c.tc : Thread nD τ).loc main_arg1)
/-- Argument 2 as the launch finds it. -/
abbrev a2 : (⟨S64x256, .f32⟩ : BufTy).Contents (Elt F) := m ((c.tc : Thread nD τ).loc main_arg2)
/-- Argument 3 as the launch finds it. -/
abbrev a3 : (⟨S64, .f32⟩ : BufTy).Contents (Elt F) := m ((c.tc : Thread nD τ).loc main_arg3)
/-- Argument 4 as the launch finds it. -/
abbrev a4 : (⟨S1x64, .f32⟩ : BufTy).Contents (Elt F) := m ((c.tc : Thread nD τ).loc main_arg4)
/-- Argument 5 as the launch finds it. -/
abbrev a5 : (⟨S1, .f32⟩ : BufTy).Contents (Elt F) := m ((c.tc : Thread nD τ).loc main_arg5)
/-- Argument 6 as the launch finds it. -/
abbrev a6 : (⟨S128x128, .f32⟩ : BufTy).Contents (Elt F) := m ((c.tc : Thread nD τ).loc main_arg6)
/-- Argument 7 as the launch finds it. -/
abbrev a7 : (⟨S128, .f32⟩ : BufTy).Contents (Elt F) := m ((c.tc : Thread nD τ).loc main_arg7)
/-- Argument 8 as the launch finds it. -/
abbrev a8 : (⟨S128x128, .f32⟩ : BufTy).Contents (Elt F) := m ((c.tc : Thread nD τ).loc main_arg8)
/-- Argument 9 as the launch finds it. -/
abbrev a9 : (⟨S128, .f32⟩ : BufTy).Contents (Elt F) := m ((c.tc : Thread nD τ).loc main_arg9)
/-- Argument 10 as the launch finds it. -/
abbrev a10 : (⟨S2x128, .f32⟩ : BufTy).Contents (Elt F) := m ((c.tc : Thread nD τ).loc main_arg10)
/-- Argument 11 as the launch finds it. -/
abbrev a11 : (⟨S2, .f32⟩ : BufTy).Contents (Elt F) := m ((c.tc : Thread nD τ).loc main_arg11)

/-! ## What is live at each cut: every buffer a later operation reads holds its stage's value of the arguments -/

/-- After the first 0 operations. -/
structure Inv0 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c

/-- After the first 22 operations. -/
structure Inv1 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v1 : V (Proc.devRef .tc main_v1) = val_main_v1 (F := F) (a1 m c)
  h_main_v3 : V (Proc.devRef .tc main_v3) = val_main_v3 (F := F) (a1 m c)
  h_main_v10 : V (Proc.devRef .tc main_v10) = val_main_v10 (F := F) (a0 m c) (a1 m c)
  h_main_v17 : V (Proc.devRef .tc main_v17) = val_main_v17 (F := F) (a0 m c) (a1 m c)

/-- After the first 46 operations. -/
structure Inv2 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v1 : V (Proc.devRef .tc main_v1) = val_main_v1 (F := F) (a1 m c)
  h_main_v3 : V (Proc.devRef .tc main_v3) = val_main_v3 (F := F) (a1 m c)
  h_main_v36 : V (Proc.devRef .tc main_v36) = val_main_v36 (F := F) (a0 m c) (a1 m c) (a2 m c) (a3 m c) (a4 m c) (a5 m c)
  h_main_v37 : V (Proc.devRef .tc main_v37) = val_main_v37 (F := F)

/-- After the first 47 operations. -/
structure Inv3 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v1 : V (Proc.devRef .tc main_v1) = val_main_v1 (F := F) (a1 m c)
  h_main_v3 : V (Proc.devRef .tc main_v3) = val_main_v3 (F := F) (a1 m c)
  h_main_v36 : V (Proc.devRef .tc main_v36) = val_main_v36 (F := F) (a0 m c) (a1 m c) (a2 m c) (a3 m c) (a4 m c) (a5 m c)
  h_main_v37 : V (Proc.devRef .tc main_v37) = val_main_v37 (F := F)
  h_main_v38 : V (Proc.devRef .tc main_v38) = val_main_v38 (F := F) (a1 m c)

/-- After the first 50 operations. -/
structure Inv4 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v1 : V (Proc.devRef .tc main_v1) = val_main_v1 (F := F) (a1 m c)
  h_main_v3 : V (Proc.devRef .tc main_v3) = val_main_v3 (F := F) (a1 m c)
  h_main_v36 : V (Proc.devRef .tc main_v36) = val_main_v36 (F := F) (a0 m c) (a1 m c) (a2 m c) (a3 m c) (a4 m c) (a5 m c)
  h_main_v38 : V (Proc.devRef .tc main_v38) = val_main_v38 (F := F) (a1 m c)
  h_main_v39 : V (Proc.devRef .tc main_v39) = val_main_v39 (F := F) (a1 m c)
  h_main_v40 : V (Proc.devRef .tc main_v40) = val_main_v40 (F := F)

/-- After the first 62 operations. -/
structure Inv5 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v1 : V (Proc.devRef .tc main_v1) = val_main_v1 (F := F) (a1 m c)
  h_main_v3 : V (Proc.devRef .tc main_v3) = val_main_v3 (F := F) (a1 m c)
  h_main_v36 : V (Proc.devRef .tc main_v36) = val_main_v36 (F := F) (a0 m c) (a1 m c) (a2 m c) (a3 m c) (a4 m c) (a5 m c)
  h_main_v38 : V (Proc.devRef .tc main_v38) = val_main_v38 (F := F) (a1 m c)
  h_main_v39 : V (Proc.devRef .tc main_v39) = val_main_v39 (F := F) (a1 m c)
  h_main_v41 : V (Proc.devRef .tc main_v41) = val_main_v41 (F := F) (a0 m c) (a1 m c) (a2 m c) (a3 m c) (a4 m c) (a5 m c)
  h_main_v44 : V (Proc.devRef .tc main_v44) = val_main_v44 (F := F) (a0 m c) (a1 m c) (a2 m c) (a3 m c) (a4 m c) (a5 m c)
  h_main_v46 : V (Proc.devRef .tc main_v46) = val_main_v46 (F := F) (a0 m c) (a1 m c) (a2 m c) (a3 m c) (a4 m c) (a5 m c)
  h_main_v48 : V (Proc.devRef .tc main_v48) = val_main_v48 (F := F) (a0 m c) (a1 m c) (a2 m c) (a3 m c) (a4 m c) (a5 m c)
  h_main_cst_8 : V (Proc.devRef .tc main_cst_8) = val_main_cst_8 (F := F)

/-- After the first 115 operations. -/
structure Inv6 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v1 : V (Proc.devRef .tc main_v1) = val_main_v1 (F := F) (a1 m c)
  h_main_v3 : V (Proc.devRef .tc main_v3) = val_main_v3 (F := F) (a1 m c)
  h_main_v36 : V (Proc.devRef .tc main_v36) = val_main_v36 (F := F) (a0 m c) (a1 m c) (a2 m c) (a3 m c) (a4 m c) (a5 m c)
  h_main_v86 : V (Proc.devRef .tc main_v86) = val_main_v86 (F := F) (a0 m c) (a1 m c) (a2 m c) (a3 m c) (a4 m c) (a5 m c) (a6 m c) (a7 m c)
  h_main_v87 : V (Proc.devRef .tc main_v87) = val_main_v87 (F := F)

/-- After the first 116 operations. -/
structure Inv7 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v3 : V (Proc.devRef .tc main_v3) = val_main_v3 (F := F) (a1 m c)
  h_main_v36 : V (Proc.devRef .tc main_v36) = val_main_v36 (F := F) (a0 m c) (a1 m c) (a2 m c) (a3 m c) (a4 m c) (a5 m c)
  h_main_v86 : V (Proc.devRef .tc main_v86) = val_main_v86 (F := F) (a0 m c) (a1 m c) (a2 m c) (a3 m c) (a4 m c) (a5 m c) (a6 m c) (a7 m c)
  h_main_v87 : V (Proc.devRef .tc main_v87) = val_main_v87 (F := F)
  h_main_v88 : V (Proc.devRef .tc main_v88) = val_main_v88 (F := F) (a1 m c)

/-- After the first 119 operations. -/
structure Inv8 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v36 : V (Proc.devRef .tc main_v36) = val_main_v36 (F := F) (a0 m c) (a1 m c) (a2 m c) (a3 m c) (a4 m c) (a5 m c)
  h_main_v86 : V (Proc.devRef .tc main_v86) = val_main_v86 (F := F) (a0 m c) (a1 m c) (a2 m c) (a3 m c) (a4 m c) (a5 m c) (a6 m c) (a7 m c)
  h_main_v88 : V (Proc.devRef .tc main_v88) = val_main_v88 (F := F) (a1 m c)
  h_main_v89 : V (Proc.devRef .tc main_v89) = val_main_v89 (F := F) (a1 m c)
  h_main_v90 : V (Proc.devRef .tc main_v90) = val_main_v90 (F := F)

/-- After the first 128 operations. -/
structure Inv9 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v86 : V (Proc.devRef .tc main_v86) = val_main_v86 (F := F) (a0 m c) (a1 m c) (a2 m c) (a3 m c) (a4 m c) (a5 m c) (a6 m c) (a7 m c)
  h_main_v88 : V (Proc.devRef .tc main_v88) = val_main_v88 (F := F) (a1 m c)
  h_main_v89 : V (Proc.devRef .tc main_v89) = val_main_v89 (F := F) (a1 m c)
  h_main_v91 : V (Proc.devRef .tc main_v91) = val_main_v91 (F := F) (a0 m c) (a1 m c) (a2 m c) (a3 m c) (a4 m c) (a5 m c)
  h_main_v94 : V (Proc.devRef .tc main_v94) = val_main_v94 (F := F) (a0 m c) (a1 m c) (a2 m c) (a3 m c) (a4 m c) (a5 m c)
  h_main_v96 : V (Proc.devRef .tc main_v96) = val_main_v96 (F := F) (a0 m c) (a1 m c) (a2 m c) (a3 m c) (a4 m c) (a5 m c)
  h_main_cst_20 : V (Proc.devRef .tc main_cst_20) = val_main_cst_20 (F := F)

/-- After the first 161 operations. -/
structure Inv10 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v88 : V (Proc.devRef .tc main_v88) = val_main_v88 (F := F) (a1 m c)
  h_main_v89 : V (Proc.devRef .tc main_v89) = val_main_v89 (F := F) (a1 m c)
  h_main_v117 : V (Proc.devRef .tc main_v117) = val_main_v117 (F := F) (a0 m c) (a1 m c) (a2 m c) (a3 m c) (a4 m c) (a5 m c)
  h_main_v119 : V (Proc.devRef .tc main_v119) = val_main_v119 (F := F) (a0 m c) (a1 m c) (a2 m c) (a3 m c) (a4 m c) (a5 m c) (a6 m c) (a7 m c) (a8 m c)

/-- After the first 194 operations. -/
structure Inv11 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v145 : V (Proc.devRef .tc main_v145) = val_main_v145 (F := F) (a0 m c) (a1 m c) (a2 m c) (a3 m c) (a4 m c) (a5 m c) (a6 m c) (a7 m c) (a8 m c) (a9 m c) (a10 m c) (a11 m c)
  h_main_cst_31 : V (Proc.devRef .tc main_cst_31) = val_main_cst_31 (F := F)

/-- After the first 196 operations. -/
structure Inv12 (V : Valuation τ sig (Elt F)) : Prop where
  h_main_arg0 : V (Proc.devRef .tc main_arg0) = a0 m c
  h_main_arg1 : V (Proc.devRef .tc main_arg1) = a1 m c
  h_main_arg2 : V (Proc.devRef .tc main_arg2) = a2 m c
  h_main_arg3 : V (Proc.devRef .tc main_arg3) = a3 m c
  h_main_arg4 : V (Proc.devRef .tc main_arg4) = a4 m c
  h_main_arg5 : V (Proc.devRef .tc main_arg5) = a5 m c
  h_main_arg6 : V (Proc.devRef .tc main_arg6) = a6 m c
  h_main_arg7 : V (Proc.devRef .tc main_arg7) = a7 m c
  h_main_arg8 : V (Proc.devRef .tc main_arg8) = a8 m c
  h_main_arg9 : V (Proc.devRef .tc main_arg9) = a9 m c
  h_main_arg10 : V (Proc.devRef .tc main_arg10) = a10 m c
  h_main_arg11 : V (Proc.devRef .tc main_arg11) = a11 m c
  h_main_v147 : V (Proc.devRef .tc main_v147) = val_main_v147 (F := F) (a0 m c) (a1 m c) (a2 m c) (a3 m c) (a4 m c) (a5 m c) (a6 m c) (a7 m c) (a8 m c) (a9 m c) (a10 m c) (a11 m c)

/-- The launch contents satisfy the first. -/
theorem inv0 : Inv0 m c (launchContents m c) where
  h_main_arg0 := rfl
  h_main_arg1 := rfl
  h_main_arg2 := rfl
  h_main_arg3 := rfl
  h_main_arg4 := rfl
  h_main_arg5 := rfl
  h_main_arg6 := rfl
  h_main_arg7 := rfl
  h_main_arg8 := rfl
  h_main_arg9 := rfl
  h_main_arg10 := rfl
  h_main_arg11 := rfl

set_option maxRecDepth 8192 in
set_option maxHeartbeats 4000000 in
/-- Operations 1 … 22. -/
theorem step1 (V : Valuation τ sig (Elt F)) (h : Inv0 m c V) : Inv1 m c (after ops1 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v1 := by
    after_results_simp
    rw [h.h_main_arg1]
    rfl
  h_main_v3 := by
    after_results_simp
    rw [h.h_main_arg1]
    rfl
  h_main_v10 := by
    after_results_simp
    rw [h.h_main_arg0, h.h_main_arg1]
    rfl
  h_main_v17 := by
    after_results_simp
    rw [h.h_main_arg0, h.h_main_arg1]
    rfl

set_option maxRecDepth 8192 in
set_option maxHeartbeats 4000000 in
/-- Operations 23 … 46. -/
theorem step2 (V : Valuation τ sig (Elt F)) (h : Inv1 m c V) : Inv2 m c (after ops2 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v1 := by after_results_simp; exact h.h_main_v1
  h_main_v3 := by after_results_simp; exact h.h_main_v3
  h_main_v36 := by
    after_results_simp
    rw [h.h_main_v10, h.h_main_v17, h.h_main_arg2, h.h_main_arg3, h.h_main_arg4, h.h_main_arg5]
    rfl
  h_main_v37 := by
    after_results_simp
    rfl

set_option maxRecDepth 8192 in
set_option maxHeartbeats 4000000 in
/-- Operations 47 … 47. -/
theorem step3 (V : Valuation τ sig (Elt F)) (h : Inv2 m c V) : Inv3 m c (after ops3 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v1 := by after_results_simp; exact h.h_main_v1
  h_main_v3 := by after_results_simp; exact h.h_main_v3
  h_main_v36 := by after_results_simp; exact h.h_main_v36
  h_main_v37 := by after_results_simp; exact h.h_main_v37
  h_main_v38 := by
    after_results_simp
    rw [h.h_main_v1, h.h_main_v37]
    rfl

set_option maxRecDepth 8192 in
set_option maxHeartbeats 4000000 in
/-- Operations 48 … 50. -/
theorem step4 (V : Valuation τ sig (Elt F)) (h : Inv3 m c V) : Inv4 m c (after ops4 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v1 := by after_results_simp; exact h.h_main_v1
  h_main_v3 := by after_results_simp; exact h.h_main_v3
  h_main_v36 := by after_results_simp; exact h.h_main_v36
  h_main_v38 := by after_results_simp; exact h.h_main_v38
  h_main_v39 := by
    after_results_simp
    rw [h.h_main_v3, h.h_main_v37]
    rfl
  h_main_v40 := by
    after_results_simp
    rfl

set_option maxRecDepth 8192 in
set_option maxHeartbeats 4000000 in
/-- Operations 51 … 62. -/
theorem step5 (V : Valuation τ sig (Elt F)) (h : Inv4 m c V) : Inv5 m c (after ops5 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v1 := by after_results_simp; exact h.h_main_v1
  h_main_v3 := by after_results_simp; exact h.h_main_v3
  h_main_v36 := by after_results_simp; exact h.h_main_v36
  h_main_v38 := by after_results_simp; exact h.h_main_v38
  h_main_v39 := by after_results_simp; exact h.h_main_v39
  h_main_v41 := by
    after_results_simp
    rw [h.h_main_v36, h.h_main_v40]
    rfl
  h_main_v44 := by
    after_results_simp
    rw [h.h_main_v39, h.h_main_v36, h.h_main_v40]
    rfl
  h_main_v46 := by
    after_results_simp
    rw [h.h_main_v39, h.h_main_v36, h.h_main_v40]
    rfl
  h_main_v48 := by
    after_results_simp
    rw [h.h_main_v39, h.h_main_v36, h.h_main_v40]
    rfl
  h_main_cst_8 := by
    after_results_simp
    rfl

set_option maxRecDepth 8192 in
set_option maxHeartbeats 4000000 in
/-- Operations 63 … 115. -/
theorem step6 (V : Valuation τ sig (Elt F)) (h : Inv5 m c V) : Inv6 m c (after ops6 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v1 := by after_results_simp; exact h.h_main_v1
  h_main_v3 := by after_results_simp; exact h.h_main_v3
  h_main_v36 := by after_results_simp; exact h.h_main_v36
  h_main_v86 := by
    after_results_simp
    rw [h.h_main_v39, h.h_main_v46, h.h_main_v48, h.h_main_v44, h.h_main_cst_8, h.h_main_v38, h.h_main_v41, h.h_main_arg0, h.h_main_arg6, h.h_main_arg7]
    rfl
  h_main_v87 := by
    after_results_simp
    rfl

set_option maxRecDepth 8192 in
set_option maxHeartbeats 4000000 in
/-- Operations 116 … 116. -/
theorem step7 (V : Valuation τ sig (Elt F)) (h : Inv6 m c V) : Inv7 m c (after ops7 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v3 := by after_results_simp; exact h.h_main_v3
  h_main_v36 := by after_results_simp; exact h.h_main_v36
  h_main_v86 := by after_results_simp; exact h.h_main_v86
  h_main_v87 := by after_results_simp; exact h.h_main_v87
  h_main_v88 := by
    after_results_simp
    rw [h.h_main_v1, h.h_main_v87]
    rfl

set_option maxRecDepth 8192 in
set_option maxHeartbeats 4000000 in
/-- Operations 117 … 119. -/
theorem step8 (V : Valuation τ sig (Elt F)) (h : Inv7 m c V) : Inv8 m c (after ops8 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v36 := by after_results_simp; exact h.h_main_v36
  h_main_v86 := by after_results_simp; exact h.h_main_v86
  h_main_v88 := by after_results_simp; exact h.h_main_v88
  h_main_v89 := by
    after_results_simp
    rw [h.h_main_v3, h.h_main_v87]
    rfl
  h_main_v90 := by
    after_results_simp
    rfl

set_option maxRecDepth 8192 in
set_option maxHeartbeats 4000000 in
/-- Operations 120 … 128. -/
theorem step9 (V : Valuation τ sig (Elt F)) (h : Inv8 m c V) : Inv9 m c (after ops9 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v86 := by after_results_simp; exact h.h_main_v86
  h_main_v88 := by after_results_simp; exact h.h_main_v88
  h_main_v89 := by after_results_simp; exact h.h_main_v89
  h_main_v91 := by
    after_results_simp
    rw [h.h_main_v36, h.h_main_v90]
    rfl
  h_main_v94 := by
    after_results_simp
    rw [h.h_main_v89, h.h_main_v36, h.h_main_v90]
    rfl
  h_main_v96 := by
    after_results_simp
    rw [h.h_main_v89, h.h_main_v36, h.h_main_v90]
    rfl
  h_main_cst_20 := by
    after_results_simp
    rfl

set_option maxRecDepth 8192 in
set_option maxHeartbeats 4000000 in
/-- Operations 129 … 161. -/
theorem step10 (V : Valuation τ sig (Elt F)) (h : Inv9 m c V) : Inv10 m c (after ops10 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v88 := by after_results_simp; exact h.h_main_v88
  h_main_v89 := by after_results_simp; exact h.h_main_v89
  h_main_v117 := by
    after_results_simp
    rw [h.h_main_v96, h.h_main_v94, h.h_main_cst_20, h.h_main_v88, h.h_main_v91, h.h_main_v89]
    rfl
  h_main_v119 := by
    after_results_simp
    rw [h.h_main_v86, h.h_main_arg8]
    rfl

set_option maxRecDepth 8192 in
set_option maxHeartbeats 4000000 in
/-- Operations 162 … 194. -/
theorem step11 (V : Valuation τ sig (Elt F)) (h : Inv10 m c V) : Inv11 m c (after ops11 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v145 := by
    after_results_simp
    rw [h.h_main_v89, h.h_main_v117, h.h_main_v119, h.h_main_v88, h.h_main_arg9, h.h_main_arg10, h.h_main_arg11]
    rfl
  h_main_cst_31 := by
    after_results_simp
    rfl

set_option maxRecDepth 8192 in
set_option maxHeartbeats 4000000 in
/-- Operations 195 … 196. -/
theorem step12 (V : Valuation τ sig (Elt F)) (h : Inv11 m c V) : Inv12 m c (after ops12 V) where
  h_main_arg0 := by after_results_simp; exact h.h_main_arg0
  h_main_arg1 := by after_results_simp; exact h.h_main_arg1
  h_main_arg2 := by after_results_simp; exact h.h_main_arg2
  h_main_arg3 := by after_results_simp; exact h.h_main_arg3
  h_main_arg4 := by after_results_simp; exact h.h_main_arg4
  h_main_arg5 := by after_results_simp; exact h.h_main_arg5
  h_main_arg6 := by after_results_simp; exact h.h_main_arg6
  h_main_arg7 := by after_results_simp; exact h.h_main_arg7
  h_main_arg8 := by after_results_simp; exact h.h_main_arg8
  h_main_arg9 := by after_results_simp; exact h.h_main_arg9
  h_main_arg10 := by after_results_simp; exact h.h_main_arg10
  h_main_arg11 := by after_results_simp; exact h.h_main_arg11
  h_main_v147 := by
    after_results_simp
    rw [h.h_main_cst_31, h.h_main_v145]
    rfl

/-! ## The run -/

/-- After all of @main's operations from the launch contents, the result buffer holds the last stage and the arguments
    are as launched. -/
theorem inv_final : Inv12 m c (after ops (launchContents m c)) := by
  rw [after_ops]
  exact step12 m c _ (step11 m c _ (step10 m c _ (step9 m c _ (step8 m c _ (step7 m c _ (step6 m c _ (step5 m c _
    (step4 m c _ (step3 m c _ (step2 m c _ (step1 m c _ (inv0 m c))))))))))))

/-- On every device, for any float values, from any memory with zero counters: every weakly fair execution of @main
    terminates with the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v147).trans (inv_final m c).h_main_v147,
      (h c main_arg0).trans (inv_final m c).h_main_arg0,
      (h c main_arg1).trans (inv_final m c).h_main_arg1,
      (h c main_arg2).trans (inv_final m c).h_main_arg2,
      (h c main_arg3).trans (inv_final m c).h_main_arg3,
      (h c main_arg4).trans (inv_final m c).h_main_arg4,
      (h c main_arg5).trans (inv_final m c).h_main_arg5,
      (h c main_arg6).trans (inv_final m c).h_main_arg6,
      (h c main_arg7).trans (inv_final m c).h_main_arg7,
      (h c main_arg8).trans (inv_final m c).h_main_arg8,
      (h c main_arg9).trans (inv_final m c).h_main_arg9,
      (h c main_arg10).trans (inv_final m c).h_main_arg10,
      (h c main_arg11).trans (inv_final m c).h_main_arg11⟩)
    (run_after m ρ)

end Values

end Cert.ReferenceIdeal.RunP

end
-- ==== Proof.GcnSpec.lean ====
/-
  The mathematics both programs compute, written once over the extended reals, index by index.

  A graph of 50000 nodes and 600000 directed edges (source and target node of edge `e` in the two rows of the integer
  input). Every edge gets a weight in (0, 1): a two-layer perceptron of the two end points' feature rows, a logistic on top.
  Two rounds of normalised message passing follow: with `D` the inverse square root of the weighted in-degree (self loop
  included), node `i` receives `D (s e) · w e · D (d e)` times the projected features of `s e` from every edge `e` that
  ends in `i`, plus `D i · D i` times its own projected features (the self loop), plus a bias, cut at zero. A linear
  head with a logistic closes.

  The self loop is the one place where the two programs are ARRANGED differently: one adds it as a term of its own,
  the other lists `i → i` as 50000 further edges of weight one and sums over all 650000. `layer` is the first
  arrangement; `GcnBridge` proves the second equal to it.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals over a literal shape. -/
abbrev A2 (a b : ℕ) : Type := (⟨2, ![a, b]⟩ : Shape).Idx → EReal
/-- A vector of extended reals over a literal shape. -/
abbrev A1 (a : ℕ) : Type := (⟨1, ![a]⟩ : Shape).Idx → EReal

/-- The node a 32-bit word names, read signed and kept inside `[0, 49999]`. -/
def node (w : BitVec 32) : Fin 50000 := ⟨min w.toInt.toNat 49999, by omega⟩

/-- Every entry of the edge table names a node: `0 ≤ entry < 50000` as a signed integer. -/
def InRange (ei : IVec ⟨2, ![2, 600000]⟩ 32) : Prop := ∀ j, 0 ≤ (ei j).toInt ∧ (ei j).toInt < 50000

/-- Source node of edge `e`. -/
def src (ei : IVec ⟨2, ![2, 600000]⟩ 32) (e : Fin 600000) : Fin 50000 := node (ei (ix2 0 e))
/-- Target node of edge `e`. -/
def dst (ei : IVec ⟨2, ![2, 600000]⟩ 32) (e : Fin 600000) : Fin 50000 := node (ei (ix2 1 e))

theorem node_val_of_range {w : BitVec 32} (h : 0 ≤ w.toInt ∧ w.toInt < 50000) : ((node w).val : ℤ) = w.toInt := by
  unfold node
  show ((min w.toInt.toNat 49999 : ℕ) : ℤ) = w.toInt
  omega

/-- Hidden unit `j` of the edge perceptron at an edge from node `s` to node `d`: the first 128 columns of the weight
    matrix meet the source's features, the last 128 the target's. -/
def hid (x : A2 50000 128) (Wp1 : A2 64 256) (bp1 : A1 64) (s d : Fin 50000) (j : Fin 64) : EReal :=
  max (((∑ k : Fin 128, x (ix2 s k) * Wp1 (ix2 j ⟨k.val, by omega⟩))
        + (∑ k : Fin 128, x (ix2 d k) * Wp1 (ix2 j ⟨128 + k.val, by omega⟩))) + bp1 (ix1 j)) 0

/-- The weight of an edge from `s` to `d`. -/
def edgeW (x : A2 50000 128) (Wp1 : A2 64 256) (bp1 : A1 64) (Wp2 : A2 1 64) (bp2 : A1 1) (s d : Fin 50000) : EReal :=
  Ideal.logistic ((∑ j : Fin 64, hid x Wp1 bp1 s d j * Wp2 (ix2 0 j)) + bp2 (ix1 0))

/-- A linear projection `h · Wᵀ` at `(i, c)`. -/
def lin (h : A2 50000 128) (W : A2 128 128) (i : Fin 50000) (c : Fin 128) : EReal :=
  ∑ k : Fin 128, h (ix2 i k) * W (ix2 c k)

/-- The normalised weight of edge `e`. -/
def norm (D : A1 50000) (w : Fin 600000 → EReal) (s d : Fin 600000 → Fin 50000) (e : Fin 600000) : EReal :=
  (D (ix1 (s e)) * w e) * D (ix1 (d e))

/-- One round of message passing at `(i, c)`, the self loop as a term of its own. -/
def layer (D : A1 50000) (w : Fin 600000 → EReal) (s d : Fin 600000 → Fin 50000) (L : Fin 50000 → Fin 128 → EReal)
    (b : A1 128) (i : Fin 50000) (c : Fin 128) : EReal :=
  max (((0 + ∑ e ∈ Finset.univ.filter (fun e => d e = i), norm D w s d e * L (s e) c)
        + (D (ix1 i) * D (ix1 i)) * L i c) + b (ix1 c)) 0

/-- The head at `(i, c)`. -/
def headOut (h : A2 50000 128) (Wl : A2 2 128) (bl : A1 2) (i : Fin 50000) (c : Fin 2) : EReal :=
  Ideal.logistic ((∑ k : Fin 128, h (ix2 i k) * Wl (ix2 c k)) + bl (ix1 c))

/-! ## The degree normalisation, as the one chain of array operations both programs apply

Both programs compute it by the same operations from the column of target nodes and the edge weights: the targets
followed by `0 … 49999` (the self loops), the weights followed by 50000 ones, a scatter-add into zeros (the weighted
in-degree), then `1/√deg` where `deg > 0` and `0` elsewhere. It is carried whole, never opened. -/

/-- The scatter that sums 650000 scalar updates into 50000 slots by their index column. -/
def degDims : ScatterDims ⟨1, ![50000]⟩ ⟨2, ![650000, 1]⟩ ⟨1, ![650000]⟩ where
  updateWindowDims := []
  insertedWindowDims := [0]
  scatterDimsToOperandDims := [0]
  indexVectorDim := 1
  wf := by decide

/-- 600000 entries followed by 50000 make 650000. -/
theorem cat_650000 : Shape.Concatenates [(⟨1, ![600000]⟩ : Shape), ⟨1, ![50000]⟩] ⟨1, ![650000]⟩ 0 := by decide

/-- The inverse square root of the weighted in-degree (self loop included), `0` where the degree is not positive. -/
def dinvOf (dcol : IVec ⟨1, ![600000]⟩ 32) (w : A1 600000) : A1 50000 :=
  let zero : A1 50000 := broadcastInDim ⟨1, ![50000]⟩ ![] (by decide) (constant (F := Ideal) ⟨0, ![]⟩ .f32 0x00000000#32)
  let one : A1 50000 := broadcastInDim ⟨1, ![50000]⟩ ![] (by decide) (constant (F := Ideal) ⟨0, ![]⟩ .f32 0x3F800000#32)
  let deg : A1 50000 := Host.scatterAdd (F := Ideal) (φ := .f32) degDims zero
    (broadcastInDim ⟨2, ![650000, 1]⟩ ![0] (by decide)
      (concatenate ⟨1, ![650000]⟩ 0 [⟨⟨1, ![600000]⟩, dcol⟩, ⟨⟨1, ![50000]⟩, iotaInDim ⟨1, ![50000]⟩ 32 0⟩] cat_650000))
    (concatenate ⟨1, ![650000]⟩ 0 [⟨⟨1, ![600000]⟩, w⟩, ⟨⟨1, ![50000]⟩, one⟩] cat_650000)
  select (cmpf (F := Ideal) (φ := .f32) .ogt deg zero)
    (Host.rsqrt (F := Ideal) (φ := .f32) (select (cmpf (F := Ideal) (φ := .f32) .ogt deg zero) deg one)) zero

/-! ## What each of the four kernel bodies computes, over whole arrays (the windows tile the rows, so a row's value
depends on that row of the row-blocked operands and on the whole of the small operands) -/

/-- The edge perceptron's kernel at row `e` of the gathered end-point features `xs`, `xd` (606208 rows: the edge list
    padded to a multiple of the block), weights already split in halves. -/
def mlpRow (xs xd : A2 606208 128) (wa wb : A2 64 128) (b1 w2 : A2 1 64) (b2 : A2 1 1) (e : Fin 606208) : EReal :=
  Ideal.logistic ((∑ j : Fin 64,
      max (((∑ k : Fin 128, xs (ix2 e k) * wa (ix2 j k)) + (∑ k : Fin 128, xd (ix2 e k) * wb (ix2 j k))) + b1 (ix2 0 j)) 0
        * w2 (ix2 0 j)) + b2 (ix2 0 0))

/-- The combine kernel at `(i, c)`: aggregated messages, plus the squared column entry times the node's own projected
    features, plus the bias row, cut at zero. -/
def combineAt (agg xl : A2 50000 128) (dcol : A2 50000 1) (b : A2 1 128) (i : Fin 50000) (c : Fin 128) : EReal :=
  max ((agg (ix2 i c) + (dcol (ix2 i 0) * dcol (ix2 i 0)) * xl (ix2 i c)) + b (ix2 0 c)) 0

/-- The head kernel at `(i, c)`, its bias as a row. -/
def headAt (h : A2 50000 128) (Wl : A2 2 128) (bl : A2 1 2) (i : Fin 50000) (c : Fin 2) : EReal :=
  Ideal.logistic ((∑ k : Fin 128, h (ix2 i k) * Wl (ix2 c k)) + bl (ix2 0 c))

end Cert.Gcn

end
-- ==== Proof.KernelKeep.lean ====
/-
  Reading a buffer of the idealized kernel program at a boundary of its run. `Wk m ρ c b` is what buffer `b` holds at
  boundary `k` (the generated fold through the host stretches and the regions). A buffer that a host stretch does not
  write is the same before and after it (`keep_host`); a buffer that is no array of a region is the same before and
  after the region (the generated `Wk_of_ne`), and a region's input array is too (`Dat.arrAt_in`).
-/
import proofs.«404812_j66486093742317_1_alg».proof.Proof.Gen.KernelIdeal.Frame
import proofs.«404812_j66486093742317_1_alg».proof.Proof.GcnSpec

noncomputable section

namespace Cert.KernelIdeal.Gen

open Idealize.ShloMosaic Idealize.ShloMosaic.TcCoe Idealize.ShloMosaic.Tactic Idealize.SL.Sem

/-- A host stretch leaves a buffer it does not write as it was: closes `StableHlo.after ops V (Proc.devRef .tc b) = V (Proc.devRef .tc b)`
    (also when both sides are spelt by the boundary names `W(k+1) m ρ c …`, `Wk m ρ c …`). -/
macro "keep_host" : tactic => `(tactic|
  exact StableHlo.after_of_forall_not_mem _ _ (List.forall_iff_forall_mem.mp (by
    simp only [hostOps0, hostOps0_1, hostOps0_2, hostOps0_3, hostOps1, hostOps1_1, hostOps1_2, hostOps1_3, hostOps1_4, hostOps1_5,
      hostOps1_6, hostOps1_7, hostOps2, hostOps2_1, hostOps4, hostOps4_1, hostOps5,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The arguments as launched, and the buffers the later statements speak of, each at its literal type -/

section Names
variable (m : (ℓ : Loc nD τ sig) → Buf (Elt Ideal) ℓ) (ρ : Dev nD → PrngReg) (c : Dev nD)

/-- The node features. -/
abbrev aX : Gcn.A2 50000 128 := m ((c : Thread nD τ).loc main_arg0)
/-- The edge table: row 0 the sources, row 1 the targets. -/
abbrev aEI : IVec ⟨2, ![2, 600000]⟩ 32 := m ((c : Thread nD τ).loc main_arg1)
abbrev aWp1 : Gcn.A2 64 256 := m ((c : Thread nD τ).loc main_arg2)
abbrev aBp1 : Gcn.A1 64 := m ((c : Thread nD τ).loc main_arg3)
abbrev aWp2 : Gcn.A2 1 64 := m ((c : Thread nD τ).loc main_arg4)
abbrev aBp2 : Gcn.A1 1 := m ((c : Thread nD τ).loc main_arg5)
abbrev aW1 : Gcn.A2 128 128 := m ((c : Thread nD τ).loc main_arg6)
abbrev aB1 : Gcn.A1 128 := m ((c : Thread nD τ).loc main_arg7)
abbrev aW2 : Gcn.A2 128 128 := m ((c : Thread nD τ).loc main_arg8)
abbrev aB2 : Gcn.A1 128 := m ((c : Thread nD τ).loc main_arg9)
abbrev aWl : Gcn.A2 2 128 := m ((c : Thread nD τ).loc main_arg10)
abbrev aBl : Gcn.A1 2 := m ((c : Thread nD τ).loc main_arg11)

/-- The column of source nodes as the host keeps it (written by the first stretch). -/
abbrev kSrcCol : IVec ⟨1, ![600000]⟩ 32 := W1 m ρ c (Proc.devRef .tc main_v1)
/-- The column of target nodes as the host keeps it (written by the first stretch). -/
abbrev kDstCol : IVec ⟨1, ![600000]⟩ 32 := W1 m ρ c (Proc.devRef .tc main_v3)
/-- The edge weights (the perceptron region's column, cut to the 600000 real edges). -/
abbrev kEw : Gcn.A1 600000 := W6 m ρ c (Proc.devRef .tc main_v15)
/-- The inverse square root of the degree. -/
abbrev kDinv : Gcn.A1 50000 := W9 m ρ c (Proc.devRef .tc main_v29)
/-- The same as a column. -/
abbrev kDcol : Gcn.A2 50000 1 := W10 m ρ c (Proc.devRef .tc main_v30)
/-- The normalised edge weights. -/
abbrev kNorm : Gcn.A1 600000 := W13 m ρ c (Proc.devRef .tc main_v34)
/-- The first projection (region 1's output). -/
abbrev kXl1 : Gcn.A2 50000 128 := W14 m ρ c (Proc.devRef .tc main_v35)
/-- The first layer's output (region 2's). -/
abbrev kX1 : Gcn.A2 50000 128 := W17 m ρ c (Proc.devRef .tc main_v44)
/-- The second projection (region 3's output). -/
abbrev kXl2 : Gcn.A2 50000 128 := W18 m ρ c (Proc.devRef .tc main_v45)
/-- The second layer's output (region 4's). -/
abbrev kX2 : Gcn.A2 50000 128 := W21 m ρ c (Proc.devRef .tc main_v54)
/-- The program's result (region 5's output). -/
abbrev kOut : Gcn.A2 50000 2 := W23 m ρ c (Proc.devRef .tc main_v56)

end Names

end Cert.KernelIdeal.Gen

end
-- ==== Proof.Region0Value.lean ====
/- What the edge perceptron's region leaves in its output array, row by row, whatever the region finds in its inputs. -/
import proofs.«404812_j66486093742317_1_alg».proof.Proof.KernelKeep
import Idealize.ShloMosaic.Lib.Pipeline.Value
import Idealize.ShloMosaic.PureOps.Ideal.Laws

noncomputable section

open scoped BigOperators

namespace Cert.KernelIdeal.Gen

open Idealize.ShloMosaic Idealize.ShloMosaic.TcCoe Idealize.ShloMosaic.Tactic Idealize.SL.Sem Idealize.ShloMosaic.ValueIdx
open Idealize.ShloMosaic.Pipeline (Dat Cfg Window)

variable (V : (c : Dev nD) → (b : Ref sig .tc) → Buf (Elt Ideal) ((c : Thread nD τ).loc b))
set_option maxRecDepth 16384

namespace Region0

/-! ## A matrix product into zeros, entry by entry

Each of the body's three products contracts the second axis of its left operand against the first axis of its right
operand. Read at the output entry (p, q), the left operand's index is (p, k) and the right operand's is (k, q), for k
the position on the shared axis; the product into a zero accumulator is the sum of the entries' products over k. -/

theorem lhs_mmA_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_mmA_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs_mmA_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs_mmA_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The product of a [8192, 128] matrix and a [128, 64] matrix into zeros, at (p, q): the sum over the shared axis. -/
theorem mmA_apply {φ₁ φ₂ : FTy} (L : FVec Ideal S8192x128 φ₁) (R : FVec Ideal S128x64 φ₂) (p : Fin 8192) (q : Fin 64) :
    matmul dot_S8192x128_S128x64_S8192x64_1_0_0_1_n_n none L R (constant (F := Ideal) S8192x64 .f32 0x00000000#32) (ix2 p q)
      = ∑ k : Fin 128, L (ix2 p k) * R (ix2 k q) := by
  show FloatOps.matmul dot_S8192x128_S128x64_S8192x64_1_0_0_1_n_n none L R (constant (F := Ideal) S8192x64 .f32 0x00000000#32) (ix2 p q) = _
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p q) ((contrEquiv1 dot_S8192x128_S128x64_S8192x64_1_0_0_1_n_n 128 rfl rfl).symm k) = ix2 p k := funext fun a => Fin.ext (by
    match a with
    | ⟨0, _⟩ => exact lhs_mmA_0 _ _
    | ⟨1, _⟩ => exact (lhs_mmA_1 _ _).trans hk)
  have er : dot_S8192x128_S128x64_S8192x64_1_0_0_1_n_n.rhsIdx (ix2 p q) ((contrEquiv1 dot_S8192x128_S128x64_S8192x64_1_0_0_1_n_n 128 rfl rfl).symm k) = ix2 k q := funext fun a => Fin.ext (by
    match a with
    | ⟨0, _⟩ => exact (rhs_mmA_0 _ _).trans hk
    | ⟨1, _⟩ => exact rhs_mmA_1 _ _)
  rw [el, er]

theorem lhs_mmB_0 (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
theorem lhs_mmB_1 (i : S8192x1.Idx) (q : dot_S8192x64_S64x1_S8192x1_1_0_0_1_n_n.contr.Idx) :
    (dot_S8192x64_S64x1_S8192x1_1_0_0_1_n_n.lhsIdx i q 1).val = (q ⟨0, by decide⟩).val :=
  dot_S8192x64_S64x1_S8192x1_1_0_0_1_n_n.lhsIdx_val_of_single rfl i q
theorem rhs_mmB_0 (i : S8192x1.Idx) (q : dot_S8192x64_S64x1_S8192x1_1_0_0_1_n_n.contr.Idx) :
    (dot_S8192x64_S64x1_S8192x1_1_0_0_1_n_n.rhsIdx i q 0).val = (q ⟨0, by decide⟩).val :=
  dot_S8192x64_S64x1_S8192x1_1_0_0_1_n_n.rhsIdx_val_of_single rfl i q
theorem rhs_mmB_1 (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl

/-- The product of a [8192, 64] matrix and a [64, 1] matrix into zeros, at (p, q): the sum over the shared axis. -/
theorem mmB_apply {φ₁ φ₂ : FTy} (L : FVec Ideal S8192x64 φ₁) (R : FVec Ideal S64x1 φ₂) (p : Fin 8192) (q : Fin 1) :
    matmul dot_S8192x64_S64x1_S8192x1_1_0_0_1_n_n none L R (constant (F := Ideal) S8192x1 .f32 0x00000000#32) (ix2 p q)
      = ∑ k : Fin 64, L (ix2 p k) * R (ix2 k q) := by
  show FloatOps.matmul dot_S8192x64_S64x1_S8192x1_1_0_0_1_n_n none L R (constant (F := Ideal) S8192x1 .f32 0x00000000#32) (ix2 p q) = _
  rw [Ideal.matmul_constant_zero_apply, ← Equiv.sum_comp (contrEquiv1 dot_S8192x64_S64x1_S8192x1_1_0_0_1_n_n 64 rfl rfl).symm]
  refine Finset.sum_congr rfl fun k _ => ?_
  have hk := contrEquiv1_symm_val dot_S8192x64_S64x1_S8192x1_1_0_0_1_n_n 64 rfl rfl k
  have el : dot_S8192x64_S64x1_S8192x1_1_0_0_1_n_n.lhsIdx (ix2 p q) ((contrEquiv1 dot_S8192x64_S64x1_S8192x1_1_0_0_1_n_n 64 rfl rfl).symm k) = ix2 p k := funext fun a => Fin.ext (by
    match a with
    | ⟨0, _⟩ => exact lhs_mmB_0 _ _
    | ⟨1, _⟩ => exact (lhs_mmB_1 _ _).trans hk)
  have er : dot_S8192x64_S64x1_S8192x1_1_0_0_1_n_n.rhsIdx (ix2 p q) ((contrEquiv1 dot_S8192x64_S64x1_S8192x1_1_0_0_1_n_n 64 rfl rfl).symm k) = ix2 k q := funext fun a => Fin.ext (by
    match a with
    | ⟨0, _⟩ => exact (rhs_mmB_0 _ _).trans hk
    | ⟨1, _⟩ => exact rhs_mmB_1 _ _)
  rw [el, er]

/-! ## Layout operations at an entry -/

/-- A [n, m] matrix transposed, at (q, p): the matrix at (p, q). -/
theorem transpose_ix2 {α : Type} {n m : ℕ} (x : (⟨2, ![n, m]⟩ : Shape).Idx → α)
    (h : (⟨2, ![n, m]⟩ : Shape).Transposes [1, 0] ⟨2, ![m, n]⟩) (q : Fin m) (p : Fin n) :
    transpose ⟨2, ![m, n]⟩ [1, 0] x h (ix2 q p) = x (ix2 p q) :=
  transpose_apply [1, 0] x h (ix2 q p) (ix2 p q) (fun b => match b with
    | ⟨0, _⟩ => rfl
    | ⟨1, _⟩ => rfl)

/-- A row [1, m] broadcast to [n, m], at (p, q): the row at q. -/
theorem bcast_row {α : Type} {n m : ℕ} (v : (⟨2, ![1, m]⟩ : Shape).Idx → α) (h : (⟨2, ![1, m]⟩ : Shape).Broadcasts ⟨2, ![n, m]⟩)
    (p : Fin n) (q : Fin m) : broadcastTo ⟨2, ![n, m]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if m = 1 then 0 else q.val
    split
    · have := q.isLt; omega
    · rfl

/-! ## The body at a row of its block

The body rounds its operands to a narrower format (no change of value over the extended reals), multiplies the two
feature blocks by the transposed halves of the first weight matrix, adds the two products and the bias row, cuts at
zero, multiplies by the transposed second weight row, adds the second bias and applies the logistic. -/

/-- The edge perceptron's body at row r of its block: the logistic of the second layer's sum over the 64 hidden
    units, each the first layer's two sums over the 128 features plus its bias, cut at zero. -/
theorem pay0_apply (v0 v3 : Vec Ideal S8192x128 .f32) (v6 v9 : Vec Ideal S64x128 .f32) (v17 v24 : Vec Ideal S1x64 .f32)
    (v28 : Vec Ideal S1x1 .f32) (r : Fin 8192) (u : Fin 1) :
    k0_pay1 (F := Ideal) v0 v3 v6 v9 v17 v24 v28 (ix2 r u)
      = Ideal.logistic ((∑ j : Fin 64,
          max (((∑ k : Fin 128, v0 (ix2 r k) * v6 (ix2 j k)) + (∑ k : Fin 128, v3 (ix2 r k) * v9 (ix2 j k))) + v17 (ix2 0 j)) 0
            * v24 (ix2 0 j)) + v28 (ix2 0 0)) := by
  obtain rfl : u = 0 := Subsingleton.elim _ _
  unfold k0_pay1
  simp only [shapeCast_self]
  show Ideal.logistic (matmul dot_S8192x64_S64x1_S8192x1_1_0_0_1_n_n none _ _ (constant (F := Ideal) S8192x1 .f32 0x00000000#32) (ix2 r 0)
      + broadcastTo S8192x1 v28 broadcasts_S1x1_S8192x1 (ix2 r 0)) = _
  rw [mmB_apply, bcast_row]
  refine congrArg Ideal.logistic (congrArg₂ (· + ·) (Finset.sum_congr rfl fun j _ => ?_) rfl)
  rw [transpose_ix2]
  show max ((matmul dot_S8192x128_S128x64_S8192x64_1_0_0_1_n_n none _ _ (constant (F := Ideal) S8192x64 .f32 0x00000000#32) (ix2 r j)
        + matmul dot_S8192x128_S128x64_S8192x64_1_0_0_1_n_n none _ _ (constant (F := Ideal) S8192x64 .f32 0x00000000#32) (ix2 r j))
        + broadcastTo S8192x64 v17 broadcasts_S1x64_S8192x64 (ix2 r j)) (Ideal.ofBits .f32 0x00000000#32) * v24 (ix2 0 j) = _
  rw [mmA_apply, mmA_apply, bcast_row, Ideal.ofBits_zero_f32]
  refine congrArg₂ (· * ·) (congrArg₂ max (congrArg₂ (· + ·) (congrArg₂ (· + ·) (Finset.sum_congr rfl fun k _ => ?_) (Finset.sum_congr rfl fun k _ => ?_)) rfl) rfl) rfl
  · rw [transpose_ix2]; rfl
  · rw [transpose_ix2]; rfl

/-! ## From the blocks to the column

The two feature arrays and the output column are cut in 74 blocks of 8192 rows, block t at point t; the weight halves,
the bias row, the second weight row and the second bias are each one block, the same at every point. So what point t
writes back depends, at row r of the block, on row t·8192 + r of the feature arrays and on the whole small arrays: it is
the perceptron at that row. Every row e of the column lies in the block of point e / 8192, and 74 · 8192 = 606208 rows
are all of them. -/

theorem hz : (![0, 0] : Fin 2 → Nat) = fun _ => 0 := funext fun a => by fin_cases a <;> rfl

/-- The index maps over the grid: the two feature windows and the output move one block of rows per point, the small
    operands stay at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's block at point t is rows t·8192 … t·8192 + 8191 of its array. -/
theorem iblk0_0_apply (c : Dev nD) (t : Fin cfg0.N) (r : Fin 8192) (k : Fin 128) (e : Fin 606208) (he : e.val = t.val * 8192 + r.val) :
    (iblk0 (F := Ideal) V c 0 t : Vec Ideal S8192x128 .f32) (ix2 r k) = (V c main_v7 : S606208x128.Idx → EReal) (ix2 e k) := by
  have hi : win0_0.index t (0 : Fin 2) = t.val ∧ win0_0.index t (1 : Fin 2) = 0 := by
    have h := idx_facts0 t; simp only [h, and_self]
  unfold iblk0
  rw [View.read_apply]
  show V c main_v7 _ = V c main_v7 _
  congr 1
  funext a
  apply Fin.ext
  match a with
  | ⟨0, _⟩ => show win0_0.index t (0 : Fin 2) * 8192 + 1 * r.val = e.val; rw [hi.1, he]; omega
  | ⟨1, _⟩ => show win0_0.index t (1 : Fin 2) * 128 + 1 * k.val = k.val; rw [hi.2]; omega

/-- Window 1's block at point t is rows t·8192 … t·8192 + 8191 of its array. -/
theorem iblk0_1_apply (c : Dev nD) (t : Fin cfg0.N) (r : Fin 8192) (k : Fin 128) (e : Fin 606208) (he : e.val = t.val * 8192 + r.val) :
    (iblk0 (F := Ideal) V c 1 t : Vec Ideal S8192x128 .f32) (ix2 r k) = (V c main_v8 : S606208x128.Idx → EReal) (ix2 e k) := by
  have hi : win0_1.index t (0 : Fin 2) = t.val ∧ win0_1.index t (1 : Fin 2) = 0 := by
    have h := idx_facts0 t; simp only [h, and_self]
  unfold iblk0
  rw [View.read_apply]
  show V c main_v8 _ = V c main_v8 _
  congr 1
  funext a
  apply Fin.ext
  match a with
  | ⟨0, _⟩ => show win0_1.index t (0 : Fin 2) * 8192 + 1 * r.val = e.val; rw [hi.1, he]; omega
  | ⟨1, _⟩ => show win0_1.index t (1 : Fin 2) * 128 + 1 * k.val = k.val; rw [hi.2]; omega

/-- Window 2's block at every point is its whole array. -/
theorem iblk0_2_eq (c : Dev nD) (t : Fin cfg0.N) :
    (iblk0 (F := Ideal) V c 2 t : Vec Ideal S64x128 .f32) = V c main_v9 := by
  have hi : win0_2.index t (0 : Fin 2) = 0 ∧ win0_2.index t (1 : Fin 2) = 0 := by
    have h := idx_facts0 t; simp only [h, and_self]
  funext j
  unfold iblk0
  rw [View.read_apply]
  show V c main_v9 _ = V c main_v9 _
  congr 1
  funext a
  apply Fin.ext
  match a with
  | ⟨0, _⟩ => show win0_2.index t (0 : Fin 2) * 64 + 1 * (j 0).val = (j 0).val; rw [hi.1]; omega
  | ⟨1, _⟩ => show win0_2.index t (1 : Fin 2) * 128 + 1 * (j 1).val = (j 1).val; rw [hi.2]; omega

/-- Window 3's block at every point is its whole array. -/
theorem iblk0_3_eq (c : Dev nD) (t : Fin cfg0.N) :
    (iblk0 (F := Ideal) V c 3 t : Vec Ideal S64x128 .f32) = V c main_v10 := by
  have hi : win0_3.index t (0 : Fin 2) = 0 ∧ win0_3.index t (1 : Fin 2) = 0 := by
    have h := idx_facts0 t; simp only [h, and_self]
  funext j
  unfold iblk0
  rw [View.read_apply]
  show V c main_v10 _ = V c main_v10 _
  congr 1
  funext a
  apply Fin.ext
  match a with
  | ⟨0, _⟩ => show win0_3.index t (0 : Fin 2) * 64 + 1 * (j 0).val = (j 0).val; rw [hi.1]; omega
  | ⟨1, _⟩ => show win0_3.index t (1 : Fin 2) * 128 + 1 * (j 1).val = (j 1).val; rw [hi.2]; omega

/-- Window 4's block at every point is its whole array. -/
theorem iblk0_4_eq (c : Dev nD) (t : Fin cfg0.N) :
    (iblk0 (F := Ideal) V c 4 t : Vec Ideal S1x64 .f32) = V c main_v11 := by
  have hi : win0_4.index t (0 : Fin 2) = 0 ∧ win0_4.index t (1 : Fin 2) = 0 := by
    have h := idx_facts0 t; simp only [h, and_self]
  funext j
  unfold iblk0
  rw [View.read_apply]
  show V c main_v11 _ = V c main_v11 _
  congr 1
  funext a
  apply Fin.ext
  match a with
  | ⟨0, _⟩ => show win0_4.index t (0 : Fin 2) * 1 + 1 * (j 0).val = (j 0).val; rw [hi.1]; omega
  | ⟨1, _⟩ => show win0_4.index t (1 : Fin 2) * 64 + 1 * (j 1).val = (j 1).val; rw [hi.2]; omega

/-- Window 5's block at every point is its whole array. -/
theorem iblk0_5_eq (c : Dev nD) (t : Fin cfg0.N) :
    (iblk0 (F := Ideal) V c 5 t : Vec Ideal S1x64 .f32) = V c main_arg4 := by
  have hi : win0_5.index t (0 : Fin 2) = 0 ∧ win0_5.index t (1 : Fin 2) = 0 := by
    have h := idx_facts0 t; simp only [h, and_self]
  funext j
  unfold iblk0
  rw [View.read_apply]
  show V c main_arg4 _ = V c main_arg4 _
  congr 1
  funext a
  apply Fin.ext
  match a with
  | ⟨0, _⟩ => show win0_5.index t (0 : Fin 2) * 1 + 1 * (j 0).val = (j 0).val; rw [hi.1]; omega
  | ⟨1, _⟩ => show win0_5.index t (1 : Fin 2) * 64 + 1 * (j 1).val = (j 1).val; rw [hi.2]; omega

/-- Window 6's block at every point is its whole array. -/
theorem iblk0_6_eq (c : Dev nD) (t : Fin cfg0.N) :
    (iblk0 (F := Ideal) V c 6 t : Vec Ideal S1x1 .f32) = V c main_v12 := by
  have hi : win0_6.index t (0 : Fin 2) = 0 ∧ win0_6.index t (1 : Fin 2) = 0 := by
    have h := idx_facts0 t; simp only [h, and_self]
  funext j
  unfold iblk0
  rw [View.read_apply]
  show V c main_v12 _ = V c main_v12 _
  congr 1
  funext a
  apply Fin.ext
  match a with
  | ⟨0, _⟩ => show win0_6.index t (0 : Fin 2) * 1 + 1 * (j 0).val = (j 0).val; rw [hi.1]; omega
  | ⟨1, _⟩ => show win0_6.index t (1 : Fin 2) * 1 + 1 * (j 1).val = (j 1).val; rw [hi.2]; omega

/-- The body on a block whose row r is row e of the gathered features, and whose small operands are the whole small
    arrays: the perceptron at row e. -/
theorem block_row (xs xd : Gcn.A2 606208 128) (wa wb : Gcn.A2 64 128) (b1 w2 : Gcn.A2 1 64) (b2 : Gcn.A2 1 1)
    (x0 x1 : Vec Ideal S8192x128 .f32) (x2 x3 : Vec Ideal S64x128 .f32) (x4 x5 : Vec Ideal S1x64 .f32) (x6 : Vec Ideal S1x1 .f32)
    (r : Fin 8192) (u : Fin 1) (e : Fin 606208)
    (h0 : ∀ k : Fin 128, x0 (ix2 r k) = xs (ix2 e k)) (h1 : ∀ k : Fin 128, x1 (ix2 r k) = xd (ix2 e k))
    (h2 : x2 = wa) (h3 : x3 = wb) (h4 : x4 = b1) (h5 : x5 = w2) (h6 : x6 = b2) :
    k0_pay1 (F := Ideal) x0 x1 x2 x3 x4 x5 x6 (ix2 r u) = Gcn.mlpRow xs xd wa wb b1 w2 b2 e := by
  subst h2 h3 h4 h5 h6
  rw [pay0_apply]
  unfold Gcn.mlpRow
  simp only [h0, h1]

/-- The edge weights as one function of the region's input arrays. -/
def G0 (c : Dev nD) : S606208x1.Idx → EReal := fun i =>
  Gcn.mlpRow (V c main_v7) (V c main_v8) (V c main_v9) (V c main_v10) (V c main_v11) (V c main_arg4) (V c main_v12) (i 0)

/-- What point t writes back is block t of that function. -/
theorem flushed0_eq (c : Dev nD) (t : Fin cfg0.N) :
    (dat0 (F := Ideal) V c).flushed 7 t = ((cfg0.win 7).blk t).view.read (Elt Ideal) (G0 V c) := by
  show (cfg0.win 7).cut (grid0.coords t) ((dat0 (F := Ideal) V c).after 7 t) = _
  rw [after0_7]
  unfold out0_7
  rw [View.canon_unit_zero hz]
  simp only [View.ld_unit_zero (S := S8192x128) hz, View.ld_unit_zero (S := S64x128) hz, View.ld_unit_zero (S := S1x64) hz,
    View.ld_unit_zero (S := S1x1) hz]
  funext y
  obtain ⟨r, u, rfl⟩ : ∃ (r : Fin 8192) (u : Fin 1), y = ix2 r u := ⟨y 0, y 1, eq_ix2 y⟩
  rw [View.read_apply]
  have hN : cfg0.N = 74 := N_0
  have ht : t.val < 74 := hN ▸ t.isLt
  have hr : t.val * 8192 + r.val < 606208 := by have := r.isLt; omega
  have h7 : win0_7.index t (0 : Fin 2) = t.val := by have h := idx_facts0 t; simp only [h]
  refine (block_row (V c main_v7) (V c main_v8) (V c main_v9) (V c main_v10) (V c main_v11) (V c main_arg4) (V c main_v12)
    (iblk0 V c 0 t) (iblk0 V c 1 t) (iblk0 V c 2 t) (iblk0 V c 3 t) (iblk0 V c 4 t) (iblk0 V c 5 t) (iblk0 V c 6 t) r u ⟨t.val * 8192 + r.val, hr⟩
    (fun k => iblk0_0_apply V c t r k _ rfl) (fun k => iblk0_1_apply V c t r k _ rfl)
    (iblk0_2_eq V c t) (iblk0_3_eq V c t) (iblk0_4_eq V c t) (iblk0_5_eq V c t) (iblk0_6_eq V c t)).trans ?_
  unfold G0
  refine congrArg (Gcn.mlpRow (V c main_v7) (V c main_v8) (V c main_v9) (V c main_v10) (V c main_v11) (V c main_arg4) (V c main_v12)) (Fin.ext ?_)
  show t.val * 8192 + r.val = win0_7.index t (0 : Fin 2) * 8192 + 1 * r.val
  rw [h7]; omega

/-- An index of the column is in point t's block iff its row is among the block's rows. -/
theorem mem_blk0 (t : Fin cfg0.N) (i : S606208x1.Idx) :
    i ∈ ((cfg0.win 7).blk t).view.set ↔ ∀ a : Fin 2, win0_7.index t a * S8192x1.size a ≤ (i a).val ∧ (i a).val < win0_7.index t a * S8192x1.size a + S8192x1.size a := by
  show i ∈ ((View.whole main_v13).slice (win0_7.rect t)).set ↔ _
  rw [View.set_slice_whole, Rect.mem_set_unit]
  exact Iff.rfl

/-- Row r is written back by point r / 8192. -/
theorem cover0 (i : S606208x1.Idx) : ∃ t : Fin cfg0.N, (cfg0.win 7).flush t = true ∧ i ∈ ((cfg0.win 7).blk t).view.set := by
  have hi0 : (i 0).val < 606208 := (i 0).isLt
  have hi1 : (i 1).val < 1 := (i 1).isLt
  have hN : cfg0.N = 74 := N_0
  have hlt : (i 0).val / 8192 < cfg0.N := by rw [hN]; omega
  have h7 : win0_7.index ⟨(i 0).val / 8192, hlt⟩ (0 : Fin 2) = (i 0).val / 8192 ∧ win0_7.index ⟨(i 0).val / 8192, hlt⟩ (1 : Fin 2) = 0 := by
    have h := idx_facts0 ⟨(i 0).val / 8192, hlt⟩; simp only [h, and_self]
  refine ⟨⟨(i 0).val / 8192, hlt⟩, flush0_7 _, ?_⟩
  rw [mem_blk0]
  intro a
  match a with
  | ⟨0, _⟩ =>
    show win0_7.index ⟨(i 0).val / 8192, hlt⟩ (0 : Fin 2) * 8192 ≤ (i 0).val ∧ (i 0).val < win0_7.index ⟨(i 0).val / 8192, hlt⟩ (0 : Fin 2) * 8192 + 8192
    rw [h7.1]; omega
  | ⟨1, _⟩ =>
    show win0_7.index ⟨(i 0).val / 8192, hlt⟩ (1 : Fin 2) * 1 ≤ (i 1).val ∧ (i 1).val < win0_7.index ⟨(i 0).val / 8192, hlt⟩ (1 : Fin 2) * 1 + 1
    rw [h7.2]; omega

end Region0

/-- Row `e` of the edge-weight column after region 0. -/
theorem region0_value (c : Dev nD) (e : Fin 606208) :
    ((dat0 (F := Ideal) V c).arrAt 7 cfg0.N : S606208x1.Idx → EReal) (ix2 e 0)
      = Gcn.mlpRow (V c main_v7) (V c main_v8) (V c main_v9) (V c main_v10) (V c main_v11) (V c main_arg4) (V c main_v12) e :=
  congrFun ((dat0 (F := Ideal) V c).arrAt_eq_of_cover 7 (Region0.G0 V c) (fun t _ => Region0.flushed0_eq V c t) Region0.cover0) (ix2 e 0)

end Cert.KernelIdeal.Gen

end
-- ==== Proof.KernelWeights.lean ====
/- The perceptron's weights as the host hands them to the first region: the two halves of the first layer's matrix, the
   two biases as rows, the second layer's row untouched; and the edge weights as the host keeps them, entry `e` being
   row `e` of the region's output column. Each is a slice or a reshape of a launch argument (resp. of the column), read
   at an index. -/
import proofs.«404812_j66486093742317_1_alg».proof.Proof.KernelKeep
import Idealize.ShloMosaic.Lib.StableHlo.Run
import Idealize.ShloMosaic.Lib.Pipeline.Value

noncomputable section

open scoped BigOperators

namespace Cert.KernelIdeal.Gen

open Idealize.ShloMosaic Idealize.ShloMosaic.TcCoe Idealize.ShloMosaic.Tactic Idealize.SL.Sem Idealize.ShloMosaic.ValueIdx
open Idealize.ShloMosaic.Pipeline (Dat Cfg Window)

variable (m : (ℓ : Loc nD τ sig) → Buf (Elt Ideal) ℓ) (ρ : Dev nD → PrngReg) (c : Dev nD)

/-- What the fourth stretch writes, over any contents before it: the left half of the matrix. -/
theorem after3_v9 (V : Valuation τ sig (Elt Ideal)) :
    (StableHlo.after hostOps0_3 V (Proc.devRef .tc main_v9) : S64x128.Idx → EReal)
      = extractStridedSlice S64x128 ![0, 0] (V (Proc.devRef .tc main_arg2) : S64x256.Idx → EReal) slices_S64x256_S64x128_0_0 := by
  after_results

/-- The right half of the matrix. -/
theorem after3_v10 (V : Valuation τ sig (Elt Ideal)) :
    (StableHlo.after hostOps0_3 V (Proc.devRef .tc main_v10) : S64x128.Idx → EReal)
      = extractStridedSlice S64x128 ![0, 128] (V (Proc.devRef .tc main_arg2) : S64x256.Idx → EReal) slices_S64x256_S64x128_0_128 := by
  after_results

/-- The first bias as a row. -/
theorem after3_v11 (V : Valuation τ sig (Elt Ideal)) :
    (StableHlo.after hostOps0_3 V (Proc.devRef .tc main_v11) : S1x64.Idx → EReal)
      = shapeCast S1x64 (V (Proc.devRef .tc main_arg3) : S64.Idx → EReal) shapeCasts_S64_S1x64 := by
  after_results
  rfl

/-- The second bias as a one-by-one matrix. -/
theorem after3_v12 (V : Valuation τ sig (Elt Ideal)) :
    (StableHlo.after hostOps0_3 V (Proc.devRef .tc main_v12) : S1x1.Idx → EReal)
      = shapeCast S1x1 (V (Proc.devRef .tc main_arg5) : S1.Idx → EReal) shapeCasts_S1_S1x1 := by
  after_results
  rfl

/-- What the stretch after the perceptron region writes first, over any contents before it: the column cut to the
    real edges, as a vector. -/
theorem after1_v15 (V : Valuation τ sig (Elt Ideal)) :
    (StableHlo.after hostOps1 V (Proc.devRef .tc main_v15) : S600000.Idx → EReal)
      = shapeCast S600000 (extractStridedSlice S600000x1 ![0, 0] (V (Proc.devRef .tc main_v13) : S606208x1.Idx → EReal) slices_S606208x1_S600000x1_0_0) shapeCasts_S600000x1_S600000 := by
  after_results
  rfl

/-- The first layer's matrix reaches the fourth stretch as launched. -/
theorem W3_arg2 : (W3 m ρ c (Proc.devRef .tc main_arg2) : S64x256.Idx → EReal) = aWp1 m c := by
  have h3 : W3 m ρ c (Proc.devRef .tc main_arg2) = W2 m ρ c (Proc.devRef .tc main_arg2) := by keep_host
  have h2 : W2 m ρ c (Proc.devRef .tc main_arg2) = W1 m ρ c (Proc.devRef .tc main_arg2) := by keep_host
  have h1 : W1 m ρ c (Proc.devRef .tc main_arg2) = W0 m ρ c (Proc.devRef .tc main_arg2) := by keep_host
  rw [h3, h2, h1]

/-- The first layer's bias reaches the fourth stretch as launched. -/
theorem W3_arg3 : (W3 m ρ c (Proc.devRef .tc main_arg3) : S64.Idx → EReal) = aBp1 m c := by
  have h3 : W3 m ρ c (Proc.devRef .tc main_arg3) = W2 m ρ c (Proc.devRef .tc main_arg3) := by keep_host
  have h2 : W2 m ρ c (Proc.devRef .tc main_arg3) = W1 m ρ c (Proc.devRef .tc main_arg3) := by keep_host
  have h1 : W1 m ρ c (Proc.devRef .tc main_arg3) = W0 m ρ c (Proc.devRef .tc main_arg3) := by keep_host
  rw [h3, h2, h1]

/-- The second layer's bias reaches the fourth stretch as launched. -/
theorem W3_arg5 : (W3 m ρ c (Proc.devRef .tc main_arg5) : S1.Idx → EReal) = aBp2 m c := by
  have h3 : W3 m ρ c (Proc.devRef .tc main_arg5) = W2 m ρ c (Proc.devRef .tc main_arg5) := by keep_host
  have h2 : W2 m ρ c (Proc.devRef .tc main_arg5) = W1 m ρ c (Proc.devRef .tc main_arg5) := by keep_host
  have h1 : W1 m ρ c (Proc.devRef .tc main_arg5) = W0 m ρ c (Proc.devRef .tc main_arg5) := by keep_host
  rw [h3, h2, h1]

/-- The left half of the first layer's matrix: columns `0 … 127`. -/
theorem W4_wa (j : Fin 64) (k : Fin 128) : (W4 m ρ c (Proc.devRef .tc main_v9) : S64x128.Idx → EReal) (ix2 j k) = aWp1 m c (ix2 j ⟨k.val, by omega⟩) := by
  have h := after3_v9 (W3 m ρ c)
  show StableHlo.after hostOps0_3 (W3 m ρ c) (Proc.devRef .tc main_v9) (ix2 j k) = _
  rw [h, W3_arg2]
  exact extractStridedSlice_apply ![0, 0] _ slices_S64x256_S64x128_0_0 (ix2 j k) (ix2 j ⟨k.val, by omega⟩) (fun a => match a with
    | ⟨0, _⟩ => by show j.val = 0 + j.val; omega
    | ⟨1, _⟩ => by show k.val = 0 + k.val; omega)

/-- The right half of the first layer's matrix: columns `128 … 255`. -/
theorem W4_wb (j : Fin 64) (k : Fin 128) : (W4 m ρ c (Proc.devRef .tc main_v10) : S64x128.Idx → EReal) (ix2 j k) = aWp1 m c (ix2 j ⟨128 + k.val, by omega⟩) := by
  have h := after3_v10 (W3 m ρ c)
  show StableHlo.after hostOps0_3 (W3 m ρ c) (Proc.devRef .tc main_v10) (ix2 j k) = _
  rw [h, W3_arg2]
  exact extractStridedSlice_apply ![0, 128] _ slices_S64x256_S64x128_0_128 (ix2 j k) (ix2 j ⟨128 + k.val, by omega⟩) (fun a => match a with
    | ⟨0, _⟩ => by show j.val = 0 + j.val; omega
    | ⟨1, _⟩ => by show 128 + k.val = 128 + k.val; rfl)

/-- The first layer's bias as a row. -/
theorem W4_b1 (j : Fin 64) : (W4 m ρ c (Proc.devRef .tc main_v11) : S1x64.Idx → EReal) (ix2 0 j) = aBp1 m c (ix1 j) := by
  have h := after3_v11 (W3 m ρ c)
  show StableHlo.after hostOps0_3 (W3 m ρ c) (Proc.devRef .tc main_v11) (ix2 0 j) = _
  rw [h, W3_arg3]
  exact shapeCast_apply _ shapeCasts_S64_S1x64 (ix2 0 j) (ix1 j)
    (by rewrite [Shape.rowMajor_val_two, Shape.rowMajor_val_one]; show j.val = 0 * 64 + j.val; omega)

/-- The second layer's row is the launch argument itself. -/
theorem W4_w2 : (W4 m ρ c (Proc.devRef .tc main_arg4) : S1x64.Idx → EReal) = aWp2 m c := by
  have h4 : W4 m ρ c (Proc.devRef .tc main_arg4) = W3 m ρ c (Proc.devRef .tc main_arg4) := by keep_host
  have h3 : W3 m ρ c (Proc.devRef .tc main_arg4) = W2 m ρ c (Proc.devRef .tc main_arg4) := by keep_host
  have h2 : W2 m ρ c (Proc.devRef .tc main_arg4) = W1 m ρ c (Proc.devRef .tc main_arg4) := by keep_host
  have h1 : W1 m ρ c (Proc.devRef .tc main_arg4) = W0 m ρ c (Proc.devRef .tc main_arg4) := by keep_host
  rw [h4, h3, h2, h1]

/-- The second layer's bias as a one-by-one matrix. -/
theorem W4_b2 : (W4 m ρ c (Proc.devRef .tc main_v12) : S1x1.Idx → EReal) (ix2 0 0) = aBp2 m c (ix1 0) := by
  have h := after3_v12 (W3 m ρ c)
  show StableHlo.after hostOps0_3 (W3 m ρ c) (Proc.devRef .tc main_v12) (ix2 0 0) = _
  rw [h, W3_arg5]
  exact shapeCast_apply _ shapeCasts_S1_S1x1 (ix2 0 0) (ix1 0)
    (by rewrite [Shape.rowMajor_val_two, Shape.rowMajor_val_one]; rfl)

/-- The weight of edge `e` is row `e` of the perceptron region's output column. -/
theorem W6_ew_of_col (e : Fin 600000) : kEw m ρ c (ix1 e) = (W5 m ρ c (Proc.devRef .tc main_v13) : S606208x1.Idx → EReal) (ix2 ⟨e.val, by omega⟩ 0) := by
  have h := after1_v15 (W5 m ρ c)
  show StableHlo.after hostOps1 (W5 m ρ c) (Proc.devRef .tc main_v15) (ix1 e) = _
  rw [h]
  refine (shapeCast_apply _ shapeCasts_S600000x1_S600000 (ix1 e) (ix2 e 0)
    (by rewrite [Shape.rowMajor_val_two, Shape.rowMajor_val_one]; show e.val * 1 + 0 = e.val; omega)).trans ?_
  exact extractStridedSlice_apply ![0, 0] _ slices_S606208x1_S600000x1_0_0 (ix2 e 0) (ix2 ⟨e.val, by omega⟩ 0) (fun a => match a with
    | ⟨0, _⟩ => by show e.val = 0 + e.val; omega
    | ⟨1, _⟩ => by show 0 = 0 + 0; rfl)

end Cert.KernelIdeal.Gen

end
-- ==== Proof.LibTake.lean ====
/-
  Takes and scatter-adds along the first axis, read at indices written by coordinates; generic in the extents.

  `table[idx]` over the rows of a matrix prints as a gather whose start indices are the [n, 1] column of positions: row
  `e` of the result is the table's row at position `e`'s start index, read signed and kept inside the table. A scatter-add
  of n rows into a matrix by such a column adds row `e` of the updates into the row its index names (an index outside
  the matrix drops the row): entry `(i, c)` of the result is the operand's plus the sum of the updates' `(e, c)` over the
  positions `e` whose index is `i`. Two vectors joined end to end read the first below the seam and the second past it.

  A take that fills out-of-range positions is a chain around the gather: a negative position is wrapped by the table's
  length, the positions are kept as a column, a bit per position says whether it lies in [0, 49999] (two signed compares,
  their "and", and an "and"-reduction over the column's size-one axis), and a select keeps the gathered entry where the bit
  is 1. Each link is read at an index; at a position already inside the table the wrap keeps it, the bit is 1 and the select
  reads the gather. Broadcasts of a scalar, of a vector along the first axis and of a column across rows are read likewise.
-/
import Idealize.ShloMosaic.Lib.ValueLayout
import Idealize.ShloMosaic.Lib.StableHlo.Predicate
import Idealize.ShloMosaic.Lib.ReduceAll
import Idealize.ShloMosaic.PureOps.Ideal.Laws

noncomputable section

open scoped BigOperators

namespace Cert.LibTake

open Idealize.ShloMosaic Idealize.ShloMosaic.ValueIdx

variable {α : Type}

/-- The coordinates a row take gives result position `(e, k)`: on the taken axis the start is the index at `e` read signed and
    kept inside `[0, N − 1]` and the offset coordinate is 0; on the column axis the start is 0 and the offset coordinate is `k`. -/
theorem gather_rows_coords {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (k : Fin C) :
    d.start (ix2 e k) idx 0 = min (idx (ix2 e 0)).toInt.toNat (N - 1) ∧ d.start (ix2 e k) idx 1 = 0 ∧
    d.offCoord (ix2 e k) 0 = 0 ∧ d.offCoord (ix2 e k) 1 = k.val := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  refine ⟨?_, ?_, ?_, ?_⟩
  · unfold GatherDims.start
    rw [dif_pos (by simp)]
    show min (idx _).toInt.toNat (N - ss 0) = _
    rw [hsl]
    refine congrArg (fun z => min (idx z).toInt.toNat (N - 1)) ?_
    funext b
    match b with
    | ⟨0, _⟩ => rfl
    | ⟨1, _⟩ => rfl
  · unfold GatherDims.start
    rw [dif_neg (by simp)]
  · unfold GatherDims.offCoord
    split
    · next ha =>
      exact absurd ha (show (0 : Fin 2) ∉ (List.finRange 2).filter (· ∉ ([(0 : Fin 2)] ++ [])) by decide)
    · rfl
  · unfold GatherDims.offCoord
    split
    · rfl
    · next ha =>
      exact absurd (show (1 : Fin 2) ∈ (List.finRange 2).filter (· ∉ ([(0 : Fin 2)] ++ [])) by decide) ha

/-- Row `e`, column `k` of a row take: the table at the row position `e`'s start index names (read signed, kept inside
    `[0, N − 1]`), same column. -/
theorem gather_rows_apply {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (k : Fin C) (hN : 0 < N) :
    Host.gather d x idx (ix2 e k) = x (ix2 ⟨min (idx (ix2 e 0)).toInt.toNat (N - 1), by omega⟩ k) := by
  obtain ⟨h0, h1, h2, h3⟩ := gather_rows_coords d hoff hcoll hob hsim hivd idx e k
  have hb : ∀ a : Fin 2, a ∉ d.operandBatchingDims := fun a => by rw [hob]; exact List.not_mem_nil
  unfold Host.gather
  congr 1
  funext a
  apply Fin.ext
  match a with
  | ⟨0, _⟩ =>
    show d.start (ix2 e k) idx 0 + d.batchCoord (ix2 e k) 0 + d.offCoord (ix2 e k) 0 = min _ (N - 1)
    rw [h0, h2, d.batchCoord_eq_zero _ _ (hb 0)]; rfl
  | ⟨1, _⟩ =>
    show d.start (ix2 e k) idx 1 + d.batchCoord (ix2 e k) 1 + d.offCoord (ix2 e k) 1 = k.val
    rw [h1, h3, d.batchCoord_eq_zero _ _ (hb 1)]; omega

/-- Entry `e` of a take from a vector: the table at position `e`'s start index (read signed, kept inside `[0, N − 1]`). -/
theorem gather_vec_apply {N n w : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e 0)).toInt.toNat (N - 1), by omega⟩) := by
  have hg := StableHlo.Predicate.gather_take d hcoll hob hsim hivd x idx e hN
  have e1 : ∀ (m : ℕ) (p : Fin m), (Shape.Idx.ofFin p : (⟨1, ![m]⟩ : Shape).Idx) = ix1 p := fun m p => by
    funext q; match q with | ⟨0, _⟩ => rfl
  have e2 : StableHlo.Predicate.ixP e = ix2 e (0 : Fin 1) := by
    funext q; match q with | ⟨0, _⟩ => rfl | ⟨1, _⟩ => rfl
  rw [e1, e1] at hg
  simp only [e2] at hg
  exact hg

/-- The coordinates a row scatter gives update position `(e, c')`: on the scattered axis the start is the index at `e` read
    signed and the window coordinate is 0; on the column axis the start is 0 and the window coordinate is `c'`. -/
theorem scatter_rows_coords {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c' : Fin C) :
    d.start (ix2 e c') idx 0 = (idx (ix2 e 0)).toInt ∧ d.start (ix2 e c') idx 1 = 0 ∧
    d.window (ix2 e c') 0 = 0 ∧ d.window (ix2 e c') 1 = c'.val := by
  obtain ⟨uw, iw, sd, iv, wf⟩ := d
  dsimp only at huw hiw hsd hivd
  subst huw hiw hsd hivd
  refine ⟨?_, ?_, ?_, ?_⟩
  · unfold ScatterDims.start
    rw [dif_pos (by simp)]
    congr 2
    funext b
    match b with
    | ⟨0, _⟩ => rfl
    | ⟨1, _⟩ => rfl
  · unfold ScatterDims.start
    rw [dif_neg (by simp)]
  · unfold ScatterDims.window
    split
    · next ha => exact absurd ha (show (0 : Fin 2) ∉ (List.finRange 2).filter (· ∉ [(0 : Fin 2)]) by decide)
    · rfl
  · unfold ScatterDims.window
    split
    · rfl
    · next ha => exact absurd (show (1 : Fin 2) ∈ (List.finRange 2).filter (· ∉ [(0 : Fin 2)]) by decide) ha

/-- Entry `(i, c)` of a scatter-add of rows: the operand's entry plus the updates' `(e, c)` over the positions `e`
    whose index, read signed, is `i`. -/
theorem scatterAdd_rows_apply {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (c : Fin C) :
    Ideal.hostScatterAdd d x idx upd (ix2 i c)
      = x (ix2 i c) + ∑ e ∈ Finset.univ.filter (fun e : Fin n => (idx (ix2 e 0)).toInt = (i.val : ℤ)), upd (ix2 e c) := by
  -- update position (e, c') lands on (i, c) exactly when the index at e is i and c' = c
  have hres : ∀ (e : Fin n) (c' : Fin C), d.resultIdx? (ix2 e c') idx = some (ix2 i c) ↔
      ((idx (ix2 e 0)).toInt = (i.val : ℤ) ∧ c' = c) := by
    intro e c'
    obtain ⟨h0, h1, h2, h3⟩ := scatter_rows_coords d huw hiw hsd hivd idx e c'
    have hi := i.isLt
    have hc := c.isLt
    have hc' := c'.isLt
    unfold ScatterDims.resultIdx?
    split
    · next hh =>
      rw [Option.some.injEq]
      constructor
      · intro heq
        have e0 : (d.start (ix2 e c') idx 0 + (d.window (ix2 e c') 0 : ℕ)).toNat = i.val :=
          congrArg (fun f : (⟨2, ![N, C]⟩ : Shape).Idx => (f 0).val) heq
        have e1 : (d.start (ix2 e c') idx 1 + (d.window (ix2 e c') 1 : ℕ)).toNat = c.val :=
          congrArg (fun f : (⟨2, ![N, C]⟩ : Shape).Idx => (f 1).val) heq
        have p0 := (hh 0).1
        rw [h0, h2] at e0 p0
        rw [h1, h3] at e1
        refine ⟨by omega, Fin.ext (by omega)⟩
      · rintro ⟨hA, rfl⟩
        funext a
        match a with
        | ⟨0, _⟩ =>
          apply Fin.ext
          show (d.start (ix2 e c') idx 0 + (d.window (ix2 e c') 0 : ℕ)).toNat = i.val
          rw [h0, h2]; omega
        | ⟨1, _⟩ =>
          apply Fin.ext
          show (d.start (ix2 e c') idx 1 + (d.window (ix2 e c') 1 : ℕ)).toNat = c'.val
          rw [h1, h3]; omega
    · next hh =>
      constructor
      · intro hn; exact absurd hn (by simp)
      · rintro ⟨hA, rfl⟩
        exfalso
        apply hh
        intro a
        match a with
        | ⟨0, _⟩ =>
          show 0 ≤ d.start (ix2 e c') idx 0 + (d.window (ix2 e c') 0 : ℕ) ∧
            d.start (ix2 e c') idx 0 + (d.window (ix2 e c') 0 : ℕ) < (N : ℤ)
          rw [h0, h2]; omega
        | ⟨1, _⟩ =>
          show 0 ≤ d.start (ix2 e c') idx 1 + (d.window (ix2 e c') 1 : ℕ) ∧
            d.start (ix2 e c') idx 1 + (d.window (ix2 e c') 1 : ℕ) < (C : ℤ)
          rw [h1, h3]; omega
  -- the sum over the landing update positions, split by coordinates, keeps column c of the rows whose index is i
  unfold Ideal.hostScatterAdd
  congr 1
  rw [Finset.sum_filter, sum_idx2, Finset.sum_filter]
  refine Finset.sum_congr rfl fun e _ => ?_
  rw [Finset.sum_congr rfl fun c' _ => if_congr (hres e c') rfl rfl]
  by_cases hA : (idx (ix2 e 0)).toInt = (i.val : ℤ)
  · simp [hA]
  · simp [hA]

/-- Two vectors joined end to end, read at `j`: the first below the seam, the second past it. -/
theorem concat_vec_apply {a b t : ℕ} (u : (⟨1, ![a]⟩ : Shape).Idx → α) (v : (⟨1, ![b]⟩ : Shape).Idx → α)
    (h : Shape.Concatenates [(⟨1, ![a]⟩ : Shape), ⟨1, ![b]⟩] ⟨1, ![t]⟩ 0) (ht : a + b = t) (j : Fin t) :
    concatenate ⟨1, ![t]⟩ 0 [⟨⟨1, ![a]⟩, u⟩, ⟨⟨1, ![b]⟩, v⟩] h (ix1 j)
      = if hj : j.val < a then u (ix1 ⟨j.val, hj⟩) else v (ix1 ⟨j.val - a, by omega⟩) := by
  split
  · next hj =>
    exact concatenate_pair_apply_left (t := ⟨1, ![t]⟩) (s₁ := ⟨1, ![a]⟩) (s₂ := ⟨1, ![b]⟩) (0 : Fin 1) u v h (ix1 j) rfl
      (ix1 ⟨j.val, hj⟩) (fun q => by match q with | ⟨0, _⟩ => rfl)
  · next hj =>
    exact concatenate_pair_apply_right (t := ⟨1, ![t]⟩) (s₁ := ⟨1, ![a]⟩) (s₂ := ⟨1, ![b]⟩) (0 : Fin 1) u v h (ix1 j) rfl rfl
      (ix1 ⟨j.val - a, by omega⟩) (fun q hq => by match q with | ⟨0, _⟩ => exact absurd rfl hq)
      (by show j.val - a + a = j.val; omega)

/-- Two matrices joined side by side, read at `(e, j)`: the first left of the seam, the second right of it. -/
theorem concat_cols_apply {n a b t : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, t]⟩ 1) (ht : a + b = t) (e : Fin n) (j : Fin t) :
    concatenate ⟨2, ![n, t]⟩ 1 [⟨⟨2, ![n, a]⟩, u⟩, ⟨⟨2, ![n, b]⟩, v⟩] h (ix2 e j)
      = if hj : j.val < a then u (ix2 e ⟨j.val, hj⟩) else v (ix2 e ⟨j.val - a, by omega⟩) := by
  split
  · next hj =>
    exact concatenate_pair_apply_left (t := ⟨2, ![n, t]⟩) (s₁ := ⟨2, ![n, a]⟩) (s₂ := ⟨2, ![n, b]⟩) (1 : Fin 2) u v h (ix2 e j) rfl
      (ix2 e ⟨j.val, hj⟩) (fun q => by match q with | ⟨0, _⟩ => rfl | ⟨1, _⟩ => rfl)
  · next hj =>
    exact concatenate_pair_apply_right (t := ⟨2, ![n, t]⟩) (s₁ := ⟨2, ![n, a]⟩) (s₂ := ⟨2, ![n, b]⟩) (1 : Fin 2) u v h (ix2 e j) rfl rfl
      (ix2 e ⟨j.val - a, by omega⟩)
      (fun q hq => by match q with | ⟨0, _⟩ => rfl | ⟨1, _⟩ => exact absurd rfl hq)
      (by show j.val - a + a = j.val; omega)

/-! ## The links of a filled take, read at an index -/

/-- A scalar laid over any shape reads the scalar everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  simp only [broadcastInDim]
  congr 1
  funext a
  exact Fin.elim0 a

/-- A vector [n] laid along the first axis of [n, C] reads, at (e, k), the vector at e. -/
theorem bcast_vec_rows {n C : ℕ} (v : (⟨1, ![n]⟩ : Shape).Idx → α)
    (h : (⟨1, ![n]⟩ : Shape).BroadcastsInDim ⟨2, ![n, C]⟩ ![0]) (e : Fin n) (k : Fin C) :
    broadcastInDim ⟨2, ![n, C]⟩ ![0] h v (ix2 e k) = v (ix1 e) := by
  simp only [broadcastInDim]
  congr 1
  funext a
  match a with
  | ⟨0, _⟩ =>
    apply Fin.ext
    split
    · next h1 => change n = 1 at h1; show (0 : ℕ) = e.val; have := e.isLt; omega
    · rfl

/-- A vector [n] kept as a column [n, 1] reads, at (e, 0), the vector at e. -/
theorem bcast_vec_col {n : ℕ} (v : (⟨1, ![n]⟩ : Shape).Idx → α)
    (h : (⟨1, ![n]⟩ : Shape).BroadcastsInDim ⟨2, ![n, 1]⟩ ![0]) (e : Fin n) :
    broadcastInDim ⟨2, ![n, 1]⟩ ![0] h v (ix2 e 0) = v (ix1 e) :=
  bcast_vec_rows v h e 0

/-- A column [n, 1] laid across [n, C] reads, at (e, k), the column at e. -/
theorem bcast_col_rows {n C : ℕ} (v : (⟨2, ![n, 1]⟩ : Shape).Idx → α)
    (h : (⟨2, ![n, 1]⟩ : Shape).BroadcastsInDim ⟨2, ![n, C]⟩ ![0, 1]) (e : Fin n) (k : Fin C) :
    broadcastInDim ⟨2, ![n, C]⟩ ![0, 1] h v (ix2 e k) = v (ix2 e 0) := by
  simp only [broadcastInDim]
  congr 1
  funext a
  match a with
  | ⟨0, _⟩ =>
    apply Fin.ext
    split
    · next h1 => change n = 1 at h1; show (0 : ℕ) = e.val; have := e.isLt; omega
    · rfl
  | ⟨1, _⟩ =>
    apply Fin.ext
    split
    · rfl
    · next h1 => exact absurd rfl h1

theorem toInt_zero32 : (0#32 : BitVec 32).toInt = 0 := by decide
theorem toInt_49999 : (49999#32 : BitVec 32).toInt = 49999 := by decide

/-- A negative position wraps by the table's length; a non-negative one is kept. -/
theorem take_wrap_apply {n : ℕ} (idx : IVec ⟨1, ![n]⟩ 32) (h0 : (⟨0, ![]⟩ : Shape).BroadcastsInDim ⟨1, ![n]⟩ ![]) (e : Fin n)
    (hlo : 0 ≤ (idx (ix1 e)).toInt) :
    select (cmpi .slt idx (broadcastInDim ⟨1, ![n]⟩ ![] h0 (constantI ⟨0, ![]⟩ 32 0#32)))
      (addi idx (broadcastInDim ⟨1, ![n]⟩ ![] h0 (constantI ⟨0, ![]⟩ 32 50000#32))) idx (ix1 e) = idx (ix1 e) := by
  show Scalar.select (IntOp.cmpi .slt (idx (ix1 e)) 0#32) (IntOp.addi (idx (ix1 e)) 50000#32) (idx (ix1 e)) = idx (ix1 e)
  have hc : IntOp.cmpi .slt (idx (ix1 e)) 0#32 = 0#1 := eq_zero_of_ne_one fun h => by
    have := IntOp.cmpi_slt.1 h
    rw [toInt_zero32] at this
    omega
  rw [hc, select_zero]

/-- A reduction by "and" of a column [n, 1] over its size-one axis reads, at e, the column's entry at e and the initial bit. -/
theorem reduce_andi_col {n : ℕ} (p : IVec ⟨2, ![n, 1]⟩ 1) (init : (⟨0, ![]⟩ : Shape).Idx → BitVec 1)
    (hred : (⟨2, ![n, 1]⟩ : Shape).ReducesTo [1] ⟨1, ![n]⟩) (hS : 0 < (⟨0, ![]⟩ : Shape).numel) (e : Fin n) :
    Host.reduce IntOp.andi p init hred hS (ix1 e) = IntOp.andi (p (ix2 e 0)) (init (Shape.Idx.first hS)) := by
  rw [Host.reduce_eq_fold]
  have hset : (Finset.univ.filter fun i : (⟨2, ![n, 1]⟩ : Shape).Idx => hred.drop i = ix1 e) = {ix2 e 0} := by
    ext i
    simp only [Finset.mem_filter, Finset.mem_univ, true_and, Finset.mem_singleton]
    constructor
    · intro hi
      have h0 : i 0 = e := by
        have := congrArg (fun f : (⟨1, ![n]⟩ : Shape).Idx => (f 0).val) hi
        exact Fin.ext this
      have h1 : i 1 = (0 : Fin 1) := Fin.ext (Nat.lt_one_iff.1 (i 1).isLt)
      funext b
      match b with
      | ⟨0, _⟩ => exact h0
      | ⟨1, _⟩ => exact h1
    · rintro rfl
      funext b
      match b with
      | ⟨0, _⟩ => apply Fin.ext; rfl
  rw [hset, Finset.fold_singleton]

/-- The in-range mask of a take: at a position whose index is in [0, 49999] it is 1. -/
theorem take_mask_apply {n : ℕ} (col : IVec ⟨2, ![n, 1]⟩ 32) (hz : (⟨0, ![]⟩ : Shape).BroadcastsInDim ⟨2, ![n, 1]⟩ ![])
    (hb1 : (⟨1, ![1]⟩ : Shape).BroadcastsInDim ⟨2, ![1, 1]⟩ ![1])
    (hb2 : (⟨2, ![1, 1]⟩ : Shape).BroadcastsInDim ⟨2, ![n, 1]⟩ ![0, 1])
    (hred : (⟨2, ![n, 1]⟩ : Shape).ReducesTo [1] ⟨1, ![n]⟩) (hS : 0 < (⟨0, ![]⟩ : Shape).numel) (e : Fin n)
    (hlo : 0 ≤ (col (ix2 e 0)).toInt) (hhi : (col (ix2 e 0)).toInt ≤ 49999) :
    Host.reduce IntOp.andi
      (andi (cmpi .sge col (broadcastInDim ⟨2, ![n, 1]⟩ ![] hz (constantI ⟨0, ![]⟩ 32 0#32)))
        (cmpi .sle col (broadcastInDim ⟨2, ![n, 1]⟩ ![0, 1] hb2
          (broadcastInDim ⟨2, ![1, 1]⟩ ![1] hb1 (constantI ⟨1, ![1]⟩ 32 49999#32)))))
      (constantI ⟨0, ![]⟩ 1 1#1) hred hS (ix1 e) = 1#1 := by
  rw [reduce_andi_col]
  have h1 : IntOp.cmpi .sge (col (ix2 e 0)) 0#32 = 1#1 := IntOp.cmpi_sge.2 (by rw [toInt_zero32]; exact hlo)
  have h2 : IntOp.cmpi .sle (col (ix2 e 0)) 49999#32 = 1#1 := IntOp.cmpi_sle.2 (by rw [toInt_49999]; exact hhi)
  show IntOp.andi (IntOp.andi (IntOp.cmpi .sge (col (ix2 e 0)) 0#32) (IntOp.cmpi .sle (col (ix2 e 0)) 49999#32)) 1#1 = 1#1
  rw [h1, h2]
  rfl

/-- Where the row mask is 1 the filled take of rows reads the gathered row. -/
theorem take_fill_rows_apply {n C : ℕ} (mask : IVec ⟨1, ![n]⟩ 1)
    (h : (⟨1, ![n]⟩ : Shape).BroadcastsInDim ⟨2, ![n, C]⟩ ![0]) (g fill : (⟨2, ![n, C]⟩ : Shape).Idx → α)
    (e : Fin n) (k : Fin C) (hm : mask (ix1 e) = 1#1) :
    select (broadcastInDim ⟨2, ![n, C]⟩ ![0] h mask) g fill (ix2 e k) = g (ix2 e k) := by
  rw [select_apply, bcast_vec_rows, hm, select_one]

/-- Where the mask is 1 the filled take of a vector reads the gathered entry. -/
theorem take_fill_vec_apply {n : ℕ} (mask : IVec ⟨1, ![n]⟩ 1) (g fill : (⟨1, ![n]⟩ : Shape).Idx → α)
    (e : Fin n) (hm : mask (ix1 e) = 1#1) : select mask g fill (ix1 e) = g (ix1 e) := by
  rw [select_apply, hm, select_one]

/-! ## The whole filled take at a position inside the table -/

/-- The positions of a filled take as the gather reads them: a negative one wrapped by 50000, kept as a column. -/
abbrev takeCol {n : ℕ} (idx : IVec ⟨1, ![n]⟩ 32) (h0 : (⟨0, ![]⟩ : Shape).BroadcastsInDim ⟨1, ![n]⟩ ![])
    (hc : (⟨1, ![n]⟩ : Shape).BroadcastsInDim ⟨2, ![n, 1]⟩ ![0]) : IVec ⟨2, ![n, 1]⟩ 32 :=
  broadcastInDim ⟨2, ![n, 1]⟩ ![0] hc
    (select (cmpi .slt idx (broadcastInDim ⟨1, ![n]⟩ ![] h0 (constantI ⟨0, ![]⟩ 32 0#32)))
      (addi idx (broadcastInDim ⟨1, ![n]⟩ ![] h0 (constantI ⟨0, ![]⟩ 32 50000#32))) idx)

/-- The bit per position of a filled take: whether the column's entry lies in [0, 49999]. -/
abbrev takeMask {n : ℕ} (col : IVec ⟨2, ![n, 1]⟩ 32) (hz : (⟨0, ![]⟩ : Shape).BroadcastsInDim ⟨2, ![n, 1]⟩ ![])
    (hb1 : (⟨1, ![1]⟩ : Shape).BroadcastsInDim ⟨2, ![1, 1]⟩ ![1])
    (hb2 : (⟨2, ![1, 1]⟩ : Shape).BroadcastsInDim ⟨2, ![n, 1]⟩ ![0, 1])
    (hred : (⟨2, ![n, 1]⟩ : Shape).ReducesTo [1] ⟨1, ![n]⟩) (hS : 0 < (⟨0, ![]⟩ : Shape).numel) : IVec ⟨1, ![n]⟩ 1 :=
  Host.reduce IntOp.andi
    (andi (cmpi .sge col (broadcastInDim ⟨2, ![n, 1]⟩ ![] hz (constantI ⟨0, ![]⟩ 32 0#32)))
      (cmpi .sle col (broadcastInDim ⟨2, ![n, 1]⟩ ![0, 1] hb2
        (broadcastInDim ⟨2, ![1, 1]⟩ ![1] hb1 (constantI ⟨1, ![1]⟩ 32 49999#32)))))
    (constantI ⟨0, ![]⟩ 1 1#1) hred hS

/-- At a position inside the table the column of positions reads the position itself. -/
theorem takeCol_apply {n : ℕ} (idx : IVec ⟨1, ![n]⟩ 32) (h0 : (⟨0, ![]⟩ : Shape).BroadcastsInDim ⟨1, ![n]⟩ ![])
    (hc : (⟨1, ![n]⟩ : Shape).BroadcastsInDim ⟨2, ![n, 1]⟩ ![0]) (e : Fin n) (hlo : 0 ≤ (idx (ix1 e)).toInt) :
    takeCol idx h0 hc (ix2 e 0) = idx (ix1 e) :=
  (bcast_vec_col _ hc e).trans (take_wrap_apply idx h0 e hlo)

/-- A filled take of rows from a table of 50000 rows, at a position inside the table, reads the table's row there. -/
theorem take_rows_apply {n C : ℕ} (x : (⟨2, ![50000, C]⟩ : Shape).Idx → α) (idx : IVec ⟨1, ![n]⟩ 32)
    (d : GatherDims ⟨2, ![50000, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![n, 1]⟩ ![])
    (hb1 : (⟨1, ![1]⟩ : Shape).BroadcastsInDim ⟨2, ![1, 1]⟩ ![1])
    (hb2 : (⟨2, ![1, 1]⟩ : Shape).BroadcastsInDim ⟨2, ![n, 1]⟩ ![0, 1])
    (hred : (⟨2, ![n, 1]⟩ : Shape).ReducesTo [1] ⟨1, ![n]⟩) (hS : 0 < (⟨0, ![]⟩ : Shape).numel)
    (hm : (⟨1, ![n]⟩ : Shape).BroadcastsInDim ⟨2, ![n, C]⟩ ![0])
    (fill : (⟨2, ![n, C]⟩ : Shape).Idx → α) (e : Fin n) (k : Fin C)
    (hlo : 0 ≤ (idx (ix1 e)).toInt) (hhi : (idx (ix1 e)).toInt < 50000) :
    select (broadcastInDim ⟨2, ![n, C]⟩ ![0] hm (takeMask (takeCol idx h0 hc) hz hb1 hb2 hred hS))
        (Host.gather d x (takeCol idx h0 hc)) fill (ix2 e k)
      = x (ix2 ⟨(idx (ix1 e)).toInt.toNat, by omega⟩ k) := by
  have hcol := takeCol_apply idx h0 hc e hlo
  have hmask : takeMask (takeCol idx h0 hc) hz hb1 hb2 hred hS (ix1 e) = 1#1 :=
    take_mask_apply _ hz hb1 hb2 hred hS e (by rw [hcol]; exact hlo) (by rw [hcol]; omega)
  rw [take_fill_rows_apply _ hm _ _ e k hmask, gather_rows_apply d hoff hcoll hob hsim hivd x _ e k (by decide)]
  congr 1
  funext b
  match b with
  | ⟨0, _⟩ =>
    apply Fin.ext
    show min (takeCol idx h0 hc (ix2 e 0)).toInt.toNat (50000 - 1) = (idx (ix1 e)).toInt.toNat
    rw [hcol]; omega
  | ⟨1, _⟩ => rfl

/-- A filled take of entries from a vector of 50000, at a position inside the vector, reads the vector there. -/
theorem take_vec_apply {n : ℕ} (x : (⟨1, ![50000]⟩ : Shape).Idx → α) (idx : IVec ⟨1, ![n]⟩ 32)
    (d : GatherDims ⟨1, ![50000]⟩ ⟨2, ![n, 1]⟩ ⟨1, ![n]⟩)
    (hcoll : d.collapsedSliceDims = [0]) (hob : d.operandBatchingDims = [])
    (hsim : d.startIndexMap = [0]) (hivd : d.indexVectorDim = 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![n, 1]⟩ ![])
    (hb1 : (⟨1, ![1]⟩ : Shape).BroadcastsInDim ⟨2, ![1, 1]⟩ ![1])
    (hb2 : (⟨2, ![1, 1]⟩ : Shape).BroadcastsInDim ⟨2, ![n, 1]⟩ ![0, 1])
    (hred : (⟨2, ![n, 1]⟩ : Shape).ReducesTo [1] ⟨1, ![n]⟩) (hS : 0 < (⟨0, ![]⟩ : Shape).numel)
    (fill : (⟨1, ![n]⟩ : Shape).Idx → α) (e : Fin n)
    (hlo : 0 ≤ (idx (ix1 e)).toInt) (hhi : (idx (ix1 e)).toInt < 50000) :
    select (takeMask (takeCol idx h0 hc) hz hb1 hb2 hred hS) (Host.gather d x (takeCol idx h0 hc)) fill (ix1 e)
      = x (ix1 ⟨(idx (ix1 e)).toInt.toNat, by omega⟩) := by
  have hcol := takeCol_apply idx h0 hc e hlo
  have hmask : takeMask (takeCol idx h0 hc) hz hb1 hb2 hred hS (ix1 e) = 1#1 :=
    take_mask_apply _ hz hb1 hb2 hred hS e (by rw [hcol]; exact hlo) (by rw [hcol]; omega)
  rw [take_fill_vec_apply _ _ _ e hmask, gather_vec_apply d hcoll hob hsim hivd x _ e (by decide)]
  congr 1
  funext b
  match b with
  | ⟨0, _⟩ =>
    apply Fin.ext
    show min (takeCol idx h0 hc (ix2 e 0)).toInt.toNat (50000 - 1) = (idx (ix1 e)).toInt.toNat
    rw [hcol]; omega

end Cert.LibTake

end
-- ==== Proof.KernelEdge.lean ====
/- The edge weights the idealized kernel program computes, edge by edge: the two gathers of end-point rows (under the
   range condition every index is inside the table, so the gather's fill never shows), the halves of the weight matrix,
   the perceptron region's rows, and the cut back to the 600000 real edges.

   A take of rows with fill wraps a negative position by the table's length, gathers the row the position names (read
   signed and kept inside the table), and keeps the gathered row where 0 ≤ position ≤ 49999, the fill word elsewhere.
   The positions here are a row of the edge table followed by zeros: under the range condition every one of them lies in
   [0, 50000), so the wrap does nothing, the mask is one everywhere, and row e of the take is the feature row of the node
   the position names. The perceptron's row at those two gathered rows, with the weight matrix split in its left and
   right halves, is the edge weight term by term. -/
import proofs.«404812_j66486093742317_1_alg».proof.Proof.KernelKeep
import proofs.«404812_j66486093742317_1_alg».proof.Proof.Region0Value
import proofs.«404812_j66486093742317_1_alg».proof.Proof.KernelWeights
import proofs.«404812_j66486093742317_1_alg».proof.Proof.LibTake
import Idealize.ShloMosaic.Lib.StableHlo.Run
import Idealize.ShloMosaic.Lib.ReduceAll

noncomputable section

open scoped BigOperators

namespace Cert.EdgeGen

open Idealize.ShloMosaic Idealize.ShloMosaic.ValueIdx

variable {α : Type}

/-- A reduction by "and" over words that are all one, started at one, is one. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  have key : ∀ (l : List s.Idx) (a : BitVec 1), a = 1#1 → l.foldl (fun r i => IntOp.andi r (x i)) a = 1#1 := by
    intro l
    induction l with
    | nil => intro a ha; exact ha
    | cons i l ih => intro a ha; exact ih _ (IntOp.andi_eq_one.2 ⟨ha, hx i⟩)
  exact key _ _ hinit

/-- A vector laid along the first axis of an [n, b] rectangle reads, at (e, k), the vector at e. -/
theorem bcast_axis0 {n b : ℕ} (h : (⟨1, ![n]⟩ : Shape).BroadcastsInDim ⟨2, ![n, b]⟩ ![0])
    (v : (⟨1, ![n]⟩ : Shape).Idx → α) (e : Fin n) (k : Fin b) :
    broadcastInDim ⟨2, ![n, b]⟩ ![0] h v (ix2 e k) = v (ix1 e) := by
  refine broadcastInDim_apply ![0] h v (ix2 e k) (ix1 e) fun a => ?_
  match a with
  | ⟨0, _⟩ =>
    show e.val = if n = 1 then 0 else e.val
    split
    · have := e.isLt; omega
    · rfl

/-- The perceptron's row at gathered end-point features and split weights is the edge weight. -/
theorem mlpRow_eq_edgeW (xs xd : Gcn.A2 606208 128) (wa wb : Gcn.A2 64 128) (b1 w2 : Gcn.A2 1 64) (b2 : Gcn.A2 1 1)
    (x : Gcn.A2 50000 128) (Wp1 : Gcn.A2 64 256) (bp1 : Gcn.A1 64) (Wp2 : Gcn.A2 1 64) (bp2 : Gcn.A1 1)
    (e : Fin 606208) (s d : Fin 50000)
    (hxs : ∀ k, xs (ix2 e k) = x (ix2 s k)) (hxd : ∀ k, xd (ix2 e k) = x (ix2 d k))
    (hwa : ∀ (j : Fin 64) (k : Fin 128), wa (ix2 j k) = Wp1 (ix2 j ⟨k.val, by omega⟩))
    (hwb : ∀ (j : Fin 64) (k : Fin 128), wb (ix2 j k) = Wp1 (ix2 j ⟨128 + k.val, by omega⟩))
    (hb1 : ∀ j, b1 (ix2 0 j) = bp1 (ix1 j)) (hw2 : w2 = Wp2) (hb2 : b2 (ix2 0 0) = bp2 (ix1 0)) :
    Gcn.mlpRow xs xd wa wb b1 w2 b2 e = Gcn.edgeW x Wp1 bp1 Wp2 bp2 s d := by
  subst hw2
  unfold Gcn.mlpRow Gcn.edgeW Gcn.hid
  simp only [hxs, hxd, hwa, hwb, hb1, hb2]

end Cert.EdgeGen

namespace Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)

/-- The start-index column of a take: a negative position wrapped by the table's length, as a column. -/
def takeCol (v : IVec S606208 32) : IVec S606208x1 32 :=
  broadcastInDim S606208x1 ![0] bcast_S606208_S606208x1_0
    (select (cmpi .slt v (broadcastInDim S606208 ![] bcast_S_S606208 (constantI S_ 32 0#32)))
      (addi v (broadcastInDim S606208 ![] bcast_S_S606208 (constantI S_ 32 50000#32))) v)

/-- Whether each position lies inside the table. -/
def takeMask (v : IVec S606208 32) : IVec S606208 1 :=
  Host.reduce IntOp.andi
    (andi (cmpi .sge (takeCol v) (broadcastInDim S606208x1 ![] bcast_S_S606208x1 (constantI S_ 32 0#32)))
      (cmpi .sle (takeCol v) (broadcastInDim S606208x1 ![0, 1] bcast_S1x1_S606208x1_0_1
        (broadcastInDim S1x1 ![1] bcast_S1_S1x1_1 (constantI S1 32 49999#32)))))
    (constantI S_ 1 1#1) reducesTo_S606208x1_S606208_d1 h_S_

/-- A take of rows with fill: the gathered rows where the position lies inside the table, the fill word elsewhere. -/
def takeFill (x : S50000x128.Idx → EReal) (v : IVec S606208 32) : S606208x128.Idx → EReal :=
  select (broadcastInDim S606208x128 ![0] bcast_S606208_S606208x128_0 (takeMask v))
    (Host.gather gather_S50000x128_S606208x1_S606208x128_1_0_n_n_0_1_1128 x (takeCol v))
    (broadcastInDim S606208x128 ![] bcast_S_S606208x128 (constant (F := Ideal) S_ .f32 0x7FC00000#32))

theorem takeCol_apply (v : IVec S606208 32) (hv : ∀ j, 0 ≤ (v j).toInt ∧ (v j).toInt < 50000) (e : Fin 606208) (u : Fin 1) :
    takeCol v (ix2 e u) = v (ix1 e) := by
  unfold takeCol
  rw [EdgeGen.bcast_axis0, select_apply]
  have z : (0#32 : BitVec 32).toInt = 0 := by decide
  have h0 : ¬ IntOp.cmpi .slt (v (ix1 e)) 0#32 = 1#1 := by
    rw [IntOp.cmpi_slt, z]; have := (hv (ix1 e)).1; omega
  show Scalar.select (IntOp.cmpi .slt (v (ix1 e)) 0#32) _ _ = _
  rw [eq_zero_of_ne_one h0, select_zero]

theorem takeMask_apply (v : IVec S606208 32) (hv : ∀ j, 0 ≤ (v j).toInt ∧ (v j).toInt < 50000) (j : S606208.Idx) :
    takeMask v j = 1#1 := by
  unfold takeMask
  refine EdgeGen.reduce_andi_of_all _ _ _ _ _ rfl fun i => ?_
  obtain ⟨p, q, rfl⟩ : ∃ (p : Fin 606208) (q : Fin 1), i = ix2 p q := ⟨i 0, i 1, eq_ix2 i⟩
  show IntOp.andi (IntOp.cmpi .sge (takeCol v (ix2 p q)) 0#32) (IntOp.cmpi .sle (takeCol v (ix2 p q)) 49999#32) = 1#1
  have z : (0#32 : BitVec 32).toInt = 0 := by decide
  have z2 : (49999#32 : BitVec 32).toInt = 49999 := by decide
  rw [takeCol_apply v hv, IntOp.andi_eq_one, IntOp.cmpi_sge, IntOp.cmpi_sle, z, z2]
  have := hv (ix1 p)
  constructor <;> omega

theorem takeFill_apply (x : S50000x128.Idx → EReal) (v : IVec S606208 32)
    (hv : ∀ j, 0 ≤ (v j).toInt ∧ (v j).toInt < 50000) (e : Fin 606208) (k : Fin 128) :
    takeFill x v (ix2 e k) = x (ix2 (Gcn.node (v (ix1 e))) k) := by
  unfold takeFill
  rw [select_apply, EdgeGen.bcast_axis0, takeMask_apply v hv, select_one,
    LibTake.gather_rows_apply _ rfl rfl rfl rfl rfl x _ e k (by decide)]
  have hc := takeCol_apply v hv e 0
  refine congrArg (fun i => x (ix2 i k)) (Fin.ext ?_)
  show min (takeCol v (ix2 e 0)).toInt.toNat (50000 - 1) = min (v (ix1 e)).toInt.toNat 49999
  rw [hc]

/-- Row `o` of the edge table as a vector, followed by 6208 zeros. -/
def padRow (ei : IVec S2x600000 32) (o : ℕ) (h : S2x600000.Slices ![o, 0] S1x600000) : IVec S606208 32 :=
  concatenate S606208 0
    [⟨S600000, shapeCast S600000 (extractStridedSlice S1x600000 ![o, 0] ei h) shapeCasts_S1x600000_S600000⟩,
     ⟨S6208, broadcastInDim S6208 ![] bcast_S_S6208 (constantI S_ 32 0#32)⟩] concatenates_S600000_S6208_S606208_d0

/-- A padded row read at j: the table's row below 600000, zero past it. -/
theorem padRow_apply (ei : IVec S2x600000 32) (o : ℕ) (h : S2x600000.Slices ![o, 0] S1x600000) (r : Fin 2) (hro : r.val = o)
    (j : Fin 606208) :
    padRow ei o h (ix1 j) = if hj : j.val < 600000 then ei (ix2 r ⟨j.val, hj⟩) else 0#32 := by
  unfold padRow
  rw [LibTake.concat_vec_apply _ _ _ (by decide) j]
  split
  · rw [shapeCast_1a_a_apply]
    exact slice2_axis0_apply o ei h (0 : Fin 1) _ r (by simp [hro])
  · rfl

/-- Under the range condition every entry of a padded row names a node. -/
theorem padRow_range (ei : IVec S2x600000 32) (hr : Gcn.InRange ei) (o : ℕ) (h : S2x600000.Slices ![o, 0] S1x600000) (r : Fin 2)
    (hro : r.val = o) (j : S606208.Idx) : 0 ≤ (padRow ei o h j).toInt ∧ (padRow ei o h j).toInt < 50000 := by
  obtain ⟨p, rfl⟩ : ∃ p : Fin 606208, j = ix1 p := ⟨j 0, eq_ix1 j⟩
  rw [padRow_apply ei o h r hro]
  split
  · exact hr _
  · decide

variable (m : (ℓ : Loc nD τ sig) → Buf (Elt Ideal) ℓ) (ρ : Dev nD → PrngReg) (c : Dev nD)

/-- Contents sent to a buffer's own type and back are the contents. -/
theorem ofBuf_toBuf {T : BufTy} (x : StableHlo.TRef sig T) (v : T.Contents (Elt Ideal)) : x.ofBuf (x.toBuf v) = v := by
  obtain ⟨r, rfl, h1, h2⟩ := x
  rfl

/-- Reading the buffers of the two takes at their printed types changes nothing. -/
theorem cast_arg0 (u : (Proc.devRef (τ := τ) .tc main_arg0).ty.Contents (Elt Ideal)) :
    (StableHlo.TRef.of main_arg0 : StableHlo.TRef sig ⟨S50000x128, .f32⟩).ofBuf u = u := rfl
theorem cast_v5 (u : (Proc.devRef (τ := τ) .tc main_v5).ty.Contents (Elt Ideal)) :
    (StableHlo.TRef.of main_v5 : StableHlo.TRef sig ⟨S606208, .i32⟩).ofBuf u = u := rfl
theorem cast_v6 (u : (Proc.devRef (τ := τ) .tc main_v6).ty.Contents (Elt Ideal)) :
    (StableHlo.TRef.of main_v6 : StableHlo.TRef sig ⟨S606208, .i32⟩).ofBuf u = u := rfl
theorem cast_v7 (u : (Proc.devRef (τ := τ) .tc main_v7).ty.Contents (Elt Ideal)) :
    (StableHlo.TRef.of main_v7 : StableHlo.TRef sig ⟨S606208x128, .f32⟩).ofBuf u = u := rfl
theorem cast_v8 (u : (Proc.devRef (τ := τ) .tc main_v8).ty.Contents (Elt Ideal)) :
    (StableHlo.TRef.of main_v8 : StableHlo.TRef sig ⟨S606208x128, .f32⟩).ofBuf u = u := rfl

/-- What the take call on the source column leaves in its result, every buffer read at its printed type. -/
theorem after_take_src_cast (V : Valuation τ sig (Elt Ideal)) :
    (StableHlo.TRef.of main_v7 : StableHlo.TRef sig ⟨S606208x128, .f32⟩).ofBuf (StableHlo.after hostOps0_1 V (Proc.devRef .tc main_v7))
      = takeFill ((StableHlo.TRef.of main_arg0 : StableHlo.TRef sig ⟨S50000x128, .f32⟩).ofBuf (V (Proc.devRef .tc main_arg0)))
          ((StableHlo.TRef.of main_v5 : StableHlo.TRef sig ⟨S606208, .i32⟩).ofBuf (V (Proc.devRef .tc main_v5))) := by
  after_results_simp
  simp only [ofBuf_toBuf]
  unfold takeFill takeMask takeCol
  rfl

/-- The same for the take call on the target column. -/
theorem after_take_dst_cast (V : Valuation τ sig (Elt Ideal)) :
    (StableHlo.TRef.of main_v8 : StableHlo.TRef sig ⟨S606208x128, .f32⟩).ofBuf (StableHlo.after hostOps0_2 V (Proc.devRef .tc main_v8))
      = takeFill ((StableHlo.TRef.of main_arg0 : StableHlo.TRef sig ⟨S50000x128, .f32⟩).ofBuf (V (Proc.devRef .tc main_arg0)))
          ((StableHlo.TRef.of main_v6 : StableHlo.TRef sig ⟨S606208, .i32⟩).ofBuf (V (Proc.devRef .tc main_v6))) := by
  after_results_simp
  simp only [ofBuf_toBuf]
  unfold takeFill takeMask takeCol
  rfl

/-- The take call on the source column writes the take of the node features at that column, whatever the valuation
    it starts from. -/
theorem after_take_src (V : Valuation τ sig (Elt Ideal)) :
    (StableHlo.after hostOps0_1 V (Proc.devRef .tc main_v7) : S606208x128.Idx → EReal)
      = takeFill (V (Proc.devRef .tc main_arg0)) (V (Proc.devRef .tc main_v5)) := by
  have h := after_take_src_cast V
  rw [cast_v7, cast_arg0, cast_v5] at h
  exact h

/-- The take call on the target column, likewise. -/
theorem after_take_dst (V : Valuation τ sig (Elt Ideal)) :
    (StableHlo.after hostOps0_2 V (Proc.devRef .tc main_v8) : S606208x128.Idx → EReal)
      = takeFill (V (Proc.devRef .tc main_arg0)) (V (Proc.devRef .tc main_v6)) := by
  have h := after_take_dst_cast V
  rw [cast_v8, cast_arg0, cast_v6] at h
  exact h

/-- The first stretch writes the padded source row and the padded target row, whatever the valuation it starts from. -/
theorem after0_v5 (V : Valuation τ sig (Elt Ideal)) :
    (StableHlo.after hostOps0 V (Proc.devRef .tc main_v5) : S606208.Idx → BitVec 32)
      = padRow (V (Proc.devRef .tc main_arg1)) 0 slices_S2x600000_S1x600000_0_0 := by
  after_results
  rfl

theorem after0_v6 (V : Valuation τ sig (Elt Ideal)) :
    (StableHlo.after hostOps0 V (Proc.devRef .tc main_v6) : S606208.Idx → BitVec 32)
      = padRow (V (Proc.devRef .tc main_arg1)) 1 slices_S2x600000_S1x600000_1_0 := by
  after_results
  rfl

/-- Row e of the gathered source features is the feature row of edge e's source node. -/
theorem W4_xs (hr : Gcn.InRange (aEI m c)) (e : Fin 600000) (k : Fin 128) :
    (W4 m ρ c (Proc.devRef .tc main_v7) : S606208x128.Idx → EReal) (ix2 ⟨e.val, by omega⟩ k)
      = aX m c (ix2 (Gcn.src (aEI m c) e) k) := by
  have k1 : W4 m ρ c (Proc.devRef .tc main_v7) = W3 m ρ c (Proc.devRef .tc main_v7) := by keep_host
  have k2 : W3 m ρ c (Proc.devRef .tc main_v7) = W2 m ρ c (Proc.devRef .tc main_v7) := by keep_host
  have k3 : (W2 m ρ c (Proc.devRef .tc main_v7) : S606208x128.Idx → EReal)
      = takeFill (W1 m ρ c (Proc.devRef .tc main_arg0)) (W1 m ρ c (Proc.devRef .tc main_v5)) := after_take_src (W1 m ρ c)
  have k4 : W1 m ρ c (Proc.devRef .tc main_arg0) = W0 m ρ c (Proc.devRef .tc main_arg0) := by keep_host
  have k5 : (W1 m ρ c (Proc.devRef .tc main_v5) : S606208.Idx → BitVec 32)
      = padRow (aEI m c) 0 slices_S2x600000_S1x600000_0_0 := after0_v5 (W0 m ρ c)
  have k6 : (W4 m ρ c (Proc.devRef .tc main_v7) : S606208x128.Idx → EReal)
      = takeFill (aX m c) (padRow (aEI m c) 0 slices_S2x600000_S1x600000_0_0) :=
    k1.trans (k2.trans (k3.trans (congrArg₂ takeFill k4 k5)))
  refine (congrFun k6 _).trans ?_
  rw [takeFill_apply _ _ (padRow_range (aEI m c) hr 0 _ 0 rfl), padRow_apply (aEI m c) 0 _ 0 rfl, dif_pos e.isLt]
  rfl

/-- Row e of the gathered target features is the feature row of edge e's target node. -/
theorem W4_xd (hr : Gcn.InRange (aEI m c)) (e : Fin 600000) (k : Fin 128) :
    (W4 m ρ c (Proc.devRef .tc main_v8) : S606208x128.Idx → EReal) (ix2 ⟨e.val, by omega⟩ k)
      = aX m c (ix2 (Gcn.dst (aEI m c) e) k) := by
  have k1 : W4 m ρ c (Proc.devRef .tc main_v8) = W3 m ρ c (Proc.devRef .tc main_v8) := by keep_host
  have k3 : (W3 m ρ c (Proc.devRef .tc main_v8) : S606208x128.Idx → EReal)
      = takeFill (W2 m ρ c (Proc.devRef .tc main_arg0)) (W2 m ρ c (Proc.devRef .tc main_v6)) := after_take_dst (W2 m ρ c)
  have k4 : W2 m ρ c (Proc.devRef .tc main_arg0) = W1 m ρ c (Proc.devRef .tc main_arg0) := by keep_host
  have k4' : W1 m ρ c (Proc.devRef .tc main_arg0) = W0 m ρ c (Proc.devRef .tc main_arg0) := by keep_host
  have k5 : W2 m ρ c (Proc.devRef .tc main_v6) = W1 m ρ c (Proc.devRef .tc main_v6) := by keep_host
  have k5' : (W1 m ρ c (Proc.devRef .tc main_v6) : S606208.Idx → BitVec 32)
      = padRow (aEI m c) 1 slices_S2x600000_S1x600000_1_0 := after0_v6 (W0 m ρ c)
  have k6 : (W4 m ρ c (Proc.devRef .tc main_v8) : S606208x128.Idx → EReal)
      = takeFill (aX m c) (padRow (aEI m c) 1 slices_S2x600000_S1x600000_1_0) :=
    k1.trans (k3.trans (congrArg₂ takeFill (k4.trans k4') (k5.trans k5')))
  refine (congrFun k6 _).trans ?_
  rw [takeFill_apply _ _ (padRow_range (aEI m c) hr 1 _ 1 rfl), padRow_apply (aEI m c) 1 _ 1 rfl, dif_pos e.isLt]
  rfl

/-- Row e of the perceptron region's output column is the perceptron's row on the region's inputs as it finds them. -/
theorem W5_v13 (e : Fin 606208) :
    (W5 m ρ c (Proc.devRef .tc main_v13) : S606208x1.Idx → EReal) (ix2 e 0)
      = Gcn.mlpRow (W4 m ρ c (Proc.devRef .tc main_v7)) (W4 m ρ c (Proc.devRef .tc main_v8))
          (W4 m ρ c (Proc.devRef .tc main_v9)) (W4 m ρ c (Proc.devRef .tc main_v10)) (W4 m ρ c (Proc.devRef .tc main_v11))
          (W4 m ρ c (Proc.devRef .tc main_arg4)) (W4 m ρ c (Proc.devRef .tc main_v12)) e :=
  (congrFun (W5_arr m ρ c 7) (ix2 e 0)).trans (region0_value (V4 m ρ) c e)

/-- The weight of edge `e`. -/
theorem ew_value (hr : Gcn.InRange (aEI m c)) (e : Fin 600000) :
    kEw m ρ c (ix1 e) = Gcn.edgeW (aX m c) (aWp1 m c) (aBp1 m c) (aWp2 m c) (aBp2 m c) (Gcn.src (aEI m c) e) (Gcn.dst (aEI m c) e) := by
  refine (W6_ew_of_col m ρ c e).trans ((W5_v13 m ρ c ⟨e.val, by omega⟩).trans ?_)
  exact EdgeGen.mlpRow_eq_edgeW _ _ _ _ _ _ _ (aX m c) (aWp1 m c) (aBp1 m c) (aWp2 m c) (aBp2 m c) ⟨e.val, by omega⟩ _ _
    (W4_xs m ρ c hr e) (W4_xd m ρ c hr e) (W4_wa m ρ c) (W4_wb m ρ c) (W4_b1 m ρ c) (W4_w2 m ρ c) (W4_b2 m ρ c)

end Cert.KernelIdeal.Gen

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.KernelNorm.lean ====
/- The host's columns of end points, the degree normalisation and the normalised edge weights of the idealized kernel
   program. The normalisation is the shared chain `Gcn.dinvOf` of the target column and the edge weights, never opened;
   a normalised weight is the product of the chain's entries at the edge's two end points with the edge's weight (under
   the range condition the two takes read inside the table). -/
import proofs.«404812_j66486093742317_1_alg».proof.Proof.KernelKeep
import proofs.«404812_j66486093742317_1_alg».proof.Proof.LibKeepdims
import proofs.«404812_j66486093742317_1_alg».proof.Proof.LibTake
import Idealize.ShloMosaic.Lib.StableHlo.Run

noncomputable section

open scoped BigOperators

namespace Cert.KernelIdeal.Gen

open Idealize.ShloMosaic Idealize.ShloMosaic.TcCoe Idealize.ShloMosaic.Tactic Idealize.SL.Sem Idealize.ShloMosaic.ValueIdx
open Idealize.ShloMosaic.Pipeline (Dat Cfg Window)

variable (m : (ℓ : Loc nD τ sig) → Buf (Elt Ideal) ℓ) (ρ : Dev nD → PrngReg) (c : Dev nD)

/-! ## What each host stretch writes, over any contents at its entry -/

namespace Norm

section Stretch
variable (V : Valuation τ sig (Elt Ideal))

/-- The vector of 50000 zeros. -/
abbrev zeroV : Gcn.A1 50000 := broadcastInDim S50000 ![] bcast_S_S50000 (constant (F := Ideal) S_ .f32 0x00000000#32)
/-- The vector of 50000 ones. -/
abbrev oneV : Gcn.A1 50000 := broadcastInDim S50000 ![] bcast_S_S50000 (constant (F := Ideal) S_ .f32 0x3F800000#32)

/-- The weighted in-degree (self loops included) of a target column and a weight vector: the targets followed by
    `0 … 49999`, the weights followed by ones, summed into zeros by target. -/
abbrev degV (dcol : IVec ⟨1, ![600000]⟩ 32) (w : Gcn.A1 600000) : Gcn.A1 50000 :=
  Host.scatterAdd (F := Ideal) (φ := .f32) scatter_S50000_S650000x1_S650000_n_0_0_1 zeroV
    (broadcastInDim S650000x1 ![0] bcast_S650000_S650000x1_0
      (concatenate S650000 0 [⟨S600000, dcol⟩, ⟨S50000, iotaInDim S50000 32 0⟩] concatenates_S600000_S50000_S650000_d0))
    (concatenate S650000 0 [⟨S600000, w⟩, ⟨S50000, oneV⟩] concatenates_S600000_S50000_S650000_d0)

/-- The edge weights are the first 600000 rows of the perceptron's column, as a vector. -/
theorem ops1_v15 : StableHlo.after hostOps1 V (Proc.devRef .tc main_v15)
    = (shapeCast S600000 (extractStridedSlice S600000x1 ![0, 0] (V (Proc.devRef .tc main_v13)) slices_S606208x1_S600000x1_0_0)
        shapeCasts_S600000x1_S600000 : Gcn.A1 600000) := by
  after_results <;> rfl

/-- The degree is the scatter of the extended weights by the extended targets. -/
theorem ops1_v22 : StableHlo.after hostOps1 V (Proc.devRef .tc main_v22)
    = degV (V (Proc.devRef .tc main_v3)) (StableHlo.after hostOps1 V (Proc.devRef .tc main_v15)) := by
  rw [ops1_v15]
  after_results <;> rfl

/-- Where the degree is positive (the outer mask). -/
theorem ops1_v24 : StableHlo.after hostOps1 V (Proc.devRef .tc main_v24)
    = cmpf (F := Ideal) (φ := .f32) .ogt (StableHlo.after hostOps1 V (Proc.devRef .tc main_v22) : Gcn.A1 50000) zeroV := by
  rw [ops1_v22, ops1_v15]
  after_results <;> rfl

/-- Where the degree is positive (the inner mask). -/
theorem ops1_v26 : StableHlo.after hostOps1 V (Proc.devRef .tc main_v26)
    = cmpf (F := Ideal) (φ := .f32) .ogt (StableHlo.after hostOps1 V (Proc.devRef .tc main_v22) : Gcn.A1 50000) zeroV := by
  rw [ops1_v22, ops1_v15]
  after_results <;> rfl

/-- The scalar one. -/
theorem ops1_cst3 : StableHlo.after hostOps1 V (Proc.devRef .tc main_cst_3)
    = constant (F := Ideal) S_ .f32 0x3F800000#32 := by
  after_results <;> rfl

/-- The degree where positive, one elsewhere. -/
theorem ops1_1_v27 : StableHlo.after hostOps1_1 V (Proc.devRef .tc main_v27)
    = (select (V (Proc.devRef .tc main_v26)) (V (Proc.devRef .tc main_v22) : Gcn.A1 50000)
        (broadcastInDim S50000 ![] bcast_S_S50000 (V (Proc.devRef .tc main_cst_3))) : Gcn.A1 50000) := by
  after_results <;> rfl

/-- Its inverse square root. -/
theorem ops1_2_v28 : StableHlo.after hostOps1_2 V (Proc.devRef .tc main_v28)
    = (Host.rsqrt (F := Ideal) (φ := .f32) (V (Proc.devRef .tc main_v27) : Gcn.A1 50000) : Gcn.A1 50000) := by
  after_results <;> rfl

/-- The scalar zero. -/
theorem ops1_2_cst4 : StableHlo.after hostOps1_2 V (Proc.devRef .tc main_cst_4)
    = constant (F := Ideal) S_ .f32 0x00000000#32 := by
  after_results <;> rfl

/-- The inverse square root where the degree is positive, zero elsewhere. -/
theorem ops1_3_v29 : StableHlo.after hostOps1_3 V (Proc.devRef .tc main_v29)
    = (select (V (Proc.devRef .tc main_v24)) (V (Proc.devRef .tc main_v28) : Gcn.A1 50000)
        (broadcastInDim S50000 ![] bcast_S_S50000 (V (Proc.devRef .tc main_cst_4))) : Gcn.A1 50000) := by
  after_results <;> rfl

/-- The same vector as a column. -/
theorem ops1_4_v30 : StableHlo.after hostOps1_4 V (Proc.devRef .tc main_v30)
    = (shapeCast S50000x1 (V (Proc.devRef .tc main_v29) : Gcn.A1 50000) shapeCasts_S50000_S50000x1 : Gcn.A2 50000 1) := by
  after_results <;> rfl

end Stretch

/-- The source column is row 0 of the edge table, flattened. -/
theorem srcCol_whole : kSrcCol m ρ c = (shapeCast S600000 (extractStridedSlice S1x600000 ![0, 0] (aEI m c) slices_S2x600000_S1x600000_0_0) shapeCasts_S1x600000_S600000 : IVec ⟨1, ![600000]⟩ 32) := by
  show StableHlo.after hostOps0 (W0 m ρ c) (Proc.devRef .tc main_v1) = _
  after_results <;> rfl

/-- The target column is row 1 of the edge table, flattened. -/
theorem dstCol_whole : kDstCol m ρ c = (shapeCast S600000 (extractStridedSlice S1x600000 ![1, 0] (aEI m c) slices_S2x600000_S1x600000_1_0) shapeCasts_S1x600000_S600000 : IVec ⟨1, ![600000]⟩ 32) := by
  show StableHlo.after hostOps0 (W0 m ρ c) (Proc.devRef .tc main_v3) = _
  after_results <;> rfl

/-- The target column as the perceptron region leaves it is the one the first stretch wrote. -/
theorem dstCol_W5 : W5 m ρ c (Proc.devRef .tc main_v3) = kDstCol m ρ c :=
  calc W5 m ρ c (Proc.devRef .tc main_v3)
    _ = W4 m ρ c (Proc.devRef .tc main_v3) := W5_of_ne m ρ c main_v3 (by decide)
    _ = W3 m ρ c (Proc.devRef .tc main_v3) := by keep_host
    _ = W2 m ρ c (Proc.devRef .tc main_v3) := by keep_host
    _ = W1 m ρ c (Proc.devRef .tc main_v3) := by keep_host

end Norm

/-- Entry `e` of the source column is the edge table's `(0, e)`. -/
theorem srcCol_value (e : Fin 600000) : kSrcCol m ρ c (ix1 e) = aEI m c (ix2 0 e) := by
  rw [Norm.srcCol_whole]
  rw [shapeCast_apply _ _ (ix1 e) (ix2 (0 : Fin 1) e) (by
    rw [Shape.rowMajor_val_two, Shape.rowMajor_val_one]
    show (0 : Fin 1).val * 600000 + e.val = e.val
    simp)]
  exact slice2_axis0_apply 0 (aEI m c) _ (0 : Fin 1) e (0 : Fin 2) rfl

/-- Entry `e` of the target column is the edge table's `(1, e)`. -/
theorem dstCol_value (e : Fin 600000) : kDstCol m ρ c (ix1 e) = aEI m c (ix2 1 e) := by
  rw [Norm.dstCol_whole]
  rw [shapeCast_apply _ _ (ix1 e) (ix2 (0 : Fin 1) e) (by
    rw [Shape.rowMajor_val_two, Shape.rowMajor_val_one]
    show (0 : Fin 1).val * 600000 + e.val = e.val
    simp)]
  exact slice2_axis0_apply 1 (aEI m c) _ (0 : Fin 1) e (1 : Fin 2) rfl

/-- The inverse-square-root degrees are the shared chain of the target column and the edge weights. -/
theorem dinv_term : kDinv m ρ c = Gcn.dinvOf (kDstCol m ρ c) (kEw m ρ c) := by
  have e22 : W6 m ρ c (Proc.devRef .tc main_v22)
      = Norm.degV (W5 m ρ c (Proc.devRef .tc main_v3)) (W6 m ρ c (Proc.devRef .tc main_v15)) := Norm.ops1_v22 (W5 m ρ c)
  have h22 : W6 m ρ c (Proc.devRef .tc main_v22) = Norm.degV (kDstCol m ρ c) (kEw m ρ c) := by
    rw [e22, Norm.dstCol_W5]
  have e24 : W6 m ρ c (Proc.devRef .tc main_v24)
      = cmpf (F := Ideal) (φ := .f32) .ogt (W6 m ρ c (Proc.devRef .tc main_v22) : Gcn.A1 50000) Norm.zeroV := Norm.ops1_v24 (W5 m ρ c)
  have k24a : W8 m ρ c (Proc.devRef .tc main_v24) = W7 m ρ c (Proc.devRef .tc main_v24) := by keep_host
  have k24b : W7 m ρ c (Proc.devRef .tc main_v24) = W6 m ρ c (Proc.devRef .tc main_v24) := by keep_host
  have h24 : W8 m ρ c (Proc.devRef .tc main_v24)
      = cmpf (F := Ideal) (φ := .f32) .ogt (Norm.degV (kDstCol m ρ c) (kEw m ρ c)) Norm.zeroV := by
    rw [k24a, k24b, e24, h22]
  have e26 : W6 m ρ c (Proc.devRef .tc main_v26)
      = cmpf (F := Ideal) (φ := .f32) .ogt (W6 m ρ c (Proc.devRef .tc main_v22) : Gcn.A1 50000) Norm.zeroV := Norm.ops1_v26 (W5 m ρ c)
  have ec3 : W6 m ρ c (Proc.devRef .tc main_cst_3) = constant (F := Ideal) S_ .f32 0x3F800000#32 := Norm.ops1_cst3 (W5 m ρ c)
  have e27 : W7 m ρ c (Proc.devRef .tc main_v27)
      = (select (W6 m ρ c (Proc.devRef .tc main_v26)) (W6 m ρ c (Proc.devRef .tc main_v22) : Gcn.A1 50000)
          (broadcastInDim S50000 ![] bcast_S_S50000 (W6 m ρ c (Proc.devRef .tc main_cst_3))) : Gcn.A1 50000) := Norm.ops1_1_v27 (W6 m ρ c)
  have e28 : W8 m ρ c (Proc.devRef .tc main_v28)
      = (Host.rsqrt (F := Ideal) (φ := .f32) (W7 m ρ c (Proc.devRef .tc main_v27) : Gcn.A1 50000) : Gcn.A1 50000) := Norm.ops1_2_v28 (W7 m ρ c)
  have ec4 : W8 m ρ c (Proc.devRef .tc main_cst_4) = constant (F := Ideal) S_ .f32 0x00000000#32 := Norm.ops1_2_cst4 (W7 m ρ c)
  have e29 : kDinv m ρ c
      = (select (W8 m ρ c (Proc.devRef .tc main_v24)) (W8 m ρ c (Proc.devRef .tc main_v28) : Gcn.A1 50000)
          (broadcastInDim S50000 ![] bcast_S_S50000 (W8 m ρ c (Proc.devRef .tc main_cst_4))) : Gcn.A1 50000) := Norm.ops1_3_v29 (W8 m ρ c)
  rw [e29, h24, e28, e27, e26, h22, ec3, ec4]
  rfl

/-- The column form holds the same entries. -/
theorem dcol_value (i : Fin 50000) : kDcol m ρ c (ix2 i 0) = kDinv m ρ c (ix1 i) := by
  have e30 : kDcol m ρ c = (shapeCast S50000x1 (kDinv m ρ c) shapeCasts_S50000_S50000x1 : Gcn.A2 50000 1) := Norm.ops1_4_v30 (W9 m ρ c)
  rw [e30]
  exact LibKeepdims.cast_vec_col _ _ i 0

namespace Norm

/-- The positions of a take as a column: a negative position wrapped by the table's length, the rest kept. -/
abbrev takeCol (idx : IVec ⟨1, ![600000]⟩ 32) : IVec ⟨2, ![600000, 1]⟩ 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- Where a take's position lies inside the table. -/
abbrev takeMask (idx : IVec ⟨1, ![600000]⟩ 32) : IVec ⟨1, ![600000]⟩ 1 :=
  Host.reduce IntOp.andi
    (andi (cmpi .sge (takeCol idx) (broadcastInDim S600000x1 ![] bcast_S_S600000x1 (constantI S_ 32 0#32)))
      (cmpi .sle (takeCol idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The take of a 50000-vector at 600000 positions, not-a-number where a position lies outside the table. -/
abbrev takeFill (tbl : Gcn.A1 50000) (idx : IVec ⟨1, ![600000]⟩ 32) : Gcn.A1 600000 :=
  select (takeMask idx)
    (Host.gather gather_S50000_S600000x1_S600000_n_0_n_n_0_1_1 tbl (takeCol idx))
    (broadcastInDim S600000 ![] bcast_S_S600000 (constant (F := Ideal) S_ .f32 0x7FC00000#32))

/-- At a position that names a node the take reads the table at that node. -/
theorem takeFill_apply (tbl : Gcn.A1 50000) (idx : IVec ⟨1, ![600000]⟩ 32) (e : Fin 600000)
    (h : 0 ≤ (idx (ix1 e)).toInt ∧ (idx (ix1 e)).toInt < 50000) :
    takeFill tbl idx (ix1 e) = tbl (ix1 (Gcn.node (idx (ix1 e)))) := by
  have hcol : takeCol idx (ix2 e 0) = idx (ix1 e) :=
    (LibTake.bcast_vec_col _ _ e).trans (LibTake.take_wrap_apply idx _ e h.1)
  have hm : takeMask idx (ix1 e) = 1#1 :=
    LibTake.take_mask_apply (takeCol idx) _ _ _ _ _ e (by rw [hcol]; exact h.1) (by rw [hcol]; omega)
  have hsel : takeFill tbl idx (ix1 e)
      = Host.gather gather_S50000_S600000x1_S600000_n_0_n_n_0_1_1 tbl (takeCol idx) (ix1 e) :=
    LibTake.take_fill_vec_apply _ _ _ e hm
  rw [hsel, LibTake.gather_vec_apply _ rfl rfl rfl rfl tbl (takeCol idx) e (by decide)]
  refine congrArg tbl (congrArg ix1 (Fin.ext ?_))
  show min (takeCol idx (ix2 e 0)).toInt.toNat (50000 - 1) = min (idx (ix1 e)).toInt.toNat 49999
  rw [hcol]

section Stretch
variable (V : Valuation τ sig (Elt Ideal))

/-- The first take: the table at the source column. -/
theorem ops1_5_v31 : StableHlo.after hostOps1_5 V (Proc.devRef .tc main_v31)
    = takeFill (V (Proc.devRef .tc main_v29)) (V (Proc.devRef .tc main_v1)) := by
  after_results_simp
  dsimp only [StableHlo.TRef.toBuf, StableHlo.TRef.ofBuf, cast_eq]

/-- The second take: the table at the target column. -/
theorem ops1_6_v32 : StableHlo.after hostOps1_6 V (Proc.devRef .tc main_v32)
    = takeFill (V (Proc.devRef .tc main_v29)) (V (Proc.devRef .tc main_v3)) := by
  after_results_simp
  dsimp only [StableHlo.TRef.toBuf, StableHlo.TRef.ofBuf, cast_eq]

/-- The two products. -/
theorem ops1_7_v34 : StableHlo.after hostOps1_7 V (Proc.devRef .tc main_v34)
    = (mulf (F := Ideal) (φ := .f32) (s := S600000) (mulf (F := Ideal) (φ := .f32) (s := S600000) (V (Proc.devRef .tc main_v31)) (V (Proc.devRef .tc main_v15))) (V (Proc.devRef .tc main_v32)) : Gcn.A1 600000) := by
  after_results <;> rfl

end Stretch

end Norm

namespace Norm

/-- The source column as the column stretch leaves it is the one the first stretch wrote. -/
theorem srcCol_W10 : W10 m ρ c (Proc.devRef .tc main_v1) = kSrcCol m ρ c :=
  calc W10 m ρ c (Proc.devRef .tc main_v1)
    _ = W9 m ρ c (Proc.devRef .tc main_v1) := by keep_host
    _ = W8 m ρ c (Proc.devRef .tc main_v1) := by keep_host
    _ = W7 m ρ c (Proc.devRef .tc main_v1) := by keep_host
    _ = W6 m ρ c (Proc.devRef .tc main_v1) := by keep_host
    _ = W5 m ρ c (Proc.devRef .tc main_v1) := by keep_host
    _ = W4 m ρ c (Proc.devRef .tc main_v1) := W5_of_ne m ρ c main_v1 (by decide)
    _ = W3 m ρ c (Proc.devRef .tc main_v1) := by keep_host
    _ = W2 m ρ c (Proc.devRef .tc main_v1) := by keep_host
    _ = W1 m ρ c (Proc.devRef .tc main_v1) := by keep_host

/-- The target column at the second take is the one the first stretch wrote. -/
theorem dstCol_W11 : W11 m ρ c (Proc.devRef .tc main_v3) = kDstCol m ρ c :=
  calc W11 m ρ c (Proc.devRef .tc main_v3)
    _ = W10 m ρ c (Proc.devRef .tc main_v3) := by keep_host
    _ = W9 m ρ c (Proc.devRef .tc main_v3) := by keep_host
    _ = W8 m ρ c (Proc.devRef .tc main_v3) := by keep_host
    _ = W7 m ρ c (Proc.devRef .tc main_v3) := by keep_host
    _ = W6 m ρ c (Proc.devRef .tc main_v3) := by keep_host
    _ = W5 m ρ c (Proc.devRef .tc main_v3) := by keep_host
    _ = kDstCol m ρ c := dstCol_W5 m ρ c

/-- The edge weights at the products are the ones the degree stretch cut out. -/
theorem ew_W12 : W12 m ρ c (Proc.devRef .tc main_v15) = kEw m ρ c :=
  calc W12 m ρ c (Proc.devRef .tc main_v15)
    _ = W11 m ρ c (Proc.devRef .tc main_v15) := by keep_host
    _ = W10 m ρ c (Proc.devRef .tc main_v15) := by keep_host
    _ = W9 m ρ c (Proc.devRef .tc main_v15) := by keep_host
    _ = W8 m ρ c (Proc.devRef .tc main_v15) := by keep_host
    _ = W7 m ρ c (Proc.devRef .tc main_v15) := by keep_host
    _ = W6 m ρ c (Proc.devRef .tc main_v15) := by keep_host

/-- The table the two takes read is the inverse-square-root degrees. -/
theorem dinv_W10 : W10 m ρ c (Proc.devRef .tc main_v29) = kDinv m ρ c := by keep_host

theorem dinv_W11 : W11 m ρ c (Proc.devRef .tc main_v29) = kDinv m ρ c :=
  calc W11 m ρ c (Proc.devRef .tc main_v29)
    _ = W10 m ρ c (Proc.devRef .tc main_v29) := by keep_host
    _ = kDinv m ρ c := dinv_W10 m ρ c

end Norm

/-- The normalised weight of edge `e`. -/
theorem norm_value (hr : Gcn.InRange (aEI m c)) (e : Fin 600000) :
    kNorm m ρ c (ix1 e) = Gcn.norm (kDinv m ρ c) (fun e => kEw m ρ c (ix1 e)) (Gcn.src (aEI m c)) (Gcn.dst (aEI m c)) e := by
  have e34 : kNorm m ρ c
      = (mulf (F := Ideal) (φ := .f32) (s := S600000)
          (mulf (F := Ideal) (φ := .f32) (s := S600000) (W12 m ρ c (Proc.devRef .tc main_v31)) (W12 m ρ c (Proc.devRef .tc main_v15)))
          (W12 m ρ c (Proc.devRef .tc main_v32)) : Gcn.A1 600000) := Norm.ops1_7_v34 (W12 m ρ c)
  have e32 : W12 m ρ c (Proc.devRef .tc main_v32)
      = Norm.takeFill (W11 m ρ c (Proc.devRef .tc main_v29)) (W11 m ρ c (Proc.devRef .tc main_v3)) := Norm.ops1_6_v32 (W11 m ρ c)
  have k31 : W12 m ρ c (Proc.devRef .tc main_v31) = W11 m ρ c (Proc.devRef .tc main_v31) := by keep_host
  have e31 : W11 m ρ c (Proc.devRef .tc main_v31)
      = Norm.takeFill (W10 m ρ c (Proc.devRef .tc main_v29)) (W10 m ρ c (Proc.devRef .tc main_v1)) := Norm.ops1_5_v31 (W10 m ρ c)
  rw [e34, mulf_apply, mulf_apply, e32, k31, e31, Norm.dinv_W10, Norm.dinv_W11, Norm.srcCol_W10, Norm.dstCol_W11, Norm.ew_W12,
    Norm.takeFill_apply _ _ e (by rw [srcCol_value]; exact hr _),
    Norm.takeFill_apply _ _ e (by rw [dstCol_value]; exact hr _), srcCol_value, dstCol_value]
  rfl

end Cert.KernelIdeal.Gen

end
-- ==== Proof.Region1Value.lean ====
/- What the two projection regions leave in their output arrays, entry by entry, whatever they find in their inputs. -/
import proofs.«404812_j66486093742317_1_alg».proof.Proof.KernelKeep
import Idealize.ShloMosaic.Lib.Pipeline.Value
import Idealize.ShloMosaic.Lib.ValueIdx
import Idealize.ShloMosaic.PureOps.Ideal.Laws

noncomputable section

open scoped BigOperators

namespace Cert.KernelIdeal.Gen

open Idealize.ShloMosaic Idealize.ShloMosaic.TcCoe Idealize.ShloMosaic.Tactic Idealize.SL.Sem Idealize.ShloMosaic.ValueIdx
open Idealize.ShloMosaic.Pipeline (Dat Cfg Window)

/-! ## The product of a [5000, 128] block with a transposed [128, 128] matrix, entry by entry -/

theorem lin_lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lin_lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem lin_rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem lin_rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000, 128] matrix and a [128, 128] matrix into zeros, at (p, q): the sum over the shared axis. -/
theorem lin_mm_apply {φ₁ φ₂ : FTy} (L : FVec Ideal S5000x128 φ₁) (R : FVec Ideal S128x128 φ₂) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  show FloatOps.matmul dot_S5000x128_S128x128_S5000x128_1_0_0_1_n_n none L R (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lin_lhs_mm_0 _ _
    | ⟨1, _⟩ => exact (lin_lhs_mm_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (lin_rhs_mm_0 _ _).trans hk
    | ⟨1, _⟩ => exact lin_rhs_mm_1 _ _)
  rw [el, er]

/-- A [n, m] matrix transposed, at (q, p): the matrix at (p, q). -/
theorem lin_transpose_at {α : Type} {n m : ℕ} (x : (⟨2, ![n, m]⟩ : Shape).Idx → α)
    (h : (⟨2, ![n, m]⟩ : Shape).Transposes [1, 0] ⟨2, ![m, n]⟩) (q : Fin m) (p : Fin n) :
    transpose ⟨2, ![m, n]⟩ [1, 0] x h (ix2 q p) = x (ix2 p q) :=
  transpose_apply [1, 0] x h (ix2 q p) (ix2 p q) (fun b => match b with
    | ⟨0, _⟩ => rfl
    | ⟨1, _⟩ => rfl)

/-- The first projection's body at `(r, q)` of its block: row `r` of the features against row `q` of the weights. -/
theorem lin_pay1_apply (v0 : Vec Ideal S5000x128 .f32) (v2 : Vec Ideal S128x128 .f32) (r : Fin 5000) (q : Fin 128) :
    k1_pay1 (F := Ideal) v0 v2 (ix2 r q) = ∑ k : Fin 128, v0 (ix2 r k) * v2 (ix2 q k) := by
  unfold k1_pay1
  show matmul dot_S5000x128_S128x128_S5000x128_1_0_0_1_n_n none _ _ (constant (F := Ideal) S5000x128 .f32 0x00000000#32) (ix2 r q) = _
  rw [lin_mm_apply]
  refine Finset.sum_congr rfl fun k _ => ?_
  rw [lin_transpose_at]; rfl

/-- The second projection's body, the same. -/
theorem lin_pay3_apply (v0 : Vec Ideal S5000x128 .f32) (v3 : Vec Ideal S128x128 .f32) (r : Fin 5000) (q : Fin 128) :
    k3_pay1 (F := Ideal) v0 v3 (ix2 r q) = ∑ k : Fin 128, v0 (ix2 r k) * v3 (ix2 q k) := by
  unfold k3_pay1
  simp only [shapeCast_self]
  show matmul dot_S5000x128_S128x128_S5000x128_1_0_0_1_n_n none _ _ (constant (F := Ideal) S5000x128 .f32 0x00000000#32) (ix2 r q) = _
  rw [lin_mm_apply]
  refine Finset.sum_congr rfl fun k _ => ?_
  rw [lin_transpose_at]; rfl

theorem lin_hz : (![0, 0] : Fin 2 → Nat) = fun _ => 0 := funext fun a => by fin_cases a <;> rfl

/-- The projection `x · Wᵀ` as one array. -/
def lin_linArr (x : Gcn.A2 50000 128) (W : Gcn.A2 128 128) : S50000x128.Idx → EReal := fun y => Gcn.lin x W (y 0) (y 1)

variable (V : (c : Dev nD) → (b : Ref sig .tc) → Buf (Elt Ideal) ((c : Thread nD τ).loc b))

/-! ## Region 1 -/

/-- The printed index maps of region 1, decided over its ten grid points: the row-blocked windows sit at block `t`,
    the weight window at the whole matrix. -/
theorem lin_idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the projection of the arrays the region finds. -/
theorem lin_flushed1_eq (c : Dev nD) (t : Fin cfg1.N) :
    (dat1 (F := Ideal) V c).flushed 2 t
      = ((cfg1.win 2).blk t).view.read (Elt Ideal) (lin_linArr (V c main_arg0) (V c main_arg6)) := by
  show (cfg1.win 2).cut (grid1.coords t) ((dat1 (F := Ideal) V c).after 2 t) = _
  rw [after1_2]
  unfold out1_2
  rw [View.canon_unit_zero lin_hz]
  simp only [View.ld_unit_zero (S := S5000x128) lin_hz, View.ld_unit_zero (S := S128x128) lin_hz]
  obtain ⟨e00, e01, e10, e11, e20, e21⟩ := lin_idx_facts1 t
  funext j
  show k1_pay1 (F := Ideal) (iblk1 V c 0 t) (iblk1 V c 1 t) j
    = lin_linArr (V c main_arg0) (V c main_arg6) (((cfg1.win 2).blk t).view.emb j)
  refine (congrArg (k1_pay1 (F := Ideal) (iblk1 V c 0 t) (iblk1 V c 1 t)) (eq_ix2 j)).trans ?_
  refine (lin_pay1_apply (iblk1 V c 0 t) (iblk1 V c 1 t) (j 0) (j 1)).trans ?_
  unfold lin_linArr Gcn.lin
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (ix2 (j 1) k) = ix2 ((((cfg1.win 2).blk t).view.emb j) 1) k := by
    funext a; apply Fin.ext
    match a with
    | ⟨0, _⟩ => show win1_1.index t (0 : Fin 2) * 128 + 1 * (j 1).val = win1_2.index t (1 : Fin 2) * 128 + 1 * (j 1).val; omega
    | ⟨1, _⟩ => show win1_1.index t (1 : Fin 2) * 128 + 1 * k.val = k.val; omega
  exact congrArg₂ (· * ·) (congrArg (V c main_arg0 : S50000x128.Idx → EReal) h0) (congrArg (V c main_arg6 : S128x128.Idx → EReal) h1)

/-- An index of the output array is in point `t`'s block iff each coordinate is in the block's range on its axis. -/
theorem lin_mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v35).slice (win1_2.rect t)).set ↔ _
  rw [View.set_slice_whole, Rect.mem_set_unit]
  exact Iff.rfl

/-- Row `r` of the output is written back by point `r / 5000`. -/
theorem lin_cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e20, e21⟩ := lin_idx_facts1 ⟨(i 0).val / 5000, ht⟩
  refine ⟨⟨(i 0).val / 5000, ht⟩, flush1_2 _, ?_⟩
  rw [lin_mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e21]; omega

/-- Entry `(i, k)` of the first projection after region 1. -/
theorem region1_value (c : Dev nD) (i : Fin 50000) (k : Fin 128) :
    ((dat1 (F := Ideal) V c).arrAt 2 cfg1.N : S50000x128.Idx → EReal) (ix2 i k)
      = Gcn.lin (V c main_arg0) (V c main_arg6) i k :=
  congrFun ((dat1 (F := Ideal) V c).arrAt_eq_of_cover 2 (lin_linArr (V c main_arg0) (V c main_arg6))
    (fun t _ => lin_flushed1_eq V c t) lin_cover1) (ix2 i k)

/-! ## Region 3 -/

/-- The printed index maps of region 3, decided over its ten grid points: the row-blocked windows sit at block `t`,
    the weight window at the whole matrix. -/
theorem lin_idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the projection of the arrays the region finds. -/
theorem lin_flushed3_eq (c : Dev nD) (t : Fin cfg3.N) :
    (dat3 (F := Ideal) V c).flushed 2 t
      = ((cfg3.win 2).blk t).view.read (Elt Ideal) (lin_linArr (V c main_v44) (V c main_arg8)) := by
  show (cfg3.win 2).cut (grid3.coords t) ((dat3 (F := Ideal) V c).after 2 t) = _
  rw [after3_2]
  unfold out3_2
  rw [View.canon_unit_zero lin_hz]
  simp only [View.ld_unit_zero (S := S5000x128) lin_hz, View.ld_unit_zero (S := S128x128) lin_hz]
  obtain ⟨e00, e01, e10, e11, e20, e21⟩ := lin_idx_facts3 t
  funext j
  show k3_pay1 (F := Ideal) (iblk3 V c 0 t) (iblk3 V c 1 t) j
    = lin_linArr (V c main_v44) (V c main_arg8) (((cfg3.win 2).blk t).view.emb j)
  refine (congrArg (k3_pay1 (F := Ideal) (iblk3 V c 0 t) (iblk3 V c 1 t)) (eq_ix2 j)).trans ?_
  refine (lin_pay3_apply (iblk3 V c 0 t) (iblk3 V c 1 t) (j 0) (j 1)).trans ?_
  unfold lin_linArr Gcn.lin
  refine Finset.sum_congr rfl fun k _ => ?_
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : ((cfg3.win 1).blk t).view.emb (ix2 (j 1) k) = ix2 ((((cfg3.win 2).blk t).view.emb j) 1) k := by
    funext a; apply Fin.ext
    match a with
    | ⟨0, _⟩ => show win3_1.index t (0 : Fin 2) * 128 + 1 * (j 1).val = win3_2.index t (1 : Fin 2) * 128 + 1 * (j 1).val; omega
    | ⟨1, _⟩ => show win3_1.index t (1 : Fin 2) * 128 + 1 * k.val = k.val; omega
  exact congrArg₂ (· * ·) (congrArg (V c main_v44 : S50000x128.Idx → EReal) h0) (congrArg (V c main_arg8 : S128x128.Idx → EReal) h1)

/-- An index of the output array is in point `t`'s block iff each coordinate is in the block's range on its axis. -/
theorem lin_mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v45).slice (win3_2.rect t)).set ↔ _
  rw [View.set_slice_whole, Rect.mem_set_unit]
  exact Iff.rfl

/-- Row `r` of the output is written back by point `r / 5000`. -/
theorem lin_cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, e20, e21⟩ := lin_idx_facts3 ⟨(i 0).val / 5000, ht⟩
  refine ⟨⟨(i 0).val / 5000, ht⟩, flush3_2 _, ?_⟩
  rw [lin_mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e21]; omega

/-- Entry `(i, k)` of the second projection after region 3. -/
theorem region3_value (c : Dev nD) (i : Fin 50000) (k : Fin 128) :
    ((dat3 (F := Ideal) V c).arrAt 2 cfg3.N : S50000x128.Idx → EReal) (ix2 i k)
      = Gcn.lin (V c main_v44) (V c main_arg8) i k :=
  congrFun ((dat3 (F := Ideal) V c).arrAt_eq_of_cover 2 (lin_linArr (V c main_v44) (V c main_arg8))
    (fun t _ => lin_flushed3_eq V c t) lin_cover3) (ix2 i k)

end Cert.KernelIdeal.Gen

end
-- ==== Proof.Region2Value.lean ====
/- What the two combine regions leave in their output arrays, entry by entry, whatever they find in their inputs. -/
import proofs.«404812_j66486093742317_1_alg».proof.Proof.KernelKeep
import proofs.«404812_j66486093742317_1_alg».proof.Proof.LibKeepdims

noncomputable section

open scoped BigOperators

namespace Cert.KernelIdeal.Gen

open Idealize.ShloMosaic Idealize.ShloMosaic.TcCoe Idealize.ShloMosaic.Tactic Idealize.SL.Sem Idealize.ShloMosaic.ValueIdx
open Idealize.ShloMosaic.Pipeline (Dat Cfg Window)

/-- The zero offsets of a whole-buffer access, as a constant function. -/
theorem zero_offsets : (![0, 0] : Fin 2 → Nat) = fun _ => 0 := funext fun a => by fin_cases a <;> rfl

/-- The combine body's block at row `r`, column `k`: the aggregate plus the squared column entry times the projected
    feature plus the bias entry, cut at zero. -/
theorem combine_pay_apply (x0 : Vec Ideal S5000x1 .f32) (x3 x5 : Vec Ideal S5000x128 .f32) (x10 : Vec Ideal S1x128 .f32)
    (r : Fin 5000) (k : Fin 128) :
    (k2_pay1 x0 x3 x5 x10 : S5000x128.Idx → EReal) (ix2 r k)
      = max ((x3 (ix2 r k) + (x0 (ix2 r 0) * x0 (ix2 r 0)) * x5 (ix2 r k)) + x10 (ix2 0 k)) 0 := by
  unfold k2_pay1
  simp only [shapeCast_self]
  rw [maximumf_apply, addf_apply, addf_apply, mulf_apply, broadcast_apply, Cert.LibKeepdims.bcast_col, mulf_apply]
  have hb : broadcastTo S5000x128 x10 broadcasts_S1x128_S5000x128 (ix2 r k) = x10 (ix2 0 k) := by
    refine broadcastTo_apply x10 _ (ix2 r k) (ix2 0 k) fun a => ?_
    match a with
    | ⟨0, _⟩ => rfl
    | ⟨1, _⟩ => rfl
  rw [hb]
  show max _ (Ideal.ofBits .f32 0x00000000#32) = _
  rw [Ideal.ofBits_zero_f32]

/-- The same at an index not yet split in coordinates. -/
theorem combine_pay_at (x0 : Vec Ideal S5000x1 .f32) (x3 x5 : Vec Ideal S5000x128 .f32) (x10 : Vec Ideal S1x128 .f32)
    (j : S5000x128.Idx) :
    (k2_pay1 x0 x3 x5 x10 : S5000x128.Idx → EReal) j
      = max ((x3 j + (x0 (ix2 (j 0) 0) * x0 (ix2 (j 0) 0)) * x5 j) + x10 (ix2 0 (j 1))) 0 := by
  exact (congrArg (k2_pay1 x0 x3 x5 x10) (eq_ix2 j)).trans ((combine_pay_apply x0 x3 x5 x10 (j 0) (j 1)).trans
    (congrArg (fun y => max ((x3 y + (x0 (ix2 (j 0) 0) * x0 (ix2 (j 0) 0)) * x5 y) + x10 (ix2 0 (j 1))) 0) (eq_ix2 j).symm))

/-- The whole output array of a combine region as one function of its four input arrays. -/
def combineG (agg xl : Gcn.A2 50000 128) (dcol : Gcn.A2 50000 1) (b : Gcn.A2 1 128) : S50000x128.Idx → EReal :=
  fun y => max ((agg y + (dcol (ix2 (y 0) 0) * dcol (ix2 (y 0) 0)) * xl y) + b (ix2 0 (y 1))) 0

/-- The body's formula read at the places of the five windows' blocks is the whole-array function at the output's place,
    once the input places are those the output's place names. -/
theorem combine_point (agg xl : Gcn.A2 50000 128) (dcol : Gcn.A2 50000 1) (b : Gcn.A2 1 128)
    (p0 p1 p4 : S50000x128.Idx) (p2 : S50000x1.Idx) (p3 : S1x128.Idx)
    (h0 : p0 = p4) (h1 : p1 = p4) (h2 : p2 = ix2 (p4 0) 0) (h3 : p3 = ix2 0 (p4 1)) :
    max ((agg p0 + (dcol p2 * dcol p2) * xl p1) + b p3) 0 = combineG agg xl dcol b p4 := by
  subst h0 h1 h2 h3
  rfl

/-- The second combine region runs the same body: its block at an index is the same formula. -/
theorem combine_pay4_at (x0 : Vec Ideal S5000x1 .f32) (x3 x5 : Vec Ideal S5000x128 .f32) (x10 : Vec Ideal S1x128 .f32)
    (j : S5000x128.Idx) :
    (k4_pay1 x0 x3 x5 x10 : S5000x128.Idx → EReal) j
      = max ((x3 j + (x0 (ix2 (j 0) 0) * x0 (ix2 (j 0) 0)) * x5 j) + x10 (ix2 0 (j 1))) 0 :=
  combine_pay_at x0 x3 x5 x10 j

variable (V : (c : Dev nD) → (b : Ref sig .tc) → Buf (Elt Ideal) ((c : Thread nD τ).loc b))

/-! ## Region 2 -/

/-- Where each window's block sits at grid point `t`: the row blocks at block row `t`, the bias row at the origin. -/
theorem combine_idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point `t` of region 2 writes back is block `t` of the whole-array function. -/
theorem combine_flushed2 (c : Dev nD) (t : Fin cfg2.N) :
    (dat2 (F := Ideal) V c).flushed 4 t
      = ((cfg2.win 4).blk t).view.read (Elt Ideal) (combineG (V c main_v42) (V c main_v35) (V c main_v30) (V c main_v43)) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := combine_idx2 t
  funext j
  refine (combine_pay_at (iblk2 V c 2 t) (iblk2 V c 0 t) (iblk2 V c 1 t) (iblk2 V c 3 t) j).trans ?_
  have hj0 : (j 0).val < 5000 := (j 0).isLt
  have hj1 : (j 1).val < 128 := (j 1).isLt
  have h0 : ((cfg2.win 0).blk t).view.emb j = ((cfg2.win 4).blk t).view.emb j := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * (j 1).val = win2_4.index t (1 : Fin 2) * 128 + 1 * (j 1).val; omega
  have h1 : ((cfg2.win 1).blk t).view.emb j = ((cfg2.win 4).blk t).view.emb j := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * (j 1).val = win2_4.index t (1 : Fin 2) * 128 + 1 * (j 1).val; omega
  have h2 : ((cfg2.win 2).blk t).view.emb (ix2 (j 0) 0) = ix2 (n0 := 50000) (n1 := 1) ((((cfg2.win 4).blk t).view.emb j) 0) 0 := by
    funext a; apply Fin.ext
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 1 + 1 * 0 = 0; omega
  have h3 : ((cfg2.win 3).blk t).view.emb (ix2 0 (j 1)) = ix2 (n0 := 1) (n1 := 128) 0 ((((cfg2.win 4).blk t).view.emb j) 1) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega
  exact combine_point (V c main_v42) (V c main_v35) (V c main_v30) (V c main_v43)
    (((cfg2.win 0).blk t).view.emb j) (((cfg2.win 1).blk t).view.emb j) (((cfg2.win 4).blk t).view.emb j)
    (((cfg2.win 2).blk t).view.emb (ix2 (j 0) 0)) (((cfg2.win 3).blk t).view.emb (ix2 0 (j 1))) h0 h1 h2 h3

/-- An index of the output array lies in point `t`'s block iff each coordinate lies in the block's range. -/
theorem combine_mem_blk2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v44).slice (win2_4.rect t)).set ↔ _
  rw [View.set_slice_whole, Rect.mem_set_unit]
  exact Iff.rfl

/-- Row `r` of the output lies in the block of point `r / 5000`: the ten row blocks tile the array. -/
theorem combine_cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, -, -, e40, e41⟩ := combine_idx2 ⟨(i 0).val / 5000, ht⟩
  refine ⟨⟨(i 0).val / 5000, ht⟩, flush2_4 _, ?_⟩
  rw [combine_mem_blk2]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    rw [e41]
    omega

/-- Entry `(i, k)` of the first layer's output after region 2. -/
theorem region2_value (c : Dev nD) (i : Fin 50000) (k : Fin 128) :
    ((dat2 (F := Ideal) V c).arrAt 4 cfg2.N : S50000x128.Idx → EReal) (ix2 i k)
      = Gcn.combineAt (V c main_v42) (V c main_v35) (V c main_v30) (V c main_v43) i k :=
  congrFun ((dat2 (F := Ideal) V c).arrAt_eq_of_cover 4 (combineG (V c main_v42) (V c main_v35) (V c main_v30) (V c main_v43))
    (fun t _ => combine_flushed2 V c t) combine_cover2) (ix2 i k)

/-! ## Region 4 -/

/-- Where each window's block sits at grid point `t`: the row blocks at block row `t`, the bias row at the origin. -/
theorem combine_idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What grid point `t` of region 4 writes back is block `t` of the whole-array function. -/
theorem combine_flushed4 (c : Dev nD) (t : Fin cfg4.N) :
    (dat4 (F := Ideal) V c).flushed 4 t
      = ((cfg4.win 4).blk t).view.read (Elt Ideal) (combineG (V c main_v52) (V c main_v45) (V c main_v30) (V c main_v53)) := by
  show (cfg4.win 4).cut (grid4.coords t) ((dat4 V c).after 4 t) = _
  rw [after4_4]
  unfold out4_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := combine_idx4 t
  funext j
  refine (combine_pay4_at (iblk4 V c 2 t) (iblk4 V c 0 t) (iblk4 V c 1 t) (iblk4 V c 3 t) j).trans ?_
  have hj0 : (j 0).val < 5000 := (j 0).isLt
  have hj1 : (j 1).val < 128 := (j 1).isLt
  have h0 : ((cfg4.win 0).blk t).view.emb j = ((cfg4.win 4).blk t).view.emb j := by
    funext a; apply Fin.ext
    match a with
    | ⟨0, _⟩ => show win4_0.index t (0 : Fin 2) * 5000 + 1 * (j 0).val = win4_4.index t (0 : Fin 2) * 5000 + 1 * (j 0).val; omega
    | ⟨1, _⟩ => show win4_0.index t (1 : Fin 2) * 128 + 1 * (j 1).val = win4_4.index t (1 : Fin 2) * 128 + 1 * (j 1).val; omega
  have h1 : ((cfg4.win 1).blk t).view.emb j = ((cfg4.win 4).blk t).view.emb j := by
    funext a; apply Fin.ext
    match a with
    | ⟨0, _⟩ => show win4_1.index t (0 : Fin 2) * 5000 + 1 * (j 0).val = win4_4.index t (0 : Fin 2) * 5000 + 1 * (j 0).val; omega
    | ⟨1, _⟩ => show win4_1.index t (1 : Fin 2) * 128 + 1 * (j 1).val = win4_4.index t (1 : Fin 2) * 128 + 1 * (j 1).val; omega
  have h2 : ((cfg4.win 2).blk t).view.emb (ix2 (j 0) 0) = ix2 (n0 := 50000) (n1 := 1) ((((cfg4.win 4).blk t).view.emb j) 0) 0 := by
    funext a; apply Fin.ext
    match a with
    | ⟨0, _⟩ => show win4_2.index t (0 : Fin 2) * 5000 + 1 * (j 0).val = win4_4.index t (0 : Fin 2) * 5000 + 1 * (j 0).val; omega
    | ⟨1, _⟩ => show win4_2.index t (1 : Fin 2) * 1 + 1 * 0 = 0; omega
  have h3 : ((cfg4.win 3).blk t).view.emb (ix2 0 (j 1)) = ix2 (n0 := 1) (n1 := 128) 0 ((((cfg4.win 4).blk t).view.emb j) 1) := by
    funext a; apply Fin.ext
    match a with
    | ⟨0, _⟩ => show win4_3.index t (0 : Fin 2) * 1 + 1 * 0 = 0; omega
    | ⟨1, _⟩ => show win4_3.index t (1 : Fin 2) * 128 + 1 * (j 1).val = win4_4.index t (1 : Fin 2) * 128 + 1 * (j 1).val; omega
  exact combine_point (V c main_v52) (V c main_v45) (V c main_v30) (V c main_v53)
    (((cfg4.win 0).blk t).view.emb j) (((cfg4.win 1).blk t).view.emb j) (((cfg4.win 4).blk t).view.emb j)
    (((cfg4.win 2).blk t).view.emb (ix2 (j 0) 0)) (((cfg4.win 3).blk t).view.emb (ix2 0 (j 1))) h0 h1 h2 h3

/-- An index of the output array lies in point `t`'s block iff each coordinate lies in the block's range. -/
theorem combine_mem_blk4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v54).slice (win4_4.rect t)).set ↔ _
  rw [View.set_slice_whole, Rect.mem_set_unit]
  exact Iff.rfl

/-- Row `r` of the output lies in the block of point `r / 5000`: the ten row blocks tile the array. -/
theorem combine_cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  have ht : (i 0).val / 5000 < cfg4.N := by rw [hN]; omega
  obtain ⟨-, -, -, -, -, -, -, -, e40, e41⟩ := combine_idx4 ⟨(i 0).val / 5000, ht⟩
  refine ⟨⟨(i 0).val / 5000, ht⟩, flush4_4 _, ?_⟩
  rw [combine_mem_blk4]
  intro a
  match a with
  | ⟨0, _⟩ =>
    show win4_4.index ⟨(i 0).val / 5000, ht⟩ (0 : Fin 2) * 5000 ≤ (i 0).val
      ∧ (i 0).val < win4_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win4_4.index ⟨(i 0).val / 5000, ht⟩ (1 : Fin 2) * 128 ≤ (i 1).val
      ∧ (i 1).val < win4_4.index ⟨(i 0).val / 5000, ht⟩ (1 : Fin 2) * 128 + 128
    rw [e41]
    omega

/-- Entry `(i, k)` of the second layer's output after region 4. -/
theorem region4_value (c : Dev nD) (i : Fin 50000) (k : Fin 128) :
    ((dat4 (F := Ideal) V c).arrAt 4 cfg4.N : S50000x128.Idx → EReal) (ix2 i k)
      = Gcn.combineAt (V c main_v52) (V c main_v45) (V c main_v30) (V c main_v53) i k :=
  congrFun ((dat4 (F := Ideal) V c).arrAt_eq_of_cover 4 (combineG (V c main_v52) (V c main_v45) (V c main_v30) (V c main_v53))
    (fun t _ => combine_flushed4 V c t) combine_cover4) (ix2 i k)

end Cert.KernelIdeal.Gen

end
-- ==== Proof.KernelLayer1.lean ====
/- The first round of message passing in the idealized kernel program: the projection region, the take of the projected
   rows at the sources, the scatter-add over the targets, and the combine region that adds the self loop and the bias. -/
import proofs.«404812_j66486093742317_1_alg».proof.Proof.KernelKeep
import proofs.«404812_j66486093742317_1_alg».proof.Proof.Region1Value
import proofs.«404812_j66486093742317_1_alg».proof.Proof.Region2Value
import proofs.«404812_j66486093742317_1_alg».proof.Proof.KernelNorm
import proofs.«404812_j66486093742317_1_alg».proof.Proof.LibTake
import Idealize.ShloMosaic.Lib.StableHlo.Run

noncomputable section

open scoped BigOperators

namespace Cert.KernelIdeal.Gen

open Idealize.ShloMosaic Idealize.ShloMosaic.TcCoe Idealize.ShloMosaic.Tactic Idealize.SL.Sem Idealize.ShloMosaic.ValueIdx
open Idealize.ShloMosaic.Pipeline (Dat Cfg Window)

variable (m : (ℓ : Loc nD τ sig) → Buf (Elt Ideal) ℓ) (ρ : Dev nD → PrngReg) (c : Dev nD)

/-! ## The projection region's two inputs are the launch arguments: nothing before it writes them -/

/-- The node features reach the projection region as launched. -/
theorem l1_W13_arg0 : W13 m ρ c (Proc.devRef .tc main_arg0) = m ((c : Thread nD τ).loc main_arg0) :=
  calc W13 m ρ c (Proc.devRef .tc main_arg0)
    _ = W12 m ρ c (Proc.devRef .tc main_arg0) := by keep_host
    _ = W11 m ρ c (Proc.devRef .tc main_arg0) := by keep_host
    _ = W10 m ρ c (Proc.devRef .tc main_arg0) := by keep_host
    _ = W9 m ρ c (Proc.devRef .tc main_arg0) := by keep_host
    _ = W8 m ρ c (Proc.devRef .tc main_arg0) := by keep_host
    _ = W7 m ρ c (Proc.devRef .tc main_arg0) := by keep_host
    _ = W6 m ρ c (Proc.devRef .tc main_arg0) := by keep_host
    _ = W5 m ρ c (Proc.devRef .tc main_arg0) := by keep_host
    _ = W4 m ρ c (Proc.devRef .tc main_arg0) := W5_of_ne m ρ c main_arg0 (by decide)
    _ = W3 m ρ c (Proc.devRef .tc main_arg0) := by keep_host
    _ = W2 m ρ c (Proc.devRef .tc main_arg0) := by keep_host
    _ = W1 m ρ c (Proc.devRef .tc main_arg0) := by keep_host
    _ = W0 m ρ c (Proc.devRef .tc main_arg0) := by keep_host
    _ = m ((c : Thread nD τ).loc main_arg0) := rfl

/-- The first projection's weights reach the projection region as launched. -/
theorem l1_W13_arg6 : W13 m ρ c (Proc.devRef .tc main_arg6) = m ((c : Thread nD τ).loc main_arg6) :=
  calc W13 m ρ c (Proc.devRef .tc main_arg6)
    _ = W12 m ρ c (Proc.devRef .tc main_arg6) := by keep_host
    _ = W11 m ρ c (Proc.devRef .tc main_arg6) := by keep_host
    _ = W10 m ρ c (Proc.devRef .tc main_arg6) := by keep_host
    _ = W9 m ρ c (Proc.devRef .tc main_arg6) := by keep_host
    _ = W8 m ρ c (Proc.devRef .tc main_arg6) := by keep_host
    _ = W7 m ρ c (Proc.devRef .tc main_arg6) := by keep_host
    _ = W6 m ρ c (Proc.devRef .tc main_arg6) := by keep_host
    _ = W5 m ρ c (Proc.devRef .tc main_arg6) := by keep_host
    _ = W4 m ρ c (Proc.devRef .tc main_arg6) := W5_of_ne m ρ c main_arg6 (by decide)
    _ = W3 m ρ c (Proc.devRef .tc main_arg6) := by keep_host
    _ = W2 m ρ c (Proc.devRef .tc main_arg6) := by keep_host
    _ = W1 m ρ c (Proc.devRef .tc main_arg6) := by keep_host
    _ = W0 m ρ c (Proc.devRef .tc main_arg6) := by keep_host
    _ = m ((c : Thread nD τ).loc main_arg6) := rfl

/-- The first projection at `(i, k)`. -/
theorem xl1_value (i : Fin 50000) (k : Fin 128) : kXl1 m ρ c (ix2 i k) = Gcn.lin (aX m c) (aW1 m c) i k := by
  have e : kXl1 m ρ c = ((dat1 (F := Ideal) (V13 m ρ) c).arrAt 2 cfg1.N : S50000x128.Idx → EReal) := W14_arr m ρ c 2
  have h := region1_value (V13 m ρ) c i k
  exact (congrFun e (ix2 i k)).trans (h.trans (by
    show Gcn.lin (W13 m ρ c (Proc.devRef .tc main_arg0)) (W13 m ρ c (Proc.devRef .tc main_arg6)) i k = _
    rw [l1_W13_arg0, l1_W13_arg6]))

/-! ## The host's operations between the two regions, as terms over what they read -/

/-- The filled take of the rows of a table of 50000 rows at 600000 positions, as the host spells it: the positions
    wrapped and kept as a column, the in-range bit per position, the gathered rows, and the fill where the bit is off. -/
def l1_takeRows (tbl : Gcn.A2 50000 128) (col : IVec S600000 32) : Gcn.A2 600000 128 :=
  select (broadcastInDim S600000x128 ![0] bcast_S600000_S600000x128_0
      (LibTake.takeMask (LibTake.takeCol col bcast_S_S600000 bcast_S600000_S600000x1_0) bcast_S_S600000x1 bcast_S1_S1x1_1
        bcast_S1x1_S600000x1_0_1 reducesTo_S600000x1_S600000_d1 h_S_))
    (Host.gather gather_S50000x128_S600000x1_S600000x128_1_0_n_n_0_1_1128 tbl
      (LibTake.takeCol col bcast_S_S600000 bcast_S600000_S600000x1_0))
    (broadcastInDim S600000x128 ![] bcast_S_S600000x128 (constant (F := Ideal) S_ .f32 0x7FC00000#32))

/-- At a position that names a node the filled take reads that node's row. -/
theorem l1_takeRows_apply (tbl : Gcn.A2 50000 128) (col : IVec S600000 32) (e : Fin 600000) (k : Fin 128)
    (h0 : 0 ≤ (col (ix1 e)).toInt) (h1 : (col (ix1 e)).toInt < 50000) :
    l1_takeRows tbl col (ix2 e k) = tbl (ix2 (Gcn.node (col (ix1 e))) k) := by
  unfold l1_takeRows
  refine (LibTake.take_rows_apply tbl col _ rfl rfl rfl rfl rfl _ _ _ _ _ _ _ _ _ e k h0 h1).trans ?_
  refine congrArg (fun j => tbl (ix2 j k)) (Fin.ext ?_)
  show (col (ix1 e)).toInt.toNat = min (col (ix1 e)).toInt.toNat 49999
  omega

/-- The scatter-add of the scaled taken rows into zeros by the column of targets, as the host spells it. -/
def l1_aggOf (dcol : IVec S600000 32) (nrm : Gcn.A1 600000) (tk : Gcn.A2 600000 128) : Gcn.A2 50000 128 :=
  Ideal.hostScatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dcol)
    (mulf (F := Ideal) (φ := .f32) (broadcastInDim S600000x128 ![0, 1] bcast_S600000x1_S600000x128_0_1
        (broadcastInDim S600000x1 ![0] bcast_S600000_S600000x1_0 nrm)) tk)

/-- Entry `(i, k)` of the scatter-add: zero plus the scaled taken entries `(e, k)` over the positions whose target is `i`. -/
theorem l1_aggOf_apply (dcol : IVec S600000 32) (nrm : Gcn.A1 600000) (tk : Gcn.A2 600000 128) (i : Fin 50000) (k : Fin 128) :
    l1_aggOf dcol nrm tk (ix2 i k)
      = 0 + ∑ e ∈ Finset.univ.filter (fun e : Fin 600000 => (dcol (ix1 e)).toInt = (i.val : ℤ)), nrm (ix1 e) * tk (ix2 e k) := by
  unfold l1_aggOf
  rw [LibTake.scatterAdd_rows_apply _ rfl rfl rfl rfl]
  refine congrArg₂ (fun a b : EReal => a + b) Ideal.ofBits_zero_f32 ?_
  refine Finset.sum_congr (Finset.filter_congr fun e _ => ?_) (fun e _ => ?_)
  · rw [LibTake.bcast_vec_col]
  · rw [mulf_apply, LibTake.bcast_col_rows, LibTake.bcast_vec_col]

/-- A vector [n] viewed as a row [1, n] keeps its entries. -/
theorem l1_cast_vec_row {α : Type} {n : ℕ} (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

section Stretches
variable (V : Valuation τ sig (Elt Ideal))

/-- Contents moved to a buffer's own type and back are the contents. -/
theorem l1_ofBuf_toBuf {T : BufTy} (x : StableHlo.TRef sig T) (v : T.Contents (Elt Ideal)) : x.ofBuf (x.toBuf v) = v := by
  obtain ⟨r, rfl, h1, h2⟩ := x
  rfl

/-- Reading the take's three buffers at their printed types changes nothing. -/
theorem l1_cast_v1 (u : (Proc.devRef (τ := τ) .tc main_v1).ty.Contents (Elt Ideal)) :
    (StableHlo.TRef.of main_v1 : StableHlo.TRef sig ⟨S600000, .i32⟩).ofBuf u = u := rfl
theorem l1_cast_v35 (u : (Proc.devRef (τ := τ) .tc main_v35).ty.Contents (Elt Ideal)) :
    (StableHlo.TRef.of main_v35 : StableHlo.TRef sig ⟨S50000x128, .f32⟩).ofBuf u = u := rfl
theorem l1_cast_v36 (u : (Proc.devRef (τ := τ) .tc main_v36).ty.Contents (Elt Ideal)) :
    (StableHlo.TRef.of main_v36 : StableHlo.TRef sig ⟨S600000x128, .f32⟩).ofBuf u = u := rfl

set_option maxHeartbeats 1000000 in
/-- What the take stretch leaves in its result, every buffer read at its printed type. -/
theorem l1_after_take_cast :
    (StableHlo.TRef.of main_v36 : StableHlo.TRef sig ⟨S600000x128, .f32⟩).ofBuf (StableHlo.after hostOps2 V (Proc.devRef .tc main_v36))
      = l1_takeRows ((StableHlo.TRef.of main_v35 : StableHlo.TRef sig ⟨S50000x128, .f32⟩).ofBuf (V (Proc.devRef .tc main_v35)))
          ((StableHlo.TRef.of main_v1 : StableHlo.TRef sig ⟨S600000, .i32⟩).ofBuf (V (Proc.devRef .tc main_v1))) := by
  after_results_simp
  simp only [l1_ofBuf_toBuf]
  unfold l1_takeRows
  rfl

/-- What the take stretch leaves in its result, from any contents. -/
theorem l1_after_take :
    StableHlo.after hostOps2 V (Proc.devRef .tc main_v36)
      = l1_takeRows (V (Proc.devRef .tc main_v35)) (V (Proc.devRef .tc main_v1)) := by
  have h := l1_after_take_cast V
  rw [l1_cast_v36, l1_cast_v35, l1_cast_v1] at h
  exact h

/-- What the scatter stretch leaves in the aggregate, from any contents. -/
theorem l1_after_agg :
    StableHlo.after hostOps2_1 V (Proc.devRef .tc main_v42)
      = l1_aggOf (V (Proc.devRef .tc main_v3)) (V (Proc.devRef .tc main_v34)) (V (Proc.devRef .tc main_v36)) := by
  after_results
  rfl

/-- What the scatter stretch leaves in the bias row, from any contents. -/
theorem l1_after_bias :
    StableHlo.after hostOps2_1 V (Proc.devRef .tc main_v43)
      = shapeCast S1x128 (V (Proc.devRef .tc main_arg7) : Gcn.A1 128) shapeCasts_S128_S1x128 := by
  after_results
  rfl

end Stretches

/-! ## Buffers carried between the boundaries -/

/-- The projection is untouched between the two regions. -/
theorem l1_W16_xl : W16 m ρ c (Proc.devRef .tc main_v35) = W14 m ρ c (Proc.devRef .tc main_v35) :=
  calc W16 m ρ c (Proc.devRef .tc main_v35)
    _ = W15 m ρ c (Proc.devRef .tc main_v35) := by keep_host
    _ = W14 m ρ c (Proc.devRef .tc main_v35) := by keep_host

/-- The degree column is untouched up to the combine region. -/
theorem l1_W16_dcol : W16 m ρ c (Proc.devRef .tc main_v30) = W10 m ρ c (Proc.devRef .tc main_v30) :=
  calc W16 m ρ c (Proc.devRef .tc main_v30)
    _ = W15 m ρ c (Proc.devRef .tc main_v30) := by keep_host
    _ = W14 m ρ c (Proc.devRef .tc main_v30) := by keep_host
    _ = W13 m ρ c (Proc.devRef .tc main_v30) := W14_of_ne m ρ c main_v30 (by decide)
    _ = W12 m ρ c (Proc.devRef .tc main_v30) := by keep_host
    _ = W11 m ρ c (Proc.devRef .tc main_v30) := by keep_host
    _ = W10 m ρ c (Proc.devRef .tc main_v30) := by keep_host

/-- The first bias reaches the scatter stretch as launched. -/
theorem l1_W15_arg7 : W15 m ρ c (Proc.devRef .tc main_arg7) = m ((c : Thread nD τ).loc main_arg7) :=
  calc W15 m ρ c (Proc.devRef .tc main_arg7)
    _ = W14 m ρ c (Proc.devRef .tc main_arg7) := by keep_host
    _ = W13 m ρ c (Proc.devRef .tc main_arg7) := W14_of_ne m ρ c main_arg7 (by decide)
    _ = W12 m ρ c (Proc.devRef .tc main_arg7) := by keep_host
    _ = W11 m ρ c (Proc.devRef .tc main_arg7) := by keep_host
    _ = W10 m ρ c (Proc.devRef .tc main_arg7) := by keep_host
    _ = W9 m ρ c (Proc.devRef .tc main_arg7) := by keep_host
    _ = W8 m ρ c (Proc.devRef .tc main_arg7) := by keep_host
    _ = W7 m ρ c (Proc.devRef .tc main_arg7) := by keep_host
    _ = W6 m ρ c (Proc.devRef .tc main_arg7) := by keep_host
    _ = W5 m ρ c (Proc.devRef .tc main_arg7) := by keep_host
    _ = W4 m ρ c (Proc.devRef .tc main_arg7) := W5_of_ne m ρ c main_arg7 (by decide)
    _ = W3 m ρ c (Proc.devRef .tc main_arg7) := by keep_host
    _ = W2 m ρ c (Proc.devRef .tc main_arg7) := by keep_host
    _ = W1 m ρ c (Proc.devRef .tc main_arg7) := by keep_host
    _ = W0 m ρ c (Proc.devRef .tc main_arg7) := by keep_host
    _ = m ((c : Thread nD τ).loc main_arg7) := rfl

/-- The column of targets is untouched up to the scatter stretch. -/
theorem l1_W15_dst : W15 m ρ c (Proc.devRef .tc main_v3) = W1 m ρ c (Proc.devRef .tc main_v3) :=
  calc W15 m ρ c (Proc.devRef .tc main_v3)
    _ = W14 m ρ c (Proc.devRef .tc main_v3) := by keep_host
    _ = W13 m ρ c (Proc.devRef .tc main_v3) := W14_of_ne m ρ c main_v3 (by decide)
    _ = W12 m ρ c (Proc.devRef .tc main_v3) := by keep_host
    _ = W11 m ρ c (Proc.devRef .tc main_v3) := by keep_host
    _ = W10 m ρ c (Proc.devRef .tc main_v3) := by keep_host
    _ = W9 m ρ c (Proc.devRef .tc main_v3) := by keep_host
    _ = W8 m ρ c (Proc.devRef .tc main_v3) := by keep_host
    _ = W7 m ρ c (Proc.devRef .tc main_v3) := by keep_host
    _ = W6 m ρ c (Proc.devRef .tc main_v3) := by keep_host
    _ = W5 m ρ c (Proc.devRef .tc main_v3) := by keep_host
    _ = W4 m ρ c (Proc.devRef .tc main_v3) := W5_of_ne m ρ c main_v3 (by decide)
    _ = W3 m ρ c (Proc.devRef .tc main_v3) := by keep_host
    _ = W2 m ρ c (Proc.devRef .tc main_v3) := by keep_host
    _ = W1 m ρ c (Proc.devRef .tc main_v3) := by keep_host

/-- The normalised weights are untouched up to the scatter stretch. -/
theorem l1_W15_nrm : W15 m ρ c (Proc.devRef .tc main_v34) = W13 m ρ c (Proc.devRef .tc main_v34) :=
  calc W15 m ρ c (Proc.devRef .tc main_v34)
    _ = W14 m ρ c (Proc.devRef .tc main_v34) := by keep_host
    _ = W13 m ρ c (Proc.devRef .tc main_v34) := W14_of_ne m ρ c main_v34 (by decide)

/-- The column of sources is untouched up to the take stretch. -/
theorem l1_W14_src : W14 m ρ c (Proc.devRef .tc main_v1) = W1 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := by keep_host
    _ = W11 m ρ c (Proc.devRef .tc main_v1) := by keep_host
    _ = W10 m ρ c (Proc.devRef .tc main_v1) := by keep_host
    _ = W9 m ρ c (Proc.devRef .tc main_v1) := by keep_host
    _ = W8 m ρ c (Proc.devRef .tc main_v1) := by keep_host
    _ = W7 m ρ c (Proc.devRef .tc main_v1) := by keep_host
    _ = W6 m ρ c (Proc.devRef .tc main_v1) := by keep_host
    _ = W5 m ρ c (Proc.devRef .tc main_v1) := by keep_host
    _ = W4 m ρ c (Proc.devRef .tc main_v1) := W5_of_ne m ρ c main_v1 (by decide)
    _ = W3 m ρ c (Proc.devRef .tc main_v1) := by keep_host
    _ = W2 m ρ c (Proc.devRef .tc main_v1) := by keep_host
    _ = W1 m ρ c (Proc.devRef .tc main_v1) := by keep_host

/-! ## The four inputs of the combine region -/

/-- The taken rows (the take stretch's result). -/
abbrev l1_kTake : Gcn.A2 600000 128 := W15 m ρ c (Proc.devRef .tc main_v36)
/-- The aggregated messages (the scatter stretch's result). -/
abbrev l1_kAgg : Gcn.A2 50000 128 := W16 m ρ c (Proc.devRef .tc main_v42)
/-- The bias as a row. -/
abbrev l1_kBias1 : Gcn.A2 1 128 := W16 m ρ c (Proc.devRef .tc main_v43)

/-- Row `e` of the taken rows is the projection's row at the source of edge `e`. -/
theorem l1_W15_take (hr : Gcn.InRange (aEI m c)) (e : Fin 600000) (k : Fin 128) :
    l1_kTake m ρ c (ix2 e k) = kXl1 m ρ c (ix2 (Gcn.src (aEI m c) e) k) := by
  have hs : (W14 m ρ c (Proc.devRef .tc main_v1) : IVec S600000 32) (ix1 e) = aEI m c (ix2 0 e) :=
    (congrFun (l1_W14_src m ρ c) (ix1 e)).trans (srcCol_value m ρ c e)
  have h := hr (ix2 0 e)
  refine (congrFun (l1_after_take (W14 m ρ c)) (ix2 e k)).trans ?_
  rw [l1_takeRows_apply _ _ e k (by rw [hs]; exact h.1) (by rw [hs]; exact h.2), hs]
  rfl

/-- Entry `(i, k)` of the aggregate: the normalised weights times the projection's rows at the sources, summed over
    the edges that end in `i`. -/
theorem l1_W16_agg (hr : Gcn.InRange (aEI m c)) (i : Fin 50000) (k : Fin 128) :
    l1_kAgg m ρ c (ix2 i k)
      = 0 + ∑ e ∈ Finset.univ.filter (fun e => Gcn.dst (aEI m c) e = i),
          Gcn.norm (kDinv m ρ c) (fun e => kEw m ρ c (ix1 e)) (Gcn.src (aEI m c)) (Gcn.dst (aEI m c)) e
            * kXl1 m ρ c (ix2 (Gcn.src (aEI m c) e) k) := by
  refine (congrFun (l1_after_agg (W15 m ρ c)) (ix2 i k)).trans ?_
  rw [l1_aggOf_apply]
  refine congrArg (fun z => (0 : EReal) + z) ?_
  refine Finset.sum_congr (Finset.filter_congr fun e _ => ?_) (fun e _ => ?_)
  · have hd : (W15 m ρ c (Proc.devRef .tc main_v3) : IVec S600000 32) (ix1 e) = aEI m c (ix2 1 e) :=
      (congrFun (l1_W15_dst m ρ c) (ix1 e)).trans (dstCol_value m ρ c e)
    rw [hd, ← Gcn.node_val_of_range (hr (ix2 1 e))]
    show ((Gcn.dst (aEI m c) e).val : ℤ) = (i.val : ℤ) ↔ Gcn.dst (aEI m c) e = i
    constructor
    · intro h; exact Fin.ext (by exact_mod_cast h)
    · intro h; rw [h]
  · have hn : (W15 m ρ c (Proc.devRef .tc main_v34) : Gcn.A1 600000) (ix1 e)
        = Gcn.norm (kDinv m ρ c) (fun e => kEw m ρ c (ix1 e)) (Gcn.src (aEI m c)) (Gcn.dst (aEI m c)) e :=
      (congrFun (l1_W15_nrm m ρ c) (ix1 e)).trans (norm_value m ρ c hr e)
    have ht : (W15 m ρ c (Proc.devRef .tc main_v36) : Gcn.A2 600000 128) (ix2 e k)
        = kXl1 m ρ c (ix2 (Gcn.src (aEI m c) e) k) := l1_W15_take m ρ c hr e k
    rw [hn, ht]

/-- Entry `(0, k)` of the bias row is the launched bias at `k`. -/
theorem l1_W16_bias (k : Fin 128) : l1_kBias1 m ρ c (ix2 0 k) = aB1 m c (ix1 k) :=
  (congrFun (l1_after_bias (W15 m ρ c)) (ix2 0 k)).trans
    ((l1_cast_vec_row _ _ 0 k).trans (congrFun (l1_W15_arg7 m ρ c) (ix1 k)))

/-- The combine kernel's value from the values of its four operands at the entries it reads. -/
theorem l1_combine_eq {A X : Gcn.A2 50000 128} {D : Gcn.A2 50000 1} {B : Gcn.A2 1 128} {a x d b : EReal} (i : Fin 50000) (k : Fin 128)
    (hA : A (ix2 i k) = a) (hX : X (ix2 i k) = x) (hD : D (ix2 i 0) = d) (hB : B (ix2 0 k) = b) :
    Gcn.combineAt A X D B i k = max ((a + (d * d) * x) + b) 0 := by
  unfold Gcn.combineAt
  rw [hA, hX, hD, hB]

/-- The first layer's output at `(i, k)`. -/
theorem x1_value (hr : Gcn.InRange (aEI m c)) (i : Fin 50000) (k : Fin 128) :
    kX1 m ρ c (ix2 i k)
      = Gcn.layer (kDinv m ρ c) (fun e => kEw m ρ c (ix1 e)) (Gcn.src (aEI m c)) (Gcn.dst (aEI m c))
          (fun i k => kXl1 m ρ c (ix2 i k)) (aB1 m c) i k := by
  have e : kX1 m ρ c = ((dat2 (F := Ideal) (V16 m ρ) c).arrAt 4 cfg2.N : S50000x128.Idx → EReal) := W17_arr m ρ c 4
  have hX : (W16 m ρ c (Proc.devRef .tc main_v35) : Gcn.A2 50000 128) (ix2 i k) = kXl1 m ρ c (ix2 i k) :=
    congrFun (l1_W16_xl m ρ c) (ix2 i k)
  have hD : (W16 m ρ c (Proc.devRef .tc main_v30) : Gcn.A2 50000 1) (ix2 i 0) = kDinv m ρ c (ix1 i) :=
    (congrFun (l1_W16_dcol m ρ c) (ix2 i 0)).trans (dcol_value m ρ c i)
  refine (congrFun e (ix2 i k)).trans ((region2_value (V16 m ρ) c i k).trans ?_)
  unfold Gcn.layer
  exact l1_combine_eq i k (l1_W16_agg m ρ c hr i k) hX hD (l1_W16_bias m ρ c k)

end Cert.KernelIdeal.Gen

end
-- ==== Proof.Region5Value.lean ====
/- What the head's region leaves in its output array, entry by entry, whatever the region finds in its inputs. -/
import proofs.«404812_j66486093742317_1_alg».proof.Proof.KernelKeep
import Idealize.ShloMosaic.Lib.Pipeline.Value
import Idealize.ShloMosaic.PureOps.Ideal.Laws

noncomputable section

open scoped BigOperators

namespace Cert.KernelIdeal.Gen

open Idealize.ShloMosaic Idealize.ShloMosaic.TcCoe Idealize.ShloMosaic.Tactic Idealize.SL.Sem Idealize.ShloMosaic.ValueIdx
open Idealize.ShloMosaic.Pipeline (Dat Cfg Window)

/-- The zero offsets of a whole-buffer access, as a constant function. -/
theorem head_zero_offsets : (![0, 0] : Fin 2 → Nat) = fun _ => 0 := funext fun a => by fin_cases a <;> rfl

/-! ## The product of a block of rows with the transposed weight, read at an entry

The four coordinate facts of the product's operand indices: at output entry `i` and contraction index `q`, the left
operand is read at row `i 0`, column `q`, the right operand at row `q`, column `i 1`. -/

theorem head_lhs_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem head_lhs_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem head_rhs_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem head_rhs_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- A [5000, 128] matrix times a [128, 2] matrix, added into zeros, at (p, q): the sum over the shared axis. -/
theorem head_mm_apply {φ₁ φ₂ : FTy} (L : FVec Ideal S5000x128 φ₁) (R : FVec Ideal S128x2 φ₂) (p : Fin 5000) (q : Fin 2) :
    matmul dot_S5000x128_S128x2_S5000x2_1_0_0_1_n_n none L R (constant (F := Ideal) S5000x2 .f32 0x00000000#32) (ix2 p q)
      = ∑ k : Fin 128, L (ix2 p k) * R (ix2 k q) := by
  show FloatOps.matmul dot_S5000x128_S128x2_S5000x2_1_0_0_1_n_n none L R (constant (F := Ideal) S5000x2 .f32 0x00000000#32) (ix2 p q) = _
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k := funext fun a => Fin.ext (by
    match a with
    | ⟨0, _⟩ => exact head_lhs_0 _ _
    | ⟨1, _⟩ => exact (head_lhs_1 _ _).trans hk)
  have er : dot_S5000x128_S128x2_S5000x2_1_0_0_1_n_n.rhsIdx (ix2 p q) ((contrEquiv1 dot_S5000x128_S128x2_S5000x2_1_0_0_1_n_n 128 rfl rfl).symm k) = ix2 k q := funext fun a => Fin.ext (by
    match a with
    | ⟨0, _⟩ => exact (head_rhs_0 _ _).trans hk
    | ⟨1, _⟩ => exact head_rhs_1 _ _)
  rw [el, er]

/-- The [2, 128] weight transposed, at (k, q): the weight at (q, k). -/
theorem head_transpose_apply {α : Type} (x : S2x128.Idx → α) (h : S2x128.Transposes [1, 0] S128x2) (k : Fin 128) (q : Fin 2) :
    transpose S128x2 [1, 0] x h (ix2 k q) = x (ix2 q k) :=
  transpose_apply [1, 0] x h (ix2 k q) (ix2 q k) (fun b => match b with
    | ⟨0, _⟩ => rfl
    | ⟨1, _⟩ => rfl)

/-- The bias row [1, 2] repeated down 5000 rows, at (p, q): the row at q. -/
theorem head_bias_apply {α : Type} (v : S1x2.Idx → α) (h : S1x2.Broadcasts S5000x2) (p : Fin 5000) (q : Fin 2) :
    broadcastTo S5000x2 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The head's body at row `r`, column `q` of its block: the row of features against row `q` of the weight, plus the
    bias entry, through the logistic. -/
theorem head_pay_apply (x0 : Vec Ideal S5000x128 .f32) (x3 : Vec Ideal S2x128 .f32) (x7 : Vec Ideal S1x2 .f32)
    (r : Fin 5000) (q : Fin 2) :
    (k5_pay1 x0 x3 x7 : S5000x2.Idx → EReal) (ix2 r q)
      = Ideal.logistic ((∑ k : Fin 128, x0 (ix2 r k) * x3 (ix2 q k)) + x7 (ix2 0 q)) := by
  unfold k5_pay1
  simp only [shapeCast_self]
  show Ideal.logistic (matmul dot_S5000x128_S128x2_S5000x2_1_0_0_1_n_n none _ _ (constant (F := Ideal) S5000x2 .f32 0x00000000#32) (ix2 r q)
      + broadcastTo S5000x2 x7 broadcasts_S1x2_S5000x2 (ix2 r q)) = _
  rw [head_mm_apply, head_bias_apply]
  refine congrArg Ideal.logistic (congrArg₂ (· + ·) (Finset.sum_congr rfl fun k _ => ?_) rfl)
  rw [head_transpose_apply]
  rfl

/-- The same at an index not yet split in coordinates. -/
theorem head_pay_at (x0 : Vec Ideal S5000x128 .f32) (x3 : Vec Ideal S2x128 .f32) (x7 : Vec Ideal S1x2 .f32) (j : S5000x2.Idx) :
    (k5_pay1 x0 x3 x7 : S5000x2.Idx → EReal) j
      = Ideal.logistic ((∑ k : Fin 128, x0 (ix2 (j 0) k) * x3 (ix2 (j 1) k)) + x7 (ix2 0 (j 1))) :=
  (congrArg (k5_pay1 x0 x3 x7) (eq_ix2 j)).trans (head_pay_apply x0 x3 x7 (j 0) (j 1))

/-- The whole output array of the head's region as one function of its three input arrays. -/
def headG (h : Gcn.A2 50000 128) (Wl : Gcn.A2 2 128) (bl : Gcn.A2 1 2) : S50000x2.Idx → EReal :=
  fun y => Ideal.logistic ((∑ k : Fin 128, h (ix2 (y 0) k) * Wl (ix2 (y 1) k)) + bl (ix2 0 (y 1)))

/-- The body's formula read at the places of the input windows' blocks is the whole-array function at the output's
    place, once the input places are those the output's place names. -/
theorem head_point (h : Gcn.A2 50000 128) (Wl : Gcn.A2 2 128) (bl : Gcn.A2 1 2)
    (f0 : Fin 128 → S50000x128.Idx) (f1 : Fin 128 → S2x128.Idx) (p2 : S1x2.Idx) (p3 : S50000x2.Idx)
    (h0 : ∀ k, f0 k = ix2 (p3 0) k) (h1 : ∀ k, f1 k = ix2 (p3 1) k) (h2 : p2 = ix2 0 (p3 1)) :
    Ideal.logistic ((∑ k : Fin 128, h (f0 k) * Wl (f1 k)) + bl p2) = headG h Wl bl p3 := by
  have e0 : f0 = fun k => ix2 (p3 0) k := funext h0
  have e1 : f1 = fun k => ix2 (p3 1) k := funext h1
  subst h2 e0 e1
  rfl

/-- Where each window's block sits at grid point `t`: the row blocks at block row `t`, the weight and the bias row at the
    origin. -/
theorem head_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- What grid point `t` of region 5 writes back is block `t` of the whole-array function. -/
theorem head_flushed (c : Dev nD) (t : Fin cfg5.N) :
    (dat5 (F := Ideal) V c).flushed 3 t
      = ((cfg5.win 3).blk t).view.read (Elt Ideal) (headG (V c main_v54) (V c main_arg10) (V c main_v55)) := by
  show (cfg5.win 3).cut (grid5.coords t) ((dat5 V c).after 3 t) = _
  rw [after5_3]
  unfold out5_3
  rw [View.canon_unit_zero head_zero_offsets]
  simp only [View.ld_unit_zero (S := S5000x128) head_zero_offsets, View.ld_unit_zero (S := S2x128) head_zero_offsets,
    View.ld_unit_zero (S := S1x2) head_zero_offsets]
  obtain ⟨e00, e01, e10, e11, e20, e21, e30, e31⟩ := head_idx t
  funext j
  refine (head_pay_at (iblk5 V c 0 t) (iblk5 V c 1 t) (iblk5 V c 2 t) j).trans ?_
  have hj0 : (j 0).val < 5000 := (j 0).isLt
  have hj1 : (j 1).val < 2 := (j 1).isLt
  have h0 : ∀ k : Fin 128, ((cfg5.win 0).blk t).view.emb (ix2 (n0 := 5000) (n1 := 128) (j 0) k)
      = ix2 (n0 := 50000) (n1 := 128) ((((cfg5.win 3).blk t).view.emb j) 0) k := by
    intro k; funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * k.val = k.val; omega
  have h1 : ∀ k : Fin 128, ((cfg5.win 1).blk t).view.emb (ix2 (n0 := 2) (n1 := 128) (j 1) k)
      = ix2 (n0 := 2) (n1 := 128) ((((cfg5.win 3).blk t).view.emb j) 1) k := by
    intro k; funext a; apply Fin.ext
    match a with
    | ⟨0, _⟩ => show win5_1.index t (0 : Fin 2) * 2 + 1 * (j 1).val = win5_3.index t (1 : Fin 2) * 2 + 1 * (j 1).val; omega
    | ⟨1, _⟩ => show win5_1.index t (1 : Fin 2) * 128 + 1 * k.val = k.val; omega
  have h2 : ((cfg5.win 2).blk t).view.emb (ix2 (n0 := 1) (n1 := 2) 0 (j 1))
      = ix2 (n0 := 1) (n1 := 2) 0 ((((cfg5.win 3).blk t).view.emb j) 1) := by
    funext a; apply Fin.ext
    match a with
    | ⟨0, _⟩ => show win5_2.index t (0 : Fin 2) * 1 + 1 * 0 = 0; omega
    | ⟨1, _⟩ => show win5_2.index t (1 : Fin 2) * 2 + 1 * (j 1).val = win5_3.index t (1 : Fin 2) * 2 + 1 * (j 1).val; omega
  exact head_point (V c main_v54) (V c main_arg10) (V c main_v55)
    (fun k => ((cfg5.win 0).blk t).view.emb (ix2 (n0 := 5000) (n1 := 128) (j 0) k))
    (fun k => ((cfg5.win 1).blk t).view.emb (ix2 (n0 := 2) (n1 := 128) (j 1) k))
    (((cfg5.win 2).blk t).view.emb (ix2 (n0 := 1) (n1 := 2) 0 (j 1))) (((cfg5.win 3).blk t).view.emb j) h0 h1 h2

/-- An index of the output array lies in point `t`'s block iff each coordinate lies in the block's range. -/
theorem head_mem_blk (t : Fin cfg5.N) (i : S50000x2.Idx) :
    i ∈ ((cfg5.win 3).blk t).view.set ↔ ∀ a : Fin 2, win5_3.index t a * S5000x2.size a ≤ (i a).val
      ∧ (i a).val < win5_3.index t a * S5000x2.size a + S5000x2.size a := by
  show i ∈ ((View.whole main_v56).slice (win5_3.rect t)).set ↔ _
  rw [View.set_slice_whole, Rect.mem_set_unit]
  exact Iff.rfl

/-- Row `r` of the output lies in the block of point `r / 5000`: the ten row blocks tile the array. -/
theorem head_cover (i : S50000x2.Idx) :
    ∃ t : Fin cfg5.N, (cfg5.win 3).flush t = true ∧ i ∈ ((cfg5.win 3).blk t).view.set := by
  have hi0 : (i 0).val < 50000 := (i 0).isLt
  have hi1 : (i 1).val < 2 := (i 1).isLt
  have hN : cfg5.N = 10 := N_5
  have ht : (i 0).val / 5000 < cfg5.N := by rw [hN]; omega
  obtain ⟨-, -, -, -, -, -, e30, e31⟩ := head_idx ⟨(i 0).val / 5000, ht⟩
  refine ⟨⟨(i 0).val / 5000, ht⟩, flush5_3 _, ?_⟩
  rw [head_mem_blk]
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win5_3.index ⟨(i 0).val / 5000, ht⟩ (1 : Fin 2) * 2 ≤ (i 1).val
      ∧ (i 1).val < win5_3.index ⟨(i 0).val / 5000, ht⟩ (1 : Fin 2) * 2 + 2
    rw [e31]
    omega

/-- Entry `(i, k)` of the result after region 5. -/
theorem region5_value (c : Dev nD) (i : Fin 50000) (k : Fin 2) :
    ((dat5 (F := Ideal) V c).arrAt 3 cfg5.N : S50000x2.Idx → EReal) (ix2 i k)
      = Gcn.headAt (V c main_v54) (V c main_arg10) (V c main_v55) i k :=
  congrFun ((dat5 (F := Ideal) V c).arrAt_eq_of_cover 3 (headG (V c main_v54) (V c main_arg10) (V c main_v55))
    (fun t _ => head_flushed V c t) head_cover) (ix2 i k)

end Cert.KernelIdeal.Gen

end
-- ==== Proof.KernelLayer2.lean ====
/- The second round of message passing in the idealized kernel program, and the head: the same steps as the first
   round over the first layer's output, then the head region. -/
import proofs.«404812_j66486093742317_1_alg».proof.Proof.KernelKeep
import proofs.«404812_j66486093742317_1_alg».proof.Proof.Region1Value
import proofs.«404812_j66486093742317_1_alg».proof.Proof.Region2Value
import proofs.«404812_j66486093742317_1_alg».proof.Proof.Region5Value
import proofs.«404812_j66486093742317_1_alg».proof.Proof.KernelNorm
import proofs.«404812_j66486093742317_1_alg».proof.Proof.LibTake
import proofs.«404812_j66486093742317_1_alg».proof.Proof.LibKeepdims
import Idealize.ShloMosaic.Lib.StableHlo.Run
import Idealize.ShloMosaic.Lib.ValueLayout

noncomputable section

open scoped BigOperators

namespace Cert.KernelIdeal.Gen

open Idealize.ShloMosaic Idealize.ShloMosaic.TcCoe Idealize.ShloMosaic.Tactic Idealize.SL.Sem Idealize.ShloMosaic.ValueIdx
open Idealize.ShloMosaic.Pipeline (Dat Cfg Window)

variable (m : (ℓ : Loc nD τ sig) → Buf (Elt Ideal) ℓ) (ρ : Dev nD → PrngReg) (c : Dev nD)

/-- The second projection's weight matrix at the entry of its region is the launch argument: no stretch and no region
    between that boundary and the end writes it, and at the end it is as launched. -/
theorem l2_w17_arg8 : (W17 m ρ c (Proc.devRef .tc main_arg8) : Gcn.A2 128 128) = aW2 m c := by
  refine Eq.trans (Eq.symm ?_) (W23_main_arg8 m ρ c)
  calc W23 m ρ c (Proc.devRef .tc main_arg8)
    _ = W22 m ρ c (Proc.devRef .tc main_arg8) := W23_of_ne m ρ c main_arg8 (by decide)
    _ = W21 m ρ c (Proc.devRef .tc main_arg8) := by keep_host
    _ = W20 m ρ c (Proc.devRef .tc main_arg8) := W21_of_ne m ρ c main_arg8 (by decide)
    _ = W19 m ρ c (Proc.devRef .tc main_arg8) := by keep_host
    _ = W18 m ρ c (Proc.devRef .tc main_arg8) := by keep_host
    _ = W17 m ρ c (Proc.devRef .tc main_arg8) :=
        (W18_arr m ρ c 1).trans (((dat3 (V17 m ρ) c).arrAt_in 1 rfl _).trans (A_eq3 (V17 m ρ) c 1))

/-- The second projection at `(i, k)`. -/
theorem xl2_value (i : Fin 50000) (k : Fin 128) : kXl2 m ρ c (ix2 i k) = Gcn.lin (kX1 m ρ c) (aW2 m c) i k := by
  have h : kXl2 m ρ c = ((dat3 (F := Ideal) (V17 m ρ) c).arrAt 2 cfg3.N : S50000x128.Idx → EReal) := W18_arr m ρ c 2
  rw [h, region3_value (V17 m ρ) c i k]
  exact congrArg (fun W : Gcn.A2 128 128 => Gcn.lin (kX1 m ρ c) W i k) (l2_w17_arg8 m ρ c)

/-! ## The second take, scatter-add and bias row, read at an index -/

/-! Pointwise reads of the layouts a row take uses. -/

theorem l2_bcast_vec_col {α : Type} (v : S600000.Idx → α) (e : Fin 600000) :
    broadcastInDim S600000x1 ![0] bcast_S600000_S600000x1_0 v (ix2 e (0 : Fin 1)) = v (ix1 e) :=
  broadcastInDim_apply _ _ v _ (ix1 e) (fun a => match a with | ⟨0, _⟩ => rfl)

theorem l2_bcast_vec_rows {α : Type} (v : S600000.Idx → α) (e : Fin 600000) (k : Fin 128) :
    broadcastInDim S600000x128 ![0] bcast_S600000_S600000x128_0 v (ix2 e k) = v (ix1 e) :=
  broadcastInDim_apply _ _ v _ (ix1 e) (fun a => match a with | ⟨0, _⟩ => rfl)

theorem l2_bcast_col_rows {α : Type} (v : S600000x1.Idx → α) (e : Fin 600000) (k : Fin 128) :
    broadcastInDim S600000x128 ![0, 1] bcast_S600000x1_S600000x128_0_1 v (ix2 e k) = v (ix2 e (0 : Fin 1)) :=
  broadcastInDim_apply _ _ v _ (ix2 e (0 : Fin 1)) (fun a => match a with | ⟨0, _⟩ => rfl | ⟨1, _⟩ => rfl)

theorem l2_slt_zero {v : BitVec 32} (h : 0 ≤ v.toInt) : IntOp.cmpi .slt v 0#32 = 0#1 := by
  have h0 : (0#32 : BitVec 32).toInt = 0 := by decide
  have : ¬ (v.toInt < (0#32 : BitVec 32).toInt) := by rw [h0]; omega
  show BitVec.ofBool (decide (v.toInt < (0#32 : BitVec 32).toInt)) = 0#1
  rw [decide_eq_false this]; rfl

theorem l2_sge_zero {v : BitVec 32} (h : 0 ≤ v.toInt) : IntOp.cmpi .sge v 0#32 = 1#1 := by
  have h0 : (0#32 : BitVec 32).toInt = 0 := by decide
  have : (0#32 : BitVec 32).toInt ≤ v.toInt := by rw [h0]; exact h
  show BitVec.ofBool (decide ((0#32 : BitVec 32).toInt ≤ v.toInt)) = 1#1
  rw [decide_eq_true this]; rfl

theorem l2_sle_top {v : BitVec 32} (h : v.toInt < 50000) : IntOp.cmpi .sle v 49999#32 = 1#1 := by
  have h0 : (49999#32 : BitVec 32).toInt = 49999 := by decide
  have : v.toInt ≤ (49999#32 : BitVec 32).toInt := by rw [h0]; omega
  show BitVec.ofBool (decide (v.toInt ≤ (49999#32 : BitVec 32).toInt)) = 1#1
  rw [decide_eq_true this]; rfl

/-- An and-reduction of a one-column bit matrix from 1 reads, at row `e`, the column's entry. -/
theorem l2_reduce_and_col (x : IVec S600000x1 1) (e : Fin 600000) :
    Host.reduce IntOp.andi x (constantI S_ 1 1#1) reducesTo_S600000x1_S600000_d1 h_S_ (ix1 e) = x (ix2 e (0 : Fin 1)) := by
  have hR : S600000x1.Reduces [1] S600000 := by decide
  have hf : ∀ f : Fin 1 → BitVec 1, (Finset.univ : Finset (Fin 1)).fold IntOp.andi 1#1 f = IntOp.andi (f 0) 1#1 := fun f => by
    rw [show (Finset.univ : Finset (Fin 1)) = {0} from rfl, Finset.fold_singleton]
  refine (Host.reduce_eq_fold_single IntOp.andi x _ reducesTo_S600000x1_S600000_d1 hR h_S_ (ix1 e)).trans ?_
  refine (hf (x ∘ hR.lift (ix1 e))).trans ?_
  have hl : hR.lift (ix1 e) (0 : Fin 1) = ix2 e (0 : Fin 1) := LibKeepdims.lift_row hR e 0
  refine (congrArg (fun b : BitVec 1 => IntOp.andi b 1#1) (congrArg x hl)).trans ?_
  rcases BitVec.eq_zero_or_eq_one (x (ix2 e (0 : Fin 1))) with h | h <;> rw [h] <;> decide

/-- The column of row positions a take reads: a negative position moved up once by the table's height, the vector set
    as a column. -/
def l2TakeCol (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- The bit that says a row position lies inside the table. -/
def l2TakeMask (col : IVec S600000x1 32) : IVec S600000 1 :=
  Host.reduce IntOp.andi
    (andi (cmpi .sge col (broadcastInDim S600000x1 ![] bcast_S_S600000x1 (constantI S_ 32 0#32)))
      (cmpi .sle col (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- A take of rows with a fill: the gathered row where the position lies inside the table, the fill word elsewhere. -/
def l2TakeRows (x : S50000x128.Idx → EReal) (idx : IVec S600000 32) : S600000x128.Idx → EReal :=
  select (broadcastInDim S600000x128 ![0] bcast_S600000_S600000x128_0 (l2TakeMask (l2TakeCol idx)))
    (Host.gather gather_S50000x128_S600000x1_S600000x128_1_0_n_n_0_1_1128 x (l2TakeCol idx))
    (broadcastInDim S600000x128 ![] bcast_S_S600000x128 (constant (F := Ideal) S_ .f32 0x7FC00000#32))

theorem l2_takeCol_apply (idx : IVec S600000 32) (e : Fin 600000) (h : 0 ≤ (idx (ix1 e)).toInt) :
    l2TakeCol idx (ix2 e (0 : Fin 1)) = idx (ix1 e) := by
  unfold l2TakeCol
  rw [l2_bcast_vec_col, select_apply]
  show Scalar.select (IntOp.cmpi .slt (idx (ix1 e)) 0#32) _ _ = _
  rw [l2_slt_zero h, select_zero]

theorem l2_takeMask_apply (col : IVec S600000x1 32) (e : Fin 600000)
    (h : 0 ≤ (col (ix2 e (0 : Fin 1))).toInt ∧ (col (ix2 e (0 : Fin 1))).toInt < 50000) :
    l2TakeMask col (ix1 e) = 1#1 := by
  unfold l2TakeMask
  rw [l2_reduce_and_col]
  show IntOp.andi (IntOp.cmpi .sge (col (ix2 e (0 : Fin 1))) 0#32) (IntOp.cmpi .sle (col (ix2 e (0 : Fin 1))) 49999#32) = 1#1
  rw [l2_sge_zero h.1, l2_sle_top h.2]; decide

/-- At a position inside the table the take reads the table's row there. -/
theorem l2_takeRows_apply (x : S50000x128.Idx → EReal) (idx : IVec S600000 32) (e : Fin 600000) (k : Fin 128)
    (h : 0 ≤ (idx (ix1 e)).toInt ∧ (idx (ix1 e)).toInt < 50000) :
    l2TakeRows x idx (ix2 e k) = x (ix2 (Gcn.node (idx (ix1 e))) k) := by
  have hc := l2_takeCol_apply idx e h.1
  unfold l2TakeRows
  rw [select_apply, l2_bcast_vec_rows, l2_takeMask_apply _ e (by rw [hc]; exact h), select_one,
    LibTake.gather_rows_apply _ rfl rfl rfl rfl rfl x _ e k (by decide)]
  refine congrArg (fun r : Fin 50000 => x (ix2 r k)) (Fin.ext ?_)
  show min (l2TakeCol idx (ix2 e (0 : Fin 1))).toInt.toNat (50000 - 1) = min (idx (ix1 e)).toInt.toNat 49999
  rw [hc]

/-- The scatter-add of the scaled taken rows into zeros. -/
def l2Agg (idx : IVec S600000 32) (nrm : S600000.Idx → EReal) (tk : S600000x128.Idx → EReal) : S50000x128.Idx → EReal :=
  Ideal.hostScatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 idx)
    (mulf (F := Ideal) (φ := .f32) (broadcastInDim S600000x128 ![0, 1] bcast_S600000x1_S600000x128_0_1
      (broadcastInDim S600000x1 ![0] bcast_S600000_S600000x1_0 nrm)) tk)

theorem l2_agg_apply (idx : IVec S600000 32) (nrm : S600000.Idx → EReal) (tk : S600000x128.Idx → EReal)
    (i : Fin 50000) (k : Fin 128) :
    l2Agg idx nrm tk (ix2 i k)
      = 0 + ∑ e ∈ Finset.univ.filter (fun e : Fin 600000 => (idx (ix1 e)).toInt = (i.val : ℤ)), nrm (ix1 e) * tk (ix2 e k) := by
  unfold l2Agg
  rw [LibTake.scatterAdd_rows_apply _ rfl rfl rfl rfl]
  refine congrArg₂ (fun a b : EReal => a + b) Ideal.ofBits_zero_f32 ?_
  refine Finset.sum_congr (Finset.filter_congr fun e _ => by rw [l2_bcast_vec_col]) fun e _ => ?_
  rw [mulf_apply, l2_bcast_col_rows, l2_bcast_vec_col]

/-- Contents sent to a buffer's own type and back are the contents. -/
theorem l2_ofBuf_toBuf {T : BufTy} (x : StableHlo.TRef sig T) (v : T.Contents (Elt Ideal)) : x.ofBuf (x.toBuf v) = v := by
  obtain ⟨r, rfl, h1, h2⟩ := x
  rfl

/-- Reading the three buffers of the take at their printed types changes nothing. -/
theorem l2_cast_v1 (u : (Proc.devRef (τ := τ) .tc main_v1).ty.Contents (Elt Ideal)) :
    (StableHlo.TRef.of main_v1 : StableHlo.TRef sig ⟨S600000, .i32⟩).ofBuf u = u := rfl
theorem l2_cast_v45 (u : (Proc.devRef (τ := τ) .tc main_v45).ty.Contents (Elt Ideal)) :
    (StableHlo.TRef.of main_v45 : StableHlo.TRef sig ⟨S50000x128, .f32⟩).ofBuf u = u := rfl
theorem l2_cast_v46 (u : (Proc.devRef (τ := τ) .tc main_v46).ty.Contents (Elt Ideal)) :
    (StableHlo.TRef.of main_v46 : StableHlo.TRef sig ⟨S600000x128, .f32⟩).ofBuf u = u := rfl

/-- What the take's stretch leaves in its result, every buffer read at its printed type. -/
theorem l2_v46_cast (V : Valuation τ sig (Elt Ideal)) :
    (StableHlo.TRef.of main_v46 : StableHlo.TRef sig ⟨S600000x128, .f32⟩).ofBuf (StableHlo.after hostOps4 V (Proc.devRef .tc main_v46))
      = l2TakeRows ((StableHlo.TRef.of main_v45 : StableHlo.TRef sig ⟨S50000x128, .f32⟩).ofBuf (V (Proc.devRef .tc main_v45)))
          ((StableHlo.TRef.of main_v1 : StableHlo.TRef sig ⟨S600000, .i32⟩).ofBuf (V (Proc.devRef .tc main_v1))) := by
  after_results_simp
  simp only [l2_ofBuf_toBuf]
  unfold l2TakeRows l2TakeMask l2TakeCol
  rfl

/-- The take's stretch leaves the filled take of the projection's rows at the source column. -/
theorem l2_v46_term (V : Valuation τ sig (Elt Ideal)) :
    (StableHlo.after hostOps4 V (Proc.devRef .tc main_v46) : S600000x128.Idx → EReal)
      = l2TakeRows (V (Proc.devRef .tc main_v45)) (V (Proc.devRef .tc main_v1)) := by
  have h := l2_v46_cast V
  rw [l2_cast_v46, l2_cast_v45, l2_cast_v1] at h
  exact h

theorem l2_v52_term (V : Valuation τ sig (Elt Ideal)) :
    (StableHlo.after hostOps4_1 V (Proc.devRef .tc main_v52) : S50000x128.Idx → EReal)
      = l2Agg (V (Proc.devRef .tc main_v3)) (V (Proc.devRef .tc main_v34)) (V (Proc.devRef .tc main_v46)) := by
  after_results_simp
  unfold l2Agg
  rfl

theorem l2_v53_term (V : Valuation τ sig (Elt Ideal)) :
    (StableHlo.after hostOps4_1 V (Proc.devRef .tc main_v53) : S1x128.Idx → EReal)
      = shapeCast S1x128 (V (Proc.devRef .tc main_arg9) : S128.Idx → EReal) shapeCasts_S128_S1x128 := by
  after_results_simp
  rfl

/-! ## The buffers the second round reads, carried from the boundaries where they were written -/

/-- The source column before the second take is the one the first stretch wrote. -/
theorem l2_w18_v1 : (W18 m ρ c (Proc.devRef .tc main_v1) : IVec S600000 32) = kSrcCol m ρ c :=
  calc W18 m ρ c (Proc.devRef .tc main_v1)
    _ = W17 m ρ c (Proc.devRef .tc main_v1) := W18_of_ne m ρ c main_v1 (by decide)
    _ = W16 m ρ c (Proc.devRef .tc main_v1) := W17_of_ne m ρ c main_v1 (by decide)
    _ = W15 m ρ c (Proc.devRef .tc main_v1) := by keep_host
    _ = W14 m ρ c (Proc.devRef .tc main_v1) := by keep_host
    _ = W13 m ρ c (Proc.devRef .tc main_v1) := W14_of_ne m ρ c main_v1 (by decide)
    _ = W12 m ρ c (Proc.devRef .tc main_v1) := by keep_host
    _ = W11 m ρ c (Proc.devRef .tc main_v1) := by keep_host
    _ = W10 m ρ c (Proc.devRef .tc main_v1) := by keep_host
    _ = W9 m ρ c (Proc.devRef .tc main_v1) := by keep_host
    _ = W8 m ρ c (Proc.devRef .tc main_v1) := by keep_host
    _ = W7 m ρ c (Proc.devRef .tc main_v1) := by keep_host
    _ = W6 m ρ c (Proc.devRef .tc main_v1) := by keep_host
    _ = W5 m ρ c (Proc.devRef .tc main_v1) := by keep_host
    _ = W4 m ρ c (Proc.devRef .tc main_v1) := W5_of_ne m ρ c main_v1 (by decide)
    _ = W3 m ρ c (Proc.devRef .tc main_v1) := by keep_host
    _ = W2 m ρ c (Proc.devRef .tc main_v1) := by keep_host
    _ = W1 m ρ c (Proc.devRef .tc main_v1) := by keep_host

/-- The target column before the second scatter-add is the one the first stretch wrote. -/
theorem l2_w19_v3 : (W19 m ρ c (Proc.devRef .tc main_v3) : IVec S600000 32) = kDstCol m ρ c :=
  calc W19 m ρ c (Proc.devRef .tc main_v3)
    _ = W18 m ρ c (Proc.devRef .tc main_v3) := by keep_host
    _ = W17 m ρ c (Proc.devRef .tc main_v3) := W18_of_ne m ρ c main_v3 (by decide)
    _ = W16 m ρ c (Proc.devRef .tc main_v3) := W17_of_ne m ρ c main_v3 (by decide)
    _ = W15 m ρ c (Proc.devRef .tc main_v3) := by keep_host
    _ = W14 m ρ c (Proc.devRef .tc main_v3) := by keep_host
    _ = W13 m ρ c (Proc.devRef .tc main_v3) := W14_of_ne m ρ c main_v3 (by decide)
    _ = W12 m ρ c (Proc.devRef .tc main_v3) := by keep_host
    _ = W11 m ρ c (Proc.devRef .tc main_v3) := by keep_host
    _ = W10 m ρ c (Proc.devRef .tc main_v3) := by keep_host
    _ = W9 m ρ c (Proc.devRef .tc main_v3) := by keep_host
    _ = W8 m ρ c (Proc.devRef .tc main_v3) := by keep_host
    _ = W7 m ρ c (Proc.devRef .tc main_v3) := by keep_host
    _ = W6 m ρ c (Proc.devRef .tc main_v3) := by keep_host
    _ = W5 m ρ c (Proc.devRef .tc main_v3) := by keep_host
    _ = W4 m ρ c (Proc.devRef .tc main_v3) := W5_of_ne m ρ c main_v3 (by decide)
    _ = W3 m ρ c (Proc.devRef .tc main_v3) := by keep_host
    _ = W2 m ρ c (Proc.devRef .tc main_v3) := by keep_host
    _ = W1 m ρ c (Proc.devRef .tc main_v3) := by keep_host

/-- The normalised weights before the second scatter-add are as they were written. -/
theorem l2_w19_v34 : (W19 m ρ c (Proc.devRef .tc main_v34) : Gcn.A1 600000) = kNorm m ρ c :=
  calc W19 m ρ c (Proc.devRef .tc main_v34)
    _ = W18 m ρ c (Proc.devRef .tc main_v34) := by keep_host
    _ = W17 m ρ c (Proc.devRef .tc main_v34) := W18_of_ne m ρ c main_v34 (by decide)
    _ = W16 m ρ c (Proc.devRef .tc main_v34) := W17_of_ne m ρ c main_v34 (by decide)
    _ = W15 m ρ c (Proc.devRef .tc main_v34) := by keep_host
    _ = W14 m ρ c (Proc.devRef .tc main_v34) := by keep_host
    _ = W13 m ρ c (Proc.devRef .tc main_v34) := W14_of_ne m ρ c main_v34 (by decide)

/-- The inverse-square-root degrees as a column at the entry of the second combine region (the first combine region only
    reads them). -/
theorem l2_w20_v30 : (W20 m ρ c (Proc.devRef .tc main_v30) : Gcn.A2 50000 1) = kDcol m ρ c :=
  calc W20 m ρ c (Proc.devRef .tc main_v30)
    _ = W19 m ρ c (Proc.devRef .tc main_v30) := by keep_host
    _ = W18 m ρ c (Proc.devRef .tc main_v30) := by keep_host
    _ = W17 m ρ c (Proc.devRef .tc main_v30) := W18_of_ne m ρ c main_v30 (by decide)
    _ = W16 m ρ c (Proc.devRef .tc main_v30) := (W17_arr m ρ c 2).trans (((dat2 (V16 m ρ) c).arrAt_in 2 rfl _).trans (A_eq2 (V16 m ρ) c 2))
    _ = W15 m ρ c (Proc.devRef .tc main_v30) := by keep_host
    _ = W14 m ρ c (Proc.devRef .tc main_v30) := by keep_host
    _ = W13 m ρ c (Proc.devRef .tc main_v30) := W14_of_ne m ρ c main_v30 (by decide)
    _ = W12 m ρ c (Proc.devRef .tc main_v30) := by keep_host
    _ = W11 m ρ c (Proc.devRef .tc main_v30) := by keep_host
    _ = W10 m ρ c (Proc.devRef .tc main_v30) := by keep_host

/-- The second projection at the entry of the second combine region. -/
theorem l2_w20_v45 : (W20 m ρ c (Proc.devRef .tc main_v45) : Gcn.A2 50000 128) = kXl2 m ρ c :=
  calc W20 m ρ c (Proc.devRef .tc main_v45)
    _ = W19 m ρ c (Proc.devRef .tc main_v45) := by keep_host
    _ = W18 m ρ c (Proc.devRef .tc main_v45) := by keep_host

/-- The second bias before the stretch that sets it as a row is the launch argument. -/
theorem l2_w19_arg9 : (W19 m ρ c (Proc.devRef .tc main_arg9) : Gcn.A1 128) = aB2 m c := by
  refine Eq.trans (Eq.symm ?_) (W23_main_arg9 m ρ c)
  calc W23 m ρ c (Proc.devRef .tc main_arg9)
    _ = W22 m ρ c (Proc.devRef .tc main_arg9) := W23_of_ne m ρ c main_arg9 (by decide)
    _ = W21 m ρ c (Proc.devRef .tc main_arg9) := by keep_host
    _ = W20 m ρ c (Proc.devRef .tc main_arg9) := W21_of_ne m ρ c main_arg9 (by decide)
    _ = W19 m ρ c (Proc.devRef .tc main_arg9) := by keep_host

/-- Under the range condition a word names node `i` exactly when its signed value is `i`. -/
theorem l2_node_iff {w : BitVec 32} (h : 0 ≤ w.toInt ∧ w.toInt < 50000) (i : Fin 50000) :
    w.toInt = (i.val : ℤ) ↔ Gcn.node w = i := by
  have hv := Gcn.node_val_of_range h
  constructor
  · intro e; exact Fin.ext (by omega)
  · intro e; rw [← e]; exact hv.symm

/-- The combine kernel's entry is the layer's, once the aggregated messages, the degree column and the bias row are read
    as the layer reads them. -/
theorem l2_combine_eq_layer (agg xl : Gcn.A2 50000 128) (dcol : Gcn.A2 50000 1) (brow : Gcn.A2 1 128)
    (D : Gcn.A1 50000) (w : Fin 600000 → EReal) (s d : Fin 600000 → Fin 50000) (b : Gcn.A1 128) (i : Fin 50000) (k : Fin 128)
    (hagg : agg (ix2 i k) = 0 + ∑ e ∈ Finset.univ.filter (fun e => d e = i), Gcn.norm D w s d e * xl (ix2 (s e) k))
    (hd : dcol (ix2 i 0) = D (ix1 i)) (hb : brow (ix2 0 k) = b (ix1 k)) :
    Gcn.combineAt agg xl dcol brow i k = Gcn.layer D w s d (fun i k => xl (ix2 i k)) b i k := by
  unfold Gcn.combineAt Gcn.layer
  rw [hagg, hd, hb]

/-- The second layer's output at `(i, k)`. -/
theorem x2_value (hr : Gcn.InRange (aEI m c)) (i : Fin 50000) (k : Fin 128) :
    kX2 m ρ c (ix2 i k)
      = Gcn.layer (kDinv m ρ c) (fun e => kEw m ρ c (ix1 e)) (Gcn.src (aEI m c)) (Gcn.dst (aEI m c))
          (fun i k => kXl2 m ρ c (ix2 i k)) (aB2 m c) i k := by
  have h : kX2 m ρ c = ((dat4 (F := Ideal) (V20 m ρ) c).arrAt 4 cfg4.N : S50000x128.Idx → EReal) := W21_arr m ρ c 4
  have e45 : (V20 m ρ c main_v45 : Gcn.A2 50000 128) = kXl2 m ρ c := l2_w20_v45 m ρ c
  have a46 : (W19 m ρ c (Proc.devRef .tc main_v46) : S600000x128.Idx → EReal) = l2TakeRows (kXl2 m ρ c) (kSrcCol m ρ c) := by
    refine (l2_v46_term (W18 m ρ c)).trans ?_
    rw [l2_w18_v1]
  have t52 : (V20 m ρ c main_v52 : S50000x128.Idx → EReal)
      = l2Agg (kDstCol m ρ c) (kNorm m ρ c) (l2TakeRows (kXl2 m ρ c) (kSrcCol m ρ c)) := by
    refine (l2_v52_term (W19 m ρ c)).trans ?_
    rw [l2_w19_v3, l2_w19_v34, a46]
  have t53 : (V20 m ρ c main_v53 : S1x128.Idx → EReal)
      = shapeCast S1x128 (aB2 m c : S128.Idx → EReal) shapeCasts_S128_S1x128 := by
    refine (l2_v53_term (W19 m ρ c)).trans ?_
    rw [l2_w19_arg9]
  have e30 : (V20 m ρ c main_v30 : Gcn.A2 50000 1) = kDcol m ρ c := l2_w20_v30 m ρ c
  rw [h, region4_value (V20 m ρ) c i k, e45, t52, t53, e30]
  refine l2_combine_eq_layer _ _ _ _ _ _ _ _ _ i k ?_ (dcol_value m ρ c i) (shapeCast_a_1a_apply _ _ 0 k)
  rw [l2_agg_apply]
  refine congrArg (fun t : EReal => 0 + t) ?_
  refine Finset.sum_congr (Finset.filter_congr fun e _ => ?_) fun e _ => ?_
  · rw [dstCol_value]
    exact l2_node_iff (hr (ix2 1 e)) i
  · rw [norm_value m ρ c hr e,
      l2_takeRows_apply (kXl2 m ρ c) (kSrcCol m ρ c) e k (by rw [srcCol_value]; exact hr (ix2 0 e)), srcCol_value]
    rfl

/-- The head's weight matrix at the entry of its region is the launch argument (the region only reads it). -/
theorem l2_w22_arg10 : (W22 m ρ c (Proc.devRef .tc main_arg10) : Gcn.A2 2 128) = aWl m c := by
  refine Eq.trans (Eq.symm ?_) (W23_main_arg10 m ρ c)
  exact (W23_arr m ρ c 1).trans (((dat5 (V22 m ρ) c).arrAt_in 1 rfl _).trans (A_eq5 (V22 m ρ) c 1))

/-- The head's bias before the last stretch is the launch argument. -/
theorem l2_w21_arg11 : (W21 m ρ c (Proc.devRef .tc main_arg11) : Gcn.A1 2) = aBl m c := by
  refine Eq.trans (Eq.symm ?_) (W23_main_arg11 m ρ c)
  calc W23 m ρ c (Proc.devRef .tc main_arg11)
    _ = W22 m ρ c (Proc.devRef .tc main_arg11) := W23_of_ne m ρ c main_arg11 (by decide)
    _ = W21 m ρ c (Proc.devRef .tc main_arg11) := by keep_host

/-- The head's bias as a row: entry `(0, k)` is the bias at `k`. -/
theorem l2_w22_v55 (k : Fin 2) : (W22 m ρ c (Proc.devRef .tc main_v55) : Gcn.A2 1 2) (ix2 0 k) = aBl m c (ix1 k) := by
  have e : (W22 m ρ c (Proc.devRef .tc main_v55) : S1x2.Idx → EReal)
      = shapeCast S1x2 (W21 m ρ c (Proc.devRef .tc main_arg11) : S2.Idx → EReal) shapeCasts_S2_S1x2 := by
    show StableHlo.after hostOps5 (W21 m ρ c) (Proc.devRef .tc main_v55) = _
    after_results
    rfl
  rw [e, l2_w21_arg11]
  exact shapeCast_a_1a_apply _ _ 0 k

/-- The head with its bias read as a row is the head with its bias read as a vector. -/
theorem l2_headAt_eq_headOut (h : Gcn.A2 50000 128) (Wl : Gcn.A2 2 128) (bl : Gcn.A1 2) (br : Gcn.A2 1 2)
    (hb : ∀ k : Fin 2, br (ix2 0 k) = bl (ix1 k)) (i : Fin 50000) (k : Fin 2) :
    Gcn.headAt h Wl br i k = Gcn.headOut h Wl bl i k := by
  unfold Gcn.headAt Gcn.headOut
  rw [hb]

/-- The result at `(i, k)`. -/
theorem out_value (i : Fin 50000) (k : Fin 2) : kOut m ρ c (ix2 i k) = Gcn.headOut (kX2 m ρ c) (aWl m c) (aBl m c) i k := by
  have h : kOut m ρ c = ((dat5 (F := Ideal) (V22 m ρ) c).arrAt 3 cfg5.N : S50000x2.Idx → EReal) := W23_arr m ρ c 3
  have e1 : (V22 m ρ c main_v54 : Gcn.A2 50000 128) = kX2 m ρ c := by keep_host
  have e2 : (V22 m ρ c main_arg10 : Gcn.A2 2 128) = aWl m c := l2_w22_arg10 m ρ c
  rw [h, region5_value (V22 m ρ) c i k, e1, e2]
  exact l2_headAt_eq_headOut _ _ _ _ (l2_w22_v55 m ρ c) i k

end Cert.KernelIdeal.Gen

end
-- ==== Proof.GcnBridge.lean ====
/-
  Two rearrangements, over the extended reals, with nothing of either program in sight.

  (1) A sum over 256 columns is the sum over the first 128 plus the sum over the last 128 (the edge perceptron's first
  layer: one product with the concatenated end-point rows against two products with the halves of the weight matrix).

  (2) The self loops listed as edges. Extend the 600000 edges by 50000 more, edge `600000 + n` going from node `n` to
  node `n` with weight one. The messages that end in node `i` are then those of the real edges that end in `i` and the
  single self loop of `i`, whose normalised weight `D i · 1 · D i` is `D i · D i`. Addition of extended reals is
  commutative and associative, so the regrouping costs no finiteness.
-/
import proofs.«404812_j66486093742317_1_alg».proof.Proof.GcnSpec

noncomputable section

open scoped BigOperators

namespace Cert.Gcn

open Idealize.ShloMosaic Idealize.ShloMosaic.ValueIdx

/-- A sum over 256 is the sum over the first 128 plus the sum over the last 128. -/
theorem sum_256_split (f : Fin 256 → EReal) :
    ∑ k : Fin 256, f k = (∑ k : Fin 128, f ⟨k.val, by omega⟩) + ∑ k : Fin 128, f ⟨128 + k.val, by omega⟩ :=
  Fin.sum_univ_add (M := EReal) (a := 128) (b := 128) f

/-- End point of edge `j` of the extended list: a real edge's, or the node itself for a self loop. -/
def endAll (s : Fin 600000 → Fin 50000) (j : Fin 650000) : Fin 50000 :=
  if h : j.val < 600000 then s ⟨j.val, h⟩ else ⟨j.val - 600000, by omega⟩

/-- Weight of edge `j` of the extended list: a real edge's, or one for a self loop. -/
def wAll (w : Fin 600000 → EReal) (j : Fin 650000) : EReal :=
  if h : j.val < 600000 then w ⟨j.val, h⟩ else 1

/-- One round of message passing at `(i, c)` with the self loops listed as edges. -/
def layerAll (D : A1 50000) (w : Fin 600000 → EReal) (s d : Fin 600000 → Fin 50000) (L : Fin 50000 → Fin 128 → EReal)
    (b : A1 128) (i : Fin 50000) (c : Fin 128) : EReal :=
  max ((0 + ∑ j ∈ Finset.univ.filter (fun j : Fin 650000 => endAll d j = i),
          ((D (ix1 (endAll s j)) * wAll w j) * D (ix1 (endAll d j))) * L (endAll s j) c) + b (ix1 c)) 0

/-- On a real edge the extended end point is the edge's own. -/
theorem endAll_castAdd (s : Fin 600000 → Fin 50000) (e : Fin 600000) :
    endAll s (Fin.castAdd 50000 e) = s e := by
  have h : (Fin.castAdd 50000 e : Fin (600000 + 50000)).val < 600000 := e.isLt
  unfold endAll
  rw [dif_pos h]
  rfl

/-- On a real edge the extended weight is the edge's own. -/
theorem wAll_castAdd (w : Fin 600000 → EReal) (e : Fin 600000) :
    wAll w (Fin.castAdd 50000 e) = w e := by
  have h : (Fin.castAdd 50000 e : Fin (600000 + 50000)).val < 600000 := e.isLt
  unfold wAll
  rw [dif_pos h]
  rfl

/-- The self loop listed at position `600000 + n` starts and ends in node `n`. -/
theorem endAll_natAdd (s : Fin 600000 → Fin 50000) (n : Fin 50000) :
    endAll s (Fin.natAdd 600000 n) = n := by
  have h : ¬ (Fin.natAdd 600000 n : Fin (600000 + 50000)).val < 600000 := by
    show ¬ (600000 + n.val < 600000)
    omega
  unfold endAll
  rw [dif_neg h]
  apply Fin.ext
  show 600000 + n.val - 600000 = n.val
  omega

/-- A self loop has weight one. -/
theorem wAll_natAdd (w : Fin 600000 → EReal) (n : Fin 50000) :
    wAll w (Fin.natAdd 600000 n) = 1 := by
  have h : ¬ (Fin.natAdd 600000 n : Fin (600000 + 50000)).val < 600000 := by
    show ¬ (600000 + n.val < 600000)
    omega
  unfold wAll
  rw [dif_neg h]

/-- A sum over the extended list is the sum over the real edges plus the sum over the self loops. -/
theorem sum_650000 (f : Fin 650000 → EReal) :
    ∑ j, f j = (∑ e : Fin 600000, f (Fin.castAdd 50000 e)) + ∑ n : Fin 50000, f (Fin.natAdd 600000 n) :=
  Fin.sum_univ_add (M := EReal) (a := 600000) (b := 50000) f

/-- The messages of the extended list that end in `i`: those of the real edges that end in `i`, and the one self
    loop of `i`, whose normalised weight `D i · 1 · D i` is `D i · D i`. -/
theorem sum_all_split (D : A1 50000) (w : Fin 600000 → EReal) (s d : Fin 600000 → Fin 50000)
    (L : Fin 50000 → Fin 128 → EReal) (i : Fin 50000) (c : Fin 128) :
    (∑ j ∈ Finset.univ.filter (fun j : Fin 650000 => endAll d j = i),
          ((D (ix1 (endAll s j)) * wAll w j) * D (ix1 (endAll d j))) * L (endAll s j) c)
      = (∑ e ∈ Finset.univ.filter (fun e => d e = i), norm D w s d e * L (s e) c)
        + (D (ix1 i) * D (ix1 i)) * L i c := by
  rw [Finset.sum_filter, Finset.sum_filter]
  refine (sum_650000 _).trans ?_
  refine congrArg₂ (· + ·) (Finset.sum_congr rfl fun e _ => ?_) ?_
  · simp only [endAll_castAdd, wAll_castAdd, Cert.Gcn.norm]
  · simp only [endAll_natAdd, wAll_natAdd]
    rw [Finset.sum_ite_eq']
    simp only [Finset.mem_univ, if_true, mul_one]

/-- The two arrangements agree. -/
theorem layerAll_eq_layer (D : A1 50000) (w : Fin 600000 → EReal) (s d : Fin 600000 → Fin 50000)
    (L : Fin 50000 → Fin 128 → EReal) (b : A1 128) (i : Fin 50000) (c : Fin 128) :
    layerAll D w s d L b i c = layer D w s d L b i c := by
  unfold layerAll layer
  rw [sum_all_split, ← add_assoc]

end Cert.Gcn

end
-- ==== Proof.RefEdge.lean ====
/- The reference program's edge weights, degree normalisation and head, over the generated stages of its run: the edge
   weight at edge `e` (the 256-long product of the concatenated end-point rows with the weight matrix is the sum of the
   two 128-long halves), the normalisation as the shared chain `Gcn.dinvOf` (computed twice by the reference, once per
   layer, from the same operands), and the head. -/
import proofs.«404812_j66486093742317_1_alg».proof.Proof.RefStages
import proofs.«404812_j66486093742317_1_alg».proof.Proof.GcnSpec
import proofs.«404812_j66486093742317_1_alg».proof.Proof.GcnBridge
import proofs.«404812_j66486093742317_1_alg».proof.Proof.LibTake
import proofs.«404812_j66486093742317_1_alg».proof.Proof.LibKeepdims

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : Gcn.A2 50000 128) (x1 : IVec ⟨2, ![2, 600000]⟩ 32) (x2 : Gcn.A2 64 256) (x3 : Gcn.A1 64) (x4 : Gcn.A2 1 64) (x5 : Gcn.A1 1)
  (x6 : Gcn.A2 128 128) (x7 : Gcn.A1 128) (x8 : Gcn.A2 128 128) (x9 : Gcn.A1 128) (x10 : Gcn.A2 2 128) (x11 : Gcn.A1 2)

/-- Entry `e` of the source column is the edge table's `(0, e)`. -/
theorem srcCol_value (e : Fin 600000) : val_main_v1 (F := Ideal) x1 (ix1 e) = x1 (ix2 0 e) := by
  rw [val_main_v1_apply, val_main_v0_apply]
  refine congrArg x1 (funext fun a => ?_)
  match a with
  | ⟨0, _⟩ => rfl
  | ⟨1, _⟩ => exact Fin.ext (Nat.mod_eq_of_lt e.isLt)

/-- Entry `e` of the target column is the edge table's `(1, e)`. -/
theorem dstCol_value (e : Fin 600000) : val_main_v3 (F := Ideal) x1 (ix1 e) = x1 (ix2 1 e) := by
  rw [val_main_v3_apply, val_main_v2_apply]
  refine congrArg x1 (funext fun a => ?_)
  match a with
  | ⟨0, _⟩ => rfl
  | ⟨1, _⟩ => exact Fin.ext (Nat.mod_eq_of_lt e.isLt)

/-- A word that is not negative as a signed integer is left alone by "add the extent if negative". -/
theorem wrap_eq {w : BitVec 32} (h : 0 ≤ w.toInt) :
    Scalar.select (IntOp.cmpi .slt w 0#32) (IntOp.addi w 50000#32) w = w := by
  have hs : w.slt 0#32 = false := by
    have h0 : (0#32 : BitVec 32).toInt = 0 := by decide
    simp only [BitVec.slt, h0, decide_eq_false_iff_not, not_lt]
    exact h
  have hc : IntOp.cmpi .slt w 0#32 = 0#1 := by
    show BitVec.ofBool (w.slt 0#32) = 0#1
    rw [hs]; rfl
  rw [hc, select_zero]

/-- Row `e` of the gathered source features is the feature row of the edge's source node. -/
theorem srcRow_value (hr : Gcn.InRange x1) (e : Fin 600000) (k : Fin 128) :
    val_main_v10 (F := Ideal) x0 x1 (ix2 e k) = x0 (ix2 (Gcn.src x1 e) k) := by
  have h9 : val_main_v9 (F := Ideal) x1 (ix2 e 0) = x1 (ix2 0 e) := by
    rw [val_main_v9_apply, show idx_main_v9 (ix2 e (0 : Fin 1)) = ix1 e from funext fun a => match a with | ⟨0, _⟩ => rfl,
      val_main_v8_apply, val_main_v5_apply, val_main_v7_apply, val_main_v4_apply, val_main_v6_apply, val_main_c_apply,
      val_main_c_0_apply, srcCol_value]
    exact wrap_eq (hr _).1
  refine (LibTake.gather_rows_apply gather_S50000x128_S600000x1_S600000x128_1_0_n_n_0_1_1128 rfl rfl rfl rfl rfl x0
    (val_main_v9 (F := Ideal) x1) e k (by decide)).trans ?_
  refine congrArg x0 (congrArg (fun s => ix2 s k) (Fin.ext ?_))
  show min (val_main_v9 (F := Ideal) x1 (ix2 e 0)).toInt.toNat (50000 - 1) = min (x1 (ix2 0 e)).toInt.toNat 49999
  rw [h9]

/-- Row `e` of the gathered target features is the feature row of the edge's target node. -/
theorem dstRow_value (hr : Gcn.InRange x1) (e : Fin 600000) (k : Fin 128) :
    val_main_v17 (F := Ideal) x0 x1 (ix2 e k) = x0 (ix2 (Gcn.dst x1 e) k) := by
  have h16 : val_main_v16 (F := Ideal) x1 (ix2 e 0) = x1 (ix2 1 e) := by
    rw [val_main_v16_apply, show idx_main_v16 (ix2 e (0 : Fin 1)) = ix1 e from funext fun a => match a with | ⟨0, _⟩ => rfl,
      val_main_v15_apply, val_main_v12_apply, val_main_v14_apply, val_main_v11_apply, val_main_v13_apply, val_main_c_1_apply,
      val_main_c_2_apply, dstCol_value]
    exact wrap_eq (hr _).1
  refine (LibTake.gather_rows_apply gather_S50000x128_S600000x1_S600000x128_1_0_n_n_0_1_1128 rfl rfl rfl rfl rfl x0
    (val_main_v16 (F := Ideal) x1) e k (by decide)).trans ?_
  refine congrArg x0 (congrArg (fun s => ix2 s k) (Fin.ext ?_))
  show min (val_main_v16 (F := Ideal) x1 (ix2 e 0)).toInt.toNat (50000 - 1) = min (x1 (ix2 1 e)).toInt.toNat 49999
  rw [h16]

/-- The concatenated end-point rows at `(e, j)`: the source's features left of column 128, the target's from it on. -/
theorem cat_value (hr : Gcn.InRange x1) (e : Fin 600000) (j : Fin 256) :
    val_main_v18 (F := Ideal) x0 x1 (ix2 e j)
      = if hj : j.val < 128 then x0 (ix2 (Gcn.src x1 e) ⟨j.val, hj⟩) else x0 (ix2 (Gcn.dst x1 e) ⟨j.val - 128, by omega⟩) := by
  refine (LibTake.concat_cols_apply (val_main_v10 (F := Ideal) x0 x1) (val_main_v17 (F := Ideal) x0 x1)
    concatenates_S600000x128_S600000x128_S600000x256_d1 rfl e j).trans ?_
  by_cases hj : j.val < 128
  · rw [dif_pos hj, dif_pos hj]; exact srcRow_value x0 x1 hr e _
  · rw [dif_neg hj, dif_neg hj]; exact dstRow_value x0 x1 hr e _

/-- Row index of the left operand of the first product. -/
theorem lidx20_eq (e : Fin 600000) (j : Fin 64) (k : Fin 256) : lidx_main_v20 (ix2 e j) k = ix2 e k :=
  funext fun a => match a with | ⟨0, _⟩ => rfl | ⟨1, _⟩ => rfl

/-- The transposed weight matrix at the right operand's index is the weight matrix at `(j, k)`. -/
theorem ridx20_eq (e : Fin 600000) (j : Fin 64) (k : Fin 256) : idx_main_v19 (ridx_main_v20 (ix2 e j) k) = ix2 j k :=
  funext fun a => match a with | ⟨0, _⟩ => rfl | ⟨1, _⟩ => rfl

/-- The first product at `(e, j)`: the two 128-long halves. -/
theorem dot1_value (hr : Gcn.InRange x1) (e : Fin 600000) (j : Fin 64) :
    val_main_v20 (F := Ideal) x0 x1 x2 (ix2 e j)
      = (∑ k : Fin 128, x0 (ix2 (Gcn.src x1 e) k) * x2 (ix2 j ⟨k.val, by omega⟩))
        + (∑ k : Fin 128, x0 (ix2 (Gcn.dst x1 e) k) * x2 (ix2 j ⟨128 + k.val, by omega⟩)) := by
  rw [val_main_v20_apply, Gcn.sum_256_split]
  refine congrArg₂ (· + ·) (Finset.sum_congr rfl fun k _ => ?_) (Finset.sum_congr rfl fun k _ => ?_)
  · have h18 : val_main_v18 (F := Ideal) x0 x1 (ix2 e (⟨k.val, by omega⟩ : Fin 256)) = x0 (ix2 (Gcn.src x1 e) k) := by
      rw [cat_value x0 x1 hr]; exact dif_pos k.isLt
    rw [lidx20_eq, val_main_v19_apply, ridx20_eq, h18]
  · have h18 : val_main_v18 (F := Ideal) x0 x1 (ix2 e (⟨128 + k.val, by omega⟩ : Fin 256)) = x0 (ix2 (Gcn.dst x1 e) k) := by
      rw [cat_value x0 x1 hr, dif_neg (show ¬ (128 + k.val < 128) by omega)]
      exact congrArg x0 (congrArg (fun s => ix2 (Gcn.dst x1 e) s) (Fin.ext (by show 128 + k.val - 128 = k.val; omega)))
    rw [lidx20_eq, val_main_v19_apply, ridx20_eq, h18]

/-- Hidden unit `j` of the perceptron at edge `e`. -/
theorem hid_value (hr : Gcn.InRange x1) (e : Fin 600000) (j : Fin 64) :
    val_main_v24 (F := Ideal) x0 x1 x2 x3 (ix2 e j) = Gcn.hid x0 x2 x3 (Gcn.src x1 e) (Gcn.dst x1 e) j := by
  have hb : x3 (idx_main_v21 (idx_main_v22 (ix2 e j))) = x3 (ix1 j) :=
    congrArg x3 (funext fun a => match a with | ⟨0, _⟩ => rfl)
  rw [val_main_v24_apply, val_main_v23_apply, dot1_value x0 x1 x2 hr, val_main_v22_apply, val_main_v21_apply,
    val_main_call0_v0_apply, val_main_call0_cst_apply, hb]
  simp only [Ideal.maximumf_def, Ideal.addf_def, Ideal.ofBits_def, Ideal.ofBits_zero_f32]
  rfl

/-- The weight of edge `e`. -/
theorem ew_value (hr : Gcn.InRange x1) (e : Fin 600000) :
    val_main_v36 (F := Ideal) x0 x1 x2 x3 x4 x5 (ix1 e) = Gcn.edgeW x0 x2 x3 x4 x5 (Gcn.src x1 e) (Gcn.dst x1 e) := by
  have hi : idx_main_v36 (ix1 e) = ix2 e (0 : Fin 1) :=
    funext fun a => match a with | ⟨0, _⟩ => Fin.ext (Nat.div_one _) | ⟨1, _⟩ => rfl
  have hb : x5 (idx_main_v27 (idx_main_v28 (ix2 e (0 : Fin 1)))) = x5 (ix1 0) :=
    congrArg x5 (funext fun a => match a with | ⟨0, _⟩ => rfl)
  have h26 : val_main_v26 (F := Ideal) x0 x1 x2 x3 x4 (ix2 e (0 : Fin 1))
      = ∑ j : Fin 64, Gcn.hid x0 x2 x3 (Gcn.src x1 e) (Gcn.dst x1 e) j * x4 (ix2 0 j) := by
    rw [val_main_v26_apply]
    refine Finset.sum_congr rfl fun j _ => ?_
    have hl : lidx_main_v26 (ix2 e (0 : Fin 1)) j = ix2 e j :=
      funext fun a => match a with | ⟨0, _⟩ => rfl | ⟨1, _⟩ => rfl
    have hrr : idx_main_v25 (ridx_main_v26 (ix2 e (0 : Fin 1)) j) = ix2 0 j :=
      funext fun a => match a with | ⟨0, _⟩ => rfl | ⟨1, _⟩ => rfl
    rw [hl, hid_value x0 x1 x2 x3 hr, val_main_v25_apply, hrr]
  rw [val_main_v36_apply, hi, val_main_v35_apply, val_main_v34_apply, val_main_cst_3_apply, val_main_v33_apply,
    val_main_v32_apply, val_main_cst_apply, val_main_v31_apply, val_main_v30_apply, val_main_v29_apply, h26,
    val_main_v28_apply, val_main_v27_apply, hb]
  simp only [Ideal.hostDivf_def, Ideal.addf_def, Ideal.ofBits_def, LibKeepdims.ofBits_one_f32, Ideal.hostUnary_exp_def,
    Ideal.hostNegf_def, Ideal.negf_def]
  rfl

/-- The first layer's inverse-square-root degrees are the shared chain of the target column and the edge weights. -/
theorem dinv1_term : val_main_v51 (F := Ideal) x0 x1 x2 x3 x4 x5
    = Gcn.dinvOf (val_main_v3 (F := Ideal) x1) (val_main_v36 (F := Ideal) x0 x1 x2 x3 x4 x5) := by
  unfold val_main_v51 val_main_v50 val_main_v49 val_main_v48 val_main_v46 val_main_v44 val_main_v43 val_main_v41 val_main_v39
    val_main_v47 val_main_v45 val_main_v42 val_main_v40 val_main_v37 val_main_call1_v1 val_main_call1_v0 val_main_call2_v1
    val_main_call2_v0 val_main_cst_4 val_main_cst_5 val_main_cst_6 val_main_cst_7 val_main_cst_8 val_main_cst_9 Gcn.dinvOf
  generalize val_main_v3 (F := Ideal) x1 = d
  generalize val_main_v36 (F := Ideal) x0 x1 x2 x3 x4 x5 = w
  rfl

/-- The second layer recomputes the same. -/
theorem dinv2_term : val_main_v101 (F := Ideal) x0 x1 x2 x3 x4 x5
    = Gcn.dinvOf (val_main_v3 (F := Ideal) x1) (val_main_v36 (F := Ideal) x0 x1 x2 x3 x4 x5) := by
  unfold val_main_v101 val_main_v100 val_main_v99 val_main_v98 val_main_v96 val_main_v94 val_main_v93 val_main_v91 val_main_v89
    val_main_v97 val_main_v95 val_main_v92 val_main_v90 val_main_v87 val_main_call4_v1 val_main_call4_v0 val_main_call5_v1
    val_main_call5_v0 val_main_cst_17 val_main_cst_18 val_main_cst_19 val_main_cst_20 val_main_cst_21 val_main_cst_22 Gcn.dinvOf
  generalize val_main_v3 (F := Ideal) x1 = d
  generalize val_main_v36 (F := Ideal) x0 x1 x2 x3 x4 x5 = w
  rfl

/-- The result at `(i, k)` is the head of the second layer's output. -/
theorem out_value (i : Fin 50000) (k : Fin 2) :
    val_main_v147 (F := Ideal) x0 x1 x2 x3 x4 x5 x6 x7 x8 x9 x10 x11 (ix2 i k)
      = Gcn.headOut (val_main_v136 (F := Ideal) x0 x1 x2 x3 x4 x5 x6 x7 x8 x9) x10 x11 i k := by
  have hb : x11 (idx_main_v139 (idx_main_v140 (ix2 i k))) = x11 (ix1 k) :=
    congrArg x11 (funext fun a => match a with | ⟨0, _⟩ => rfl)
  have h138 : val_main_v138 (F := Ideal) x0 x1 x2 x3 x4 x5 x6 x7 x8 x9 x10 (ix2 i k)
      = ∑ c : Fin 128, val_main_v136 (F := Ideal) x0 x1 x2 x3 x4 x5 x6 x7 x8 x9 (ix2 i c) * x10 (ix2 k c) := by
    rw [val_main_v138_apply]
    refine Finset.sum_congr rfl fun c _ => ?_
    have hl : lidx_main_v138 (ix2 i k) c = ix2 i c :=
      funext fun a => match a with | ⟨0, _⟩ => rfl | ⟨1, _⟩ => rfl
    have hrr : idx_main_v137 (ridx_main_v138 (ix2 i k) c) = ix2 k c :=
      funext fun a => match a with | ⟨0, _⟩ => rfl | ⟨1, _⟩ => rfl
    rw [hl, val_main_v137_apply, hrr]
  rw [val_main_v147_apply, val_main_v146_apply, val_main_cst_31_apply, val_main_v145_apply, val_main_v144_apply,
    val_main_cst_30_apply, val_main_v143_apply, val_main_v142_apply, val_main_v141_apply, h138, val_main_v140_apply,
    val_main_v139_apply, hb]
  simp only [Ideal.hostDivf_def, Ideal.addf_def, Ideal.ofBits_def, LibKeepdims.ofBits_one_f32, Ideal.hostUnary_exp_def,
    Ideal.hostNegf_def, Ideal.negf_def]
  rfl

end Cert.ReferenceIdeal.RefValue

end
-- ==== Proof.RefLayers.lean ====
/- The reference program's two rounds of message passing, over the generated stages of its run. The reference lists the
   self loops as 50000 further edges `i → i` of weight one and scatters all 650000 messages; read at `(i, k)` the sum
   splits into the 600000 real edges that end in `i` and the one self loop of `i` (`Gcn.layerAll_eq_layer`).

   Both rounds compose the same array operations over different operand arrays, so the round is written once over
   variable operands (`layerTerm`) and read once at an index (`layerTerm_apply`): the words of the extended end-point
   columns name nodes, so the wrap of negative indices is the identity on them, a take reads the operand at the node
   the word names, and the scatter-add's filter "the index word reads `i`" is "the end point is node `i`". -/
import proofs.«404812_j66486093742317_1_alg».proof.Proof.RefStages
import proofs.«404812_j66486093742317_1_alg».proof.Proof.GcnSpec
import proofs.«404812_j66486093742317_1_alg».proof.Proof.GcnBridge
import proofs.«404812_j66486093742317_1_alg».proof.Proof.LibTake
import proofs.«404812_j66486093742317_1_alg».proof.Proof.LibKeepdims
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Words and the extended edge list -/

/-- An index word that names a node is not negative, so the wrap of negative indices leaves it as it is. -/
private theorem wrap_id (c : BitVec 32) (h : 0 ≤ c.toInt ∧ c.toInt < 50000) :
    Scalar.select (IntOp.cmpi .slt c 0#32) (IntOp.addi c 50000#32) c = c := by
  have h0 : IntOp.cmpi .slt c 0#32 = 0#1 := by
    show BitVec.ofBool (c.slt 0#32) = 0#1
    have hs : c.slt 0#32 = false := by
      unfold BitVec.slt
      have hz : (0#32 : BitVec 32).toInt = 0 := by decide
      rw [hz]
      exact decide_eq_false (by omega)
    rw [hs]; rfl
  rw [h0]; exact select_zero _ _

/-- The end-point words of the extended edge list: the 600000 of a column, then 0 … 49999. -/
private def wordAll (sc : IVec S600000 32) (j : Fin 650000) : BitVec 32 :=
  if hj : j.val < 600000 then sc (ix1 ⟨j.val, hj⟩) else BitVec.ofNat 32 (j.val - 600000)

/-- Every word of the extended list names a node when every word of the column does. -/
private theorem wordAll_range (sc : IVec S600000 32)
    (hs : ∀ e, 0 ≤ (sc (ix1 e)).toInt ∧ (sc (ix1 e)).toInt < 50000) (j : Fin 650000) :
    0 ≤ (wordAll sc j).toInt ∧ (wordAll sc j).toInt < 50000 := by
  unfold wordAll
  by_cases hj : j.val < 600000
  · rw [dif_pos hj]; exact hs _
  · rw [dif_neg hj]
    have hj2 := j.isLt
    rw [Predicate.toInt_ofNat_small (j.val - 600000) (by omega)]
    omega

/-- The node a word of the extended list names is the extended list's end point. -/
private theorem node_wordAll (sc : IVec S600000 32) (j : Fin 650000) :
    Gcn.node (wordAll sc j) = Gcn.endAll (fun e => Gcn.node (sc (ix1 e))) j := by
  unfold wordAll Gcn.endAll
  by_cases hj : j.val < 600000
  · rw [dif_pos hj, dif_pos hj]
  · rw [dif_neg hj, dif_neg hj]
    have hj2 := j.isLt
    apply Fin.ext
    show min (BitVec.ofNat 32 (j.val - 600000)).toInt.toNat 49999 = j.val - 600000
    rw [Predicate.toInt_ofNat_small (j.val - 600000) (by omega), Int.toNat_natCast]
    omega

/-! ## The small layout reads -/

/-- A scalar word broadcast to any shape reads the word. -/
private theorem bcast_const_word {t : Shape} (h : S_.BroadcastsInDim t ![]) (v : BitVec 32) (i : t.Idx) :
    broadcastInDim t ![] h (constantI S_ 32 v) i = v :=
  (broadcastInDim_apply _ h _ i (fun a => a.elim0) (fun a => a.elim0)).trans rfl

/-- A scalar float constant broadcast to any shape reads the constant's value. -/
private theorem bcast_const_f32 {t : Shape} (h : S_.BroadcastsInDim t ![]) (v : BitVec FTy.f32.bits) (i : t.Idx) :
    broadcastInDim t ![] h (constant (F := Ideal) S_ .f32 v) i = Ideal.ofBits .f32 v :=
  (broadcastInDim_apply _ h _ i (fun a => a.elim0) (fun a => a.elim0)).trans rfl

/-- A vector of 650000 entries as a column reads, at `(j, 0)`, the vector at `j`. -/
private theorem col_read {α : Type} (c : S650000.Idx → α) (j : Fin 650000) :
    broadcastInDim S650000x1 ![0] bcast_S650000_S650000x1_0 c (ix2 j (0 : Fin 1)) = c (ix1 j) :=
  broadcastInDim_apply _ bcast_S650000_S650000x1_0 c (ix2 j (0 : Fin 1)) (ix1 j) (fun a => match a with
    | ⟨0, _⟩ => by show j.val = if (650000 : Nat) = 1 then 0 else j.val; rw [if_neg (by decide)])

/-- The column spread over 128 columns reads, at `(j, k)`, the column at `(j, 0)`. -/
private theorem spread_read {α : Type} (c : S650000x1.Idx → α) (j : Fin 650000) (k : Fin 128) :
    broadcastInDim S650000x128 ![0, 1] bcast_S650000x1_S650000x128_0_1 c (ix2 j k) = c (ix2 j (0 : Fin 1)) :=
  broadcastInDim_apply _ bcast_S650000x1_S650000x128_0_1 c (ix2 j k) (ix2 j (0 : Fin 1)) (fun a => match a with
    | ⟨0, _⟩ => by show j.val = if (650000 : Nat) = 1 then 0 else j.val; rw [if_neg (by decide)]
    | ⟨1, _⟩ => by show 0 = if (1 : Nat) = 1 then 0 else k.val; rw [if_pos rfl])

/-- The bias as a row spread over the 50000 rows reads, at `(i, k)`, the bias at `k`. -/
private theorem bias_read {α : Type} (b : S128.Idx → α) (i : Fin 50000) (k : Fin 128) :
    broadcastInDim S50000x128 ![0, 1] bcast_S1x128_S50000x128_0_1 (broadcastInDim S1x128 ![1] bcast_S128_S1x128_1 b) (ix2 i k)
      = b (ix1 k) :=
  (broadcastInDim_apply _ bcast_S1x128_S50000x128_0_1 _ (ix2 i k) (ix2 (0 : Fin 1) k) (fun a => match a with
    | ⟨0, _⟩ => by show 0 = if (1 : Nat) = 1 then 0 else i.val; rw [if_pos rfl]
    | ⟨1, _⟩ => by show k.val = if (128 : Nat) = 1 then 0 else k.val; rw [if_neg (by decide)])).trans
  (broadcastInDim_apply _ bcast_S128_S1x128_1 b (ix2 (0 : Fin 1) k) (ix1 k) (fun a => match a with
    | ⟨0, _⟩ => by show k.val = if (128 : Nat) = 1 then 0 else k.val; rw [if_neg (by decide)]))

/-! ## The arrays of one round, as the program composes them -/

/-- A column of 600000 end-point words followed by the words 0 … 49999. -/
private def catI (sc : IVec S600000 32) : IVec S650000 32 :=
  concatenate S650000 0 [⟨S600000, sc⟩, ⟨S50000, iotaInDim S50000 32 0⟩] concatenates_S600000_S50000_S650000_d0

/-- The 600000 edge weights followed by 50000 ones. -/
private def catW (w : FVec Ideal S600000 .f32) : FVec Ideal S650000 .f32 :=
  concatenate S650000 0 [⟨S600000, w⟩,
    ⟨S50000, broadcastInDim S50000 ![] bcast_S_S50000 (constant (F := Ideal) S_ .f32 0x3F800000#32)⟩] concatenates_S600000_S50000_S650000_d0

/-- Index words with the negative ones wrapped by 50000, as a column of start indices. -/
private def wrapCol (c : IVec S650000 32) : IVec S650000x1 32 :=
  broadcastInDim S650000x1 ![0] bcast_S650000_S650000x1_0
    (select (cmpi .slt c (broadcastInDim S650000 ![] bcast_S_S650000 (constantI S_ 32 0#32)))
      (addi c (broadcastInDim S650000 ![] bcast_S_S650000 (constantI S_ 32 50000#32))) c)

/-- The normalised weights of the extended list. -/
private def coefTerm (D : FVec Ideal S50000 .f32) (w : FVec Ideal S600000 .f32) (sc dc : IVec S600000 32) :
    FVec Ideal S650000 .f32 :=
  mulf (mulf (Host.gather gather_S50000_S650000x1_S650000_n_0_n_n_0_1_1 D (wrapCol (catI sc))) (catW w))
    (Host.gather gather_S50000_S650000x1_S650000_n_0_n_n_0_1_1 D (wrapCol (catI dc)))

/-- One round of message passing over the extended list, as the program composes it. -/
private def layerTerm (D : FVec Ideal S50000 .f32) (w : FVec Ideal S600000 .f32) (sc dc : IVec S600000 32)
    (L : FVec Ideal S50000x128 .f32) (b : FVec Ideal S128 .f32) : FVec Ideal S50000x128 .f32 :=
  maximumf
    (addf
      (Host.scatterAdd scatter_S50000x128_S650000x1_S650000x128_1_0_0_1
        (broadcastInDim S50000x128 ![] bcast_S_S50000x128 (constant (F := Ideal) S_ .f32 0x00000000#32))
        (broadcastInDim S650000x1 ![0] bcast_S650000_S650000x1_0 (catI dc))
        (mulf
          (broadcastInDim S650000x128 ![0, 1] bcast_S650000x1_S650000x128_0_1
            (broadcastInDim S650000x1 ![0] bcast_S650000_S650000x1_0 (coefTerm D w sc dc)))
          (Host.gather gather_S50000x128_S650000x1_S650000x128_1_0_n_n_0_1_1128 L (wrapCol (catI sc)))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-! ## Reading them at an index -/

private theorem catI_apply (sc : IVec S600000 32) (j : Fin 650000) : catI sc (ix1 j) = wordAll sc j :=
  (Cert.LibTake.concat_vec_apply sc (iotaInDim S50000 32 0) concatenates_S600000_S50000_S650000_d0 rfl j).trans rfl

private theorem catW_apply (w : FVec Ideal S600000 .f32) (j : Fin 650000) :
    catW w (ix1 j) = Gcn.wAll (fun e => w (ix1 e)) j := by
  refine (Cert.LibTake.concat_vec_apply w _ concatenates_S600000_S50000_S650000_d0 rfl j).trans ?_
  unfold Gcn.wAll
  by_cases hj : j.val < 600000
  · rw [dif_pos hj, dif_pos hj]
  · rw [dif_neg hj, dif_neg hj]
    exact (bcast_const_f32 bcast_S_S50000 _ _).trans Cert.LibKeepdims.ofBits_one_f32

private theorem wrapCol_apply (c : IVec S650000 32) (j : Fin 650000)
    (h : 0 ≤ (c (ix1 j)).toInt ∧ (c (ix1 j)).toInt < 50000) : wrapCol c (ix2 j (0 : Fin 1)) = c (ix1 j) := by
  unfold wrapCol
  refine (col_read _ j).trans ?_
  show Scalar.select (IntOp.cmpi .slt (c (ix1 j)) _) (IntOp.addi (c (ix1 j)) _) (c (ix1 j)) = c (ix1 j)
  rw [bcast_const_word, bcast_const_word]
  exact wrap_id _ h

/-- A take from the vector `D` at wrapped index words that name nodes. -/
private theorem take_vec (D : FVec Ideal S50000 .f32) (c : IVec S650000 32) (j : Fin 650000)
    (h : 0 ≤ (c (ix1 j)).toInt ∧ (c (ix1 j)).toInt < 50000) :
    Host.gather gather_S50000_S650000x1_S650000_n_0_n_n_0_1_1 D (wrapCol c) (ix1 j) = D (ix1 (Gcn.node (c (ix1 j)))) :=
  (Cert.LibTake.gather_vec_apply gather_S50000_S650000x1_S650000_n_0_n_n_0_1_1 rfl rfl rfl rfl D (wrapCol c) j (by decide)).trans
    (congrArg (fun v : BitVec 32 => D (ix1 (Gcn.node v))) (wrapCol_apply c j h))

/-- A take of rows of the matrix `L` at wrapped index words that name nodes. -/
private theorem take_rows (L : FVec Ideal S50000x128 .f32) (c : IVec S650000 32) (j : Fin 650000) (k : Fin 128)
    (h : 0 ≤ (c (ix1 j)).toInt ∧ (c (ix1 j)).toInt < 50000) :
    Host.gather gather_S50000x128_S650000x1_S650000x128_1_0_n_n_0_1_1128 L (wrapCol c) (ix2 j k)
      = L (ix2 (Gcn.node (c (ix1 j))) k) :=
  (Cert.LibTake.gather_rows_apply gather_S50000x128_S650000x1_S650000x128_1_0_n_n_0_1_1128 rfl rfl rfl rfl rfl L (wrapCol c) j k
      (by decide)).trans
    (congrArg (fun v : BitVec 32 => L (ix2 (Gcn.node v) k)) (wrapCol_apply c j h))

/-- The normalised weight of entry `j` of the extended list. -/
private theorem coefTerm_apply (D : FVec Ideal S50000 .f32) (w : FVec Ideal S600000 .f32) (sc dc : IVec S600000 32)
    (hs : ∀ e, 0 ≤ (sc (ix1 e)).toInt ∧ (sc (ix1 e)).toInt < 50000)
    (hd : ∀ e, 0 ≤ (dc (ix1 e)).toInt ∧ (dc (ix1 e)).toInt < 50000) (j : Fin 650000) :
    coefTerm D w sc dc (ix1 j)
      = (D (ix1 (Gcn.endAll (fun e => Gcn.node (sc (ix1 e))) j)) * Gcn.wAll (fun e => w (ix1 e)) j)
          * D (ix1 (Gcn.endAll (fun e => Gcn.node (dc (ix1 e))) j)) := by
  unfold coefTerm
  rw [mulf_apply, mulf_apply, catW_apply,
    take_vec D (catI sc) j (by rw [catI_apply]; exact wordAll_range sc hs j),
    take_vec D (catI dc) j (by rw [catI_apply]; exact wordAll_range dc hd j),
    catI_apply, catI_apply, node_wordAll, node_wordAll]

/-- A word that names a node reads, signed, as `i` exactly when the node it names is `i`. -/
private theorem toInt_eq_iff_node (v : BitVec 32) (h : 0 ≤ v.toInt ∧ v.toInt < 50000) (i : Fin 50000) :
    v.toInt = (i.val : ℤ) ↔ Gcn.node v = i := by
  have hv := Gcn.node_val_of_range h
  generalize Gcn.node v = n at hv
  constructor
  · intro e; apply Fin.ext; omega
  · intro e; rw [← e]; exact hv.symm

/-- The scatter-add of the 650000 message rows into zeros, read at `(i, k)`. -/
private theorem scatter_read (Z : FVec Ideal S50000x128 .f32) (I : IVec S650000x1 32) (U : FVec Ideal S650000x128 .f32)
    (i : Fin 50000) (k : Fin 128) :
    Host.scatterAdd (F := Ideal) scatter_S50000x128_S650000x1_S650000x128_1_0_0_1 Z I U (ix2 i k)
      = Z (ix2 i k) + ∑ e ∈ Finset.univ.filter (fun e : Fin 650000 => (I (ix2 e 0)).toInt = (i.val : ℤ)), U (ix2 e k) :=
  Cert.LibTake.scatterAdd_rows_apply scatter_S50000x128_S650000x1_S650000x128_1_0_0_1 rfl rfl rfl rfl Z I U i k

/-- One round over the extended list, read at `(i, k)`. -/
private theorem layerTerm_apply (D : FVec Ideal S50000 .f32) (w : FVec Ideal S600000 .f32) (sc dc : IVec S600000 32)
    (L : FVec Ideal S50000x128 .f32) (b : FVec Ideal S128 .f32)
    (hs : ∀ e, 0 ≤ (sc (ix1 e)).toInt ∧ (sc (ix1 e)).toInt < 50000)
    (hd : ∀ e, 0 ≤ (dc (ix1 e)).toInt ∧ (dc (ix1 e)).toInt < 50000) (i : Fin 50000) (k : Fin 128) :
    layerTerm D w sc dc L b (ix2 i k)
      = Gcn.layerAll D (fun e => w (ix1 e)) (fun e => Gcn.node (sc (ix1 e))) (fun e => Gcn.node (dc (ix1 e)))
          (fun i k => L (ix2 i k)) b i k := by
  unfold layerTerm Gcn.layerAll
  rw [maximumf_apply, addf_apply, bias_read, bcast_const_f32, Ideal.ofBits_zero_f32]
  refine congrArg (fun t : EReal => max (t + b (ix1 k)) 0) ?_
  rw [scatter_read, bcast_const_f32, Ideal.ofBits_zero_f32]
  refine congrArg (fun t : EReal => 0 + t) ?_
  refine Finset.sum_congr (Finset.filter_congr fun j _ => ?_) fun j _ => ?_
  · -- the entries that end in node i
    rw [col_read, catI_apply, ← node_wordAll]
    exact toInt_eq_iff_node _ (wordAll_range dc hd j) i
  · -- the message of entry j
    rw [mulf_apply, spread_read, col_read, coefTerm_apply D w sc dc hs hd j,
      take_rows L (catI sc) j k (by rw [catI_apply]; exact wordAll_range sc hs j), catI_apply, node_wordAll]

/-! ## The stages of the run -/

variable (x0 : Gcn.A2 50000 128) (x1 : IVec ⟨2, ![2, 600000]⟩ 32) (x2 : Gcn.A2 64 256) (x3 : Gcn.A1 64) (x4 : Gcn.A2 1 64) (x5 : Gcn.A1 1)
  (x6 : Gcn.A2 128 128) (x7 : Gcn.A1 128) (x8 : Gcn.A2 128 128) (x9 : Gcn.A1 128) (x10 : Gcn.A2 2 128) (x11 : Gcn.A1 2)

/-- Entry `e` of the source column is the edge table's `(0, e)`. -/
private theorem srcCol_read (e : Fin 600000) : val_main_v1 (F := Ideal) x1 (ix1 e) = x1 (ix2 0 e) := by
  refine (val_main_v1_apply (F := Ideal) x1 (ix1 e)).trans ((val_main_v0_apply (F := Ideal) x1 _).trans (congrArg x1 ?_))
  funext a
  match a with
  | ⟨0, _⟩ => rfl
  | ⟨1, _⟩ => exact Fin.ext (Nat.mod_eq_of_lt e.isLt)

/-- Entry `e` of the target column is the edge table's `(1, e)`. -/
private theorem dstCol_read (e : Fin 600000) : val_main_v3 (F := Ideal) x1 (ix1 e) = x1 (ix2 1 e) := by
  refine (val_main_v3_apply (F := Ideal) x1 (ix1 e)).trans ((val_main_v2_apply (F := Ideal) x1 _).trans (congrArg x1 ?_))
  funext a
  match a with
  | ⟨0, _⟩ => rfl
  | ⟨1, _⟩ => exact Fin.ext (Nat.mod_eq_of_lt e.isLt)

/-- The first round's output is the round composed over its operand arrays. -/
private theorem v86_term : val_main_v86 (F := Ideal) x0 x1 x2 x3 x4 x5 x6 x7
    = layerTerm (val_main_v51 (F := Ideal) x0 x1 x2 x3 x4 x5) (val_main_v36 (F := Ideal) x0 x1 x2 x3 x4 x5)
        (val_main_v1 (F := Ideal) x1) (val_main_v3 (F := Ideal) x1) (val_main_v69 (F := Ideal) x0 x6) x7 := by
  unfold val_main_v86 val_main_call3_v0 val_main_call3_cst val_main_v85 val_main_v84 val_main_v83 val_main_v82 val_main_v81 val_main_v80 val_main_cst_16 val_main_v79 val_main_v78 val_main_v77 val_main_v76 val_main_v75 val_main_v74 val_main_v73 val_main_c_15 val_main_v72 val_main_v71 val_main_c_14 val_main_v70 val_main_v67 val_main_v66 val_main_v65 val_main_v64 val_main_v63 val_main_v62 val_main_c_13 val_main_v61 val_main_v60 val_main_c_12 val_main_v59 val_main_v58 val_main_v57 val_main_v56 val_main_v55 val_main_v54 val_main_c_11 val_main_v53 val_main_v52 val_main_c_10 val_main_v41 val_main_v40 val_main_cst_4 val_main_v39 val_main_v38 val_main_v37
    layerTerm coefTerm wrapCol catI catW
  rfl

/-- The second round's output is the round composed over its operand arrays. -/
private theorem v136_term : val_main_v136 (F := Ideal) x0 x1 x2 x3 x4 x5 x6 x7 x8 x9
    = layerTerm (val_main_v101 (F := Ideal) x0 x1 x2 x3 x4 x5) (val_main_v36 (F := Ideal) x0 x1 x2 x3 x4 x5)
        (val_main_v1 (F := Ideal) x1) (val_main_v3 (F := Ideal) x1) (val_main_v119 (F := Ideal) x0 x1 x2 x3 x4 x5 x6 x7 x8) x9 := by
  unfold val_main_v136 val_main_call6_v0 val_main_call6_cst val_main_v135 val_main_v134 val_main_v133 val_main_v132 val_main_v131 val_main_v130 val_main_cst_29 val_main_v129 val_main_v128 val_main_v127 val_main_v126 val_main_v125 val_main_v124 val_main_v123 val_main_c_28 val_main_v122 val_main_v121 val_main_c_27 val_main_v120 val_main_v117 val_main_v116 val_main_v115 val_main_v114 val_main_v113 val_main_v112 val_main_c_26 val_main_v111 val_main_v110 val_main_c_25 val_main_v109 val_main_v108 val_main_v107 val_main_v106 val_main_v105 val_main_v104 val_main_c_24 val_main_v103 val_main_v102 val_main_c_23 val_main_v91 val_main_v90 val_main_cst_17 val_main_v89 val_main_v88 val_main_v87
    layerTerm coefTerm wrapCol catI catW
  rfl

/-- The first projection at `(i, k)`. -/
theorem xl1_value (i : Fin 50000) (k : Fin 128) : val_main_v69 (F := Ideal) x0 x6 (ix2 i k) = Gcn.lin x0 x6 i k := by
  refine (val_main_v69_apply x0 x6 (ix2 i k)).trans ?_
  unfold Gcn.lin
  refine Finset.sum_congr rfl fun c _ => ?_
  have e1 : lidx_main_v69 (ix2 i k) c = ix2 i c := funext fun a => match a with | ⟨0, _⟩ => rfl | ⟨1, _⟩ => rfl
  have e2 : idx_main_v68 (ridx_main_v69 (ix2 i k) c) = ix2 k c := funext fun a => match a with | ⟨0, _⟩ => rfl | ⟨1, _⟩ => rfl
  rw [val_main_v68_apply, e1, e2]

/-- The first layer's output at `(i, k)`. -/
theorem x1_value (hr : Gcn.InRange x1) (i : Fin 50000) (k : Fin 128) :
    val_main_v86 (F := Ideal) x0 x1 x2 x3 x4 x5 x6 x7 (ix2 i k)
      = Gcn.layer (val_main_v51 (F := Ideal) x0 x1 x2 x3 x4 x5) (fun e => val_main_v36 (F := Ideal) x0 x1 x2 x3 x4 x5 (ix1 e))
          (Gcn.src x1) (Gcn.dst x1) (fun i k => val_main_v69 (F := Ideal) x0 x6 (ix2 i k)) x7 i k := by
  have hs : ∀ e, 0 ≤ (val_main_v1 (F := Ideal) x1 (ix1 e)).toInt ∧ (val_main_v1 (F := Ideal) x1 (ix1 e)).toInt < 50000 :=
    fun e => by rw [srcCol_read]; exact hr _
  have hd : ∀ e, 0 ≤ (val_main_v3 (F := Ideal) x1 (ix1 e)).toInt ∧ (val_main_v3 (F := Ideal) x1 (ix1 e)).toInt < 50000 :=
    fun e => by rw [dstCol_read]; exact hr _
  have es : Gcn.src x1 = fun e => Gcn.node (val_main_v1 (F := Ideal) x1 (ix1 e)) :=
    funext fun e => (congrArg Gcn.node (srcCol_read x1 e)).symm
  have ed : Gcn.dst x1 = fun e => Gcn.node (val_main_v3 (F := Ideal) x1 (ix1 e)) :=
    funext fun e => (congrArg Gcn.node (dstCol_read x1 e)).symm
  rw [es, ed, ← Gcn.layerAll_eq_layer]
  exact (congrFun (v86_term x0 x1 x2 x3 x4 x5 x6 x7) (ix2 i k)).trans (layerTerm_apply _ _ _ _ _ _ hs hd i k)

/-- The second projection at `(i, k)`. -/
theorem xl2_value (i : Fin 50000) (k : Fin 128) :
    val_main_v119 (F := Ideal) x0 x1 x2 x3 x4 x5 x6 x7 x8 (ix2 i k)
      = Gcn.lin (val_main_v86 (F := Ideal) x0 x1 x2 x3 x4 x5 x6 x7) x8 i k := by
  refine (val_main_v119_apply x0 x1 x2 x3 x4 x5 x6 x7 x8 (ix2 i k)).trans ?_
  unfold Gcn.lin
  refine Finset.sum_congr rfl fun c _ => ?_
  have e1 : lidx_main_v119 (ix2 i k) c = ix2 i c := funext fun a => match a with | ⟨0, _⟩ => rfl | ⟨1, _⟩ => rfl
  have e2 : idx_main_v118 (ridx_main_v119 (ix2 i k) c) = ix2 k c := funext fun a => match a with | ⟨0, _⟩ => rfl | ⟨1, _⟩ => rfl
  rw [val_main_v118_apply, e1, e2]

/-- The second layer's output at `(i, k)`. -/
theorem x2_value (hr : Gcn.InRange x1) (i : Fin 50000) (k : Fin 128) :
    val_main_v136 (F := Ideal) x0 x1 x2 x3 x4 x5 x6 x7 x8 x9 (ix2 i k)
      = Gcn.layer (val_main_v101 (F := Ideal) x0 x1 x2 x3 x4 x5) (fun e => val_main_v36 (F := Ideal) x0 x1 x2 x3 x4 x5 (ix1 e))
          (Gcn.src x1) (Gcn.dst x1) (fun i k => val_main_v119 (F := Ideal) x0 x1 x2 x3 x4 x5 x6 x7 x8 (ix2 i k)) x9 i k := by
  have hs : ∀ e, 0 ≤ (val_main_v1 (F := Ideal) x1 (ix1 e)).toInt ∧ (val_main_v1 (F := Ideal) x1 (ix1 e)).toInt < 50000 :=
    fun e => by rw [srcCol_read]; exact hr _
  have hd : ∀ e, 0 ≤ (val_main_v3 (F := Ideal) x1 (ix1 e)).toInt ∧ (val_main_v3 (F := Ideal) x1 (ix1 e)).toInt < 50000 :=
    fun e => by rw [dstCol_read]; exact hr _
  have es : Gcn.src x1 = fun e => Gcn.node (val_main_v1 (F := Ideal) x1 (ix1 e)) :=
    funext fun e => (congrArg Gcn.node (srcCol_read x1 e)).symm
  have ed : Gcn.dst x1 = fun e => Gcn.node (val_main_v3 (F := Ideal) x1 (ix1 e)) :=
    funext fun e => (congrArg Gcn.node (dstCol_read x1 e)).symm
  rw [es, ed, ← Gcn.layerAll_eq_layer]
  exact (congrFun (v136_term x0 x1 x2 x3 x4 x5 x6 x7 x8 x9) (ix2 i k)).trans (layerTerm_apply _ _ _ _ _ _ hs hd i k)

end Cert.ReferenceIdeal.RefValue

end
-- ==== Proof.PreRange.lean ====
/-
  The precondition, read: where the printed predicate is all ones, every entry of the edge table is a node —
  `0 ≤ entry < 50000` as a signed integer. (The predicate is a conjunction of whole-array tests; only its last two
  conjuncts, the two tests on the edge table, are opened.)
-/
import proofs.«404812_j66486093742317_1_alg».proof.Pre_finite_inputs
import proofs.«404812_j66486093742317_1_alg».proof.Proof.GcnSpec
import Idealize.ShloMosaic.Lib.ReduceAll
import Idealize.ShloMosaic.Lib.StableHlo.Predicate

noncomputable section

namespace Cert.PreRange

open Idealize.ShloMosaic Idealize.ShloMosaic.ValueIdx

/-- A rank-0 shape has one index. -/
instance subsingleton_scalar_idx : Subsingleton Cert.Pre_finite_inputs.S_.Idx := ⟨fun _ _ => funext fun d => d.elim0⟩

/-- The word zero read signed is zero. -/
theorem toInt_zero32 : (0#32 : BitVec 32).toInt = 0 := by decide
/-- The word 50000 read signed is 50000. -/
theorem toInt_50000 : (50000#32 : BitVec 32).toInt = 50000 := by decide

/-- Under the precondition every entry of the edge table names a node. The predicate is a conjunction whose last two
    conjuncts are "every entry is at least zero" and "every entry is below 50000", each an and over the whole table of
    a signed comparison with a constant; a conjunction that is one has both conjuncts one, an and over a table that is
    one has every entry one, and a signed comparison that is one says the inequality of the signed readings. -/
theorem inRange_of_pre [Cert.Pre_finite_inputs.Facts] (x0 : Gcn.A2 50000 128) (x1 : IVec ⟨2, ![2, 600000]⟩ 32) (x2 : Gcn.A2 64 256) (x3 : Gcn.A1 64)
    (x4 : Gcn.A2 1 64) (x5 : Gcn.A1 1) (x6 : Gcn.A2 128 128) (x7 : Gcn.A1 128) (x8 : Gcn.A2 128 128) (x9 : Gcn.A1 128)
    (x10 : Gcn.A2 2 128) (x11 : Gcn.A1 2)
    (h : Cert.Pre_finite_inputs.fn (F := Ideal) x0 x1 x2 x3 x4 x5 x6 x7 x8 x9 x10 x11 = fun _ => 1#1) : Gcn.InRange x1 := by
  have e := congrFun h ValueIdx.ix0
  dsimp only [Cert.Pre_finite_inputs.fn, Cert.Pre_finite_inputs.fn_part1, Cert.Pre_finite_inputs.fn_part2,
    Cert.Pre_finite_inputs.fn_part3] at e
  obtain ⟨e57, e60⟩ := IntOp.andi_eq_one.1 (show IntOp.andi _ _ = 1#1 from e)
  obtain ⟨-, e56⟩ := IntOp.andi_eq_one.1 (show IntOp.andi _ _ = 1#1 from e57)
  have g0 := Host.reduce_andi_all _ _ _ _ _ e56
  have g1 := Host.reduce_andi_all _ _ _ _ _ e60
  intro j
  have a0 : (0#32 : BitVec 32).toInt ≤ (x1 j).toInt := IntOp.cmpi_sge.1 (g0 j)
  have a1 : (x1 j).toInt < (50000#32 : BitVec 32).toInt := IntOp.cmpi_slt.1 (g1 j)
  rw [toInt_zero32] at a0
  rw [toInt_50000] at a1
  exact ⟨a0, a1⟩

end Cert.PreRange

end
-- ==== Proof.lean ====
/-
  The certificate's claim: a graph network with learned edge weights, two rounds of degree-normalised message passing
  and a logistic head, computed by a program of six Pallas regions among host gathers and scatter-adds, against its plain
  array-language reference — equal, entry by entry, over the extended reals, for every finite float input and every edge
  table whose entries name nodes (`0 ≤ entry < 50000`: outside it the reference's own row lookups leave the table).

  The frames of the two kernel programs are the generated ones; the reference's frame is its generated run with the result
  dropped; the idealization rewrote nothing. What is proved here is the value claim. Both programs are read down to one
  description (`GcnSpec`): the edge weight at an edge is one function of the feature rows of its two end points; the
  degree normalisation is one chain of array operations of the target column and the edge weights, which both programs
  apply as it stands; a projection is a matrix product; a round of message passing at node `i` sums the normalised
  messages of the edges that end in `i`, adds the self loop `D i · D i` times the node's own projection and the bias, and
  cuts at zero (the reference lists the self loops as 50000 further edges: the same sum, regrouped); the head is a
  matrix product, a bias and a logistic. The kernel program's side is read off the run of its regions and host
  stretches (`KernelEdge`, `KernelNorm`, `KernelLayer1`, `KernelLayer2`, over the closed forms of the six regions), the
  reference's off the stages of its run (`RefEdge`, `RefLayers`); the range of the edge table comes out of the printed
  precondition (`PreRange`). Equal operands then give equal results, stage by stage, down to the result array.
-/
import proofs.«404812_j66486093742317_1_alg».proof.Defs
import proofs.«404812_j66486093742317_1_alg».proof.Proof.Gen.Kernel
import proofs.«404812_j66486093742317_1_alg».proof.Proof.Gen.Kernel.Frame
import proofs.«404812_j66486093742317_1_alg».proof.Proof.Gen.KernelIdeal
import proofs.«404812_j66486093742317_1_alg».proof.Proof.Gen.KernelIdeal.Frame
import proofs.«404812_j66486093742317_1_alg».proof.Proof.Gen.ReferenceIdeal
import proofs.«404812_j66486093742317_1_alg».proof.Proof.RefStages
import proofs.«404812_j66486093742317_1_alg».proof.Proof.RefRun
import proofs.«404812_j66486093742317_1_alg».proof.Proof.Gen.Pre_finite_inputs
import proofs.«404812_j66486093742317_1_alg».proof.Proof.KernelRun
import proofs.«404812_j66486093742317_1_alg».proof.Proof.KernelEdge
import proofs.«404812_j66486093742317_1_alg».proof.Proof.KernelNorm
import proofs.«404812_j66486093742317_1_alg».proof.Proof.KernelLayer1
import proofs.«404812_j66486093742317_1_alg».proof.Proof.KernelLayer2
import proofs.«404812_j66486093742317_1_alg».proof.Proof.RefEdge
import proofs.«404812_j66486093742317_1_alg».proof.Proof.RefLayers
import proofs.«404812_j66486093742317_1_alg».proof.Proof.PreRange
import Idealize.ShloMosaic.Adequacy
import Idealize.ShloMosaic.Init

noncomputable section

namespace Cert.Proof

open Idealize.ShloMosaic Idealize.SL.Sem Idealize.ShloMosaic.ValueIdx

/-! ## The two programs' results are one array -/

section Value
open Cert.KernelIdeal Cert.KernelIdeal.Gen Cert.ReferenceIdeal.Read

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel program's result array is the reference's last stage at the same arguments: the target columns agree
    entry by entry, so do the edge weights; hence the degree normalisations (one chain of the two); hence the first
    projection and the first round; hence the second projection and the second round; hence the head. -/
theorem result_eq (hr : Gcn.InRange (aEI m c)) :
    kOut m ρ c = val_main_v147 (F := Ideal) (aX m c) (aEI m c) (aWp1 m c) (aBp1 m c) (aWp2 m c) (aBp2 m c) (aW1 m c) (aB1 m c)
      (aW2 m c) (aB2 m c) (aWl m c) (aBl m c) := by
  have hdst : kDstCol m ρ c = val_main_v3 (F := Ideal) (aEI m c) := by
    funext j
    obtain ⟨e, rfl⟩ : ∃ e : Fin 600000, j = ix1 e := ⟨j 0, eq_ix1 j⟩
    rw [dstCol_value, Cert.ReferenceIdeal.RefValue.dstCol_value]
  have hew : kEw m ρ c = val_main_v36 (F := Ideal) (aX m c) (aEI m c) (aWp1 m c) (aBp1 m c) (aWp2 m c) (aBp2 m c) := by
    funext j
    obtain ⟨e, rfl⟩ : ∃ e : Fin 600000, j = ix1 e := ⟨j 0, eq_ix1 j⟩
    rw [ew_value m ρ c hr, Cert.ReferenceIdeal.RefValue.ew_value _ _ _ _ _ _ hr]
  have hD : kDinv m ρ c = val_main_v51 (F := Ideal) (aX m c) (aEI m c) (aWp1 m c) (aBp1 m c) (aWp2 m c) (aBp2 m c) := by
    rw [dinv_term, Cert.ReferenceIdeal.RefValue.dinv1_term, hdst, hew]
  have hD2 : val_main_v101 (F := Ideal) (aX m c) (aEI m c) (aWp1 m c) (aBp1 m c) (aWp2 m c) (aBp2 m c)
      = val_main_v51 (F := Ideal) (aX m c) (aEI m c) (aWp1 m c) (aBp1 m c) (aWp2 m c) (aBp2 m c) := by
    rw [Cert.ReferenceIdeal.RefValue.dinv1_term, Cert.ReferenceIdeal.RefValue.dinv2_term]
  have hxl1 : kXl1 m ρ c = val_main_v69 (F := Ideal) (aX m c) (aW1 m c) := by
    funext j
    obtain ⟨i, k, rfl⟩ : ∃ (i : Fin 50000) (k : Fin 128), j = ix2 i k := ⟨j 0, j 1, eq_ix2 j⟩
    rw [xl1_value, Cert.ReferenceIdeal.RefValue.xl1_value]
  have hx1 : kX1 m ρ c = val_main_v86 (F := Ideal) (aX m c) (aEI m c) (aWp1 m c) (aBp1 m c) (aWp2 m c) (aBp2 m c) (aW1 m c) (aB1 m c) := by
    funext j
    obtain ⟨i, k, rfl⟩ : ∃ (i : Fin 50000) (k : Fin 128), j = ix2 i k := ⟨j 0, j 1, eq_ix2 j⟩
    rw [x1_value m ρ c hr, Cert.ReferenceIdeal.RefValue.x1_value _ _ _ _ _ _ _ _ hr, hD, hew, hxl1]
  have hxl2 : kXl2 m ρ c = val_main_v119 (F := Ideal) (aX m c) (aEI m c) (aWp1 m c) (aBp1 m c) (aWp2 m c) (aBp2 m c) (aW1 m c) (aB1 m c) (aW2 m c) := by
    funext j
    obtain ⟨i, k, rfl⟩ : ∃ (i : Fin 50000) (k : Fin 128), j = ix2 i k := ⟨j 0, j 1, eq_ix2 j⟩
    rw [xl2_value, Cert.ReferenceIdeal.RefValue.xl2_value, hx1]
  have hx2 : kX2 m ρ c = val_main_v136 (F := Ideal) (aX m c) (aEI m c) (aWp1 m c) (aBp1 m c) (aWp2 m c) (aBp2 m c) (aW1 m c) (aB1 m c) (aW2 m c) (aB2 m c) := by
    funext j
    obtain ⟨i, k, rfl⟩ : ∃ (i : Fin 50000) (k : Fin 128), j = ix2 i k := ⟨j 0, j 1, eq_ix2 j⟩
    rw [x2_value m ρ c hr, Cert.ReferenceIdeal.RefValue.x2_value _ _ _ _ _ _ _ _ _ _ hr, hD2, hD, hew, hxl2]
  funext j
  obtain ⟨i, k, rfl⟩ : ∃ (i : Fin 50000) (k : Fin 2), j = ix2 i k := ⟨j 0, j 1, eq_ix2 j⟩
  rw [out_value, Cert.ReferenceIdeal.RefValue.out_value, hx2]

end Value

/-! ## The claims -/

/-- The word-level kernel program runs and keeps its arguments: the generated frame. -/
theorem frame_p : Cert.frame_Kernel := fun m ρ _ => Cert.Kernel.Gen.frame m ρ

/-- The idealized kernel program runs and keeps its arguments: the generated frame. -/
theorem frame_pi : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the arguments both programs run, and end with the same result array: the kernel
    program's run names its result (the fold through its regions), the reference's run names its last stage, and under
    the precondition's range of the edge table the two are one array (`result_eq`). -/
theorem algebraic : Cert.algebraic_KernelIdeal_ReferenceIdeal := by
  intro m ρ m' ρ' hpre hagree
  have hr : ∀ c, Gcn.InRange (Cert.KernelIdeal.Gen.aEI m c) := fun c =>
    Cert.PreRange.inRange_of_pre _ _ _ _ _ _ _ _ _ _ _ _ (hpre c)
  refine ⟨fun c => Cert.KernelIdeal.Gen.kOut m ρ c, Cert.KernelIdeal.Gen.run_named m ρ, ?_⟩
  refine (θ_run Cert.ReferenceIdeal.defs _ _).mono (fun r h c => ⟨(h c).1.trans ?_, (h c).2⟩)
    (Cert.ReferenceIdeal.RunP.run (F := Ideal) m' ρ')
  obtain ⟨h0, h1, h2, h3, h4, h5, h6, h7, h8, h9, h10, h11⟩ := hagree c
  rw [h0, h1, h2, h3, h4, h5, h6, h7, h8, h9, h10, h11]
  exact (result_eq m ρ c (hr c)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
